-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1000000x2 : Shape := ⟨2, ![1000000, 2]⟩
abbrev S1000000x1 : Shape := ⟨2, ![1000000, 1]⟩
abbrev S1x3 : Shape := ⟨2, ![1, 3]⟩
abbrev S3 : Shape := ⟨1, ![3]⟩
abbrev S3x3 : Shape := ⟨2, ![3, 3]⟩
abbrev S2x3 : Shape := ⟨2, ![2, 3]⟩
abbrev S9x3 : Shape := ⟨2, ![9, 3]⟩
abbrev S16000000 : Shape := ⟨1, ![16000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S1000000x2 : S_.BroadcastsInDim S1000000x2 (![] : Fin 0 → Fin S1000000x2.rank)
  reducesTo_S1000000x2_S_d0_1 : S1000000x2.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S1x3 : S_.BroadcastsInDim S1x3 (![] : Fin 0 → Fin S1x3.rank)
  reducesTo_S1x3_S_d0_1 : S1x3.ReducesTo [0, 1] S_
  bcast_S_S3 : S_.BroadcastsInDim S3 (![] : Fin 0 → Fin S3.rank)
  reducesTo_S3_S_d0 : S3.ReducesTo [0] S_
  bcast_S_S3x3 : S_.BroadcastsInDim S3x3 (![] : Fin 0 → Fin S3x3.rank)
  reducesTo_S3x3_S_d0_1 : S3x3.ReducesTo [0, 1] S_
  bcast_S_S2x3 : S_.BroadcastsInDim S2x3 (![] : Fin 0 → Fin S2x3.rank)
  reducesTo_S2x3_S_d0_1 : S2x3.ReducesTo [0, 1] S_
  bcast_S_S9x3 : S_.BroadcastsInDim S9x3 (![] : Fin 0 → Fin S9x3.rank)
  reducesTo_S9x3_S_d0_1 : S9x3.ReducesTo [0, 1] S_
  bcast_S_S16000000 : S_.BroadcastsInDim S16000000 (![] : Fin 0 → Fin S16000000.rank)
  reducesTo_S16000000_S_d0 : S16000000.ReducesTo [0] S_

variable [Facts]

def fn_part3 {F : FTy → Type} [FloatOps F] (main_arg11 : IVec S16000000 32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_c_20 : IVec S_ 32 := constantI S_ 32 0#32
  let main_v54 : IVec S16000000 32 := broadcastInDim S16000000 ![] bcast_S_S16000000 main_c_20
  let main_v55 : IVec S16000000 1 := cmpi .sge main_arg11 main_v54
  let main_c_21 : IVec S_ 32 := constantI S_ 32 999999#32
  let main_v56 : IVec S16000000 32 := broadcastInDim S16000000 ![] bcast_S_S16000000 main_c_21
  let main_v57 : IVec S16000000 1 := cmpi .sle main_arg11 main_v56
  let main_v58 : IVec S16000000 1 := andi main_v55 main_v57
  let main_c_22 : IVec S_ 1 := constantI S_ 1 1#1
  let main_v59 : IVec S_ 1 := (fun x v => Host.reduce IntOp.andi x v reducesTo_S16000000_S_d0 h_S_) main_v58 main_c_22
  let main_v60 : IVec S_ 1 := andi main_v53 main_v59
  main_v60

def fn_part2 {F : FTy → Type} [FloatOps F] (main_arg7 : FVec F S2x3 .f32) (main_arg8 : FVec F S3 .f32) (main_arg9 : FVec F S9x3 .f32) (main_arg10 : FVec F S3 .f32) (main_arg11 : IVec S16000000 32) (main_v33 : IVec S_ 1) : IVec S_ 1 :=
  let main_v34 : FVec F S2x3 .f32 := Host.absf main_arg7
  let main_cst_12 : FVec F S_ .f32 := constant S_ .f32 0x7F800000#32
  let main_v35 : FVec F S2x3 .f32 := broadcastInDim S2x3 ![] bcast_S_S2x3 main_cst_12
  let main_v36 : IVec S2x3 1 := cmpf .olt main_v34 main_v35
  let main_c_13 : IVec S_ 1 := constantI S_ 1 1#1
  let main_v37 : IVec S_ 1 := (fun x v => Host.reduce IntOp.andi x v reducesTo_S2x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S9x3 .f32 := Host.absf main_arg9
  let main_cst_16 : FVec F S_ .f32 := constant S_ .f32 0x7F800000#32
  let main_v45 : FVec F S9x3 .f32 := broadcastInDim S9x3 ![] bcast_S_S9x3 main_cst_16
  let main_v46 : IVec S9x3 1 := cmpf .olt main_v44 main_v45
  let main_c_17 : IVec S_ 1 := constantI S_ 1 1#1
  let main_v47 : IVec S_ 1 := (fun x v => Host.reduce IntOp.andi x v reducesTo_S9x3_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_arg11 main_v48 main_v49 main_v50

def fn_part1 {F : FTy → Type} [FloatOps F] (main_arg4 : FVec F S3 .f32) (main_arg5 : FVec F S3x3 .f32) (main_arg6 : FVec F S3 .f32) (main_arg7 : FVec F S2x3 .f32) (main_arg8 : FVec F S3 .f32) (main_arg9 : FVec F S9x3 .f32) (main_arg10 : FVec F S3 .f32) (main_arg11 : IVec S16000000 32) (main_v13 : IVec S_ 1) (main_v16 : IVec S1x3 1) : IVec S_ 1 :=
  let main_c_5 : IVec S_ 1 := constantI S_ 1 1#1
  let main_v17 : IVec S_ 1 := (fun x v => Host.reduce IntOp.andi x v reducesTo_S1x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x3 .f32 := Host.absf main_arg5
  let main_cst_8 : FVec F S_ .f32 := constant S_ .f32 0x7F800000#32
  let main_v25 : FVec F S3x3 .f32 := broadcastInDim S3x3 ![] bcast_S_S3x3 main_cst_8
  let main_v26 : IVec S3x3 1 := cmpf .olt main_v24 main_v25
  let main_c_9 : IVec S_ 1 := constantI S_ 1 1#1
  let main_v27 : IVec S_ 1 := (fun x v => Host.reduce IntOp.andi x v reducesTo_S3x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1000000x3 .f32) (main_arg1 : FVec F S1000000x2 .f32) (main_arg2 : FVec F S1000000x1 .f32) (main_arg3 : FVec F S1x3 .f32) (main_arg4 : FVec F S3 .f32) (main_arg5 : FVec F S3x3 .f32) (main_arg6 : FVec F S3 .f32) (main_arg7 : FVec F S2x3 .f32) (main_arg8 : FVec F S3 .f32) (main_arg9 : FVec F S9x3 .f32) (main_arg10 : FVec F S3 .f32) (main_arg11 : IVec S16000000 32) (main_arg12 : IVec S16000000 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1000000x2 .f32 := Host.absf main_arg1
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_v9 : FVec F S1000000x1 .f32 := Host.absf main_arg2
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S1x3 .f32 := Host.absf main_arg3
  let main_cst_4 : FVec F S_ .f32 := constant S_ .f32 0x7F800000#32
  let main_v15 : FVec F S1x3 .f32 := broadcastInDim S1x3 ![] bcast_S_S1x3 main_cst_4
  let main_v16 : IVec S1x3 1 := cmpf .olt main_v14 main_v15
  fn_part1 (F := F) main_arg4 main_arg5 main_arg6 main_arg7 main_arg8 main_arg9 main_arg10 main_arg11 main_v13 main_v16
-- ==== Kernel.lean ====
abbrev S1000000x3 : Shape := ⟨2, ![1000000, 3]⟩
abbrev S1000000x2 : Shape := ⟨2, ![1000000, 2]⟩
abbrev S1000000x1 : Shape := ⟨2, ![1000000, 1]⟩
abbrev S1x3 : Shape := ⟨2, ![1, 3]⟩
abbrev S3 : Shape := ⟨1, ![3]⟩
abbrev S3x3 : Shape := ⟨2, ![3, 3]⟩
abbrev S2x3 : Shape := ⟨2, ![2, 3]⟩
abbrev S9x3 : Shape := ⟨2, ![9, 3]⟩
abbrev S16000000 : Shape := ⟨1, ![16000000]⟩
abbrev S_ : Shape := ⟨0, ![]⟩
abbrev S16000000x1 : Shape := ⟨2, ![16000000, 1]⟩
abbrev S1 : Shape := ⟨1, ![1]⟩
abbrev S1x1 : Shape := ⟨2, ![1, 1]⟩
abbrev S16000000x3 : Shape := ⟨2, ![16000000, 3]⟩
abbrev S16000000x4 : Shape := ⟨2, ![16000000, 4]⟩
abbrev S1000000x4 : Shape := ⟨2, ![1000000, 4]⟩
abbrev S1x1000000 : Shape := ⟨2, ![1, 1000000]⟩
abbrev S4x1000000 : Shape := ⟨2, ![4, 1000000]⟩
abbrev S3x1000000 : Shape := ⟨2, ![3, 1000000]⟩
abbrev S2x1000000 : Shape := ⟨2, ![2, 1000000]⟩
abbrev S10x1000000 : Shape := ⟨2, ![10, 1000000]⟩
abbrev S10x1048576 : Shape := ⟨2, ![10, 1048576]⟩
abbrev S3x1 : Shape := ⟨2, ![3, 1]⟩
abbrev S3x2 : Shape := ⟨2, ![3, 2]⟩
abbrev S3x9 : Shape := ⟨2, ![3, 9]⟩
abbrev S3x1048576 : Shape := ⟨2, ![3, 1048576]⟩
abbrev S10x65536 : Shape := ⟨2, ![10, 65536]⟩
abbrev S3x65536 : Shape := ⟨2, ![3, 65536]⟩
abbrev S1x65536 : Shape := ⟨2, ![1, 65536]⟩
abbrev S2x65536 : Shape := ⟨2, ![2, 65536]⟩
abbrev S9x65536 : Shape := ⟨2, ![9, 65536]⟩

abbrev nBuf : Space → Nat
  | .hbm => 62
  | .vmem => 10
  | .smem => 0
  | _ => 0

abbrev bufTy : (tb : Table) → Fin (tcTables nBuf tb) → BufTy
  | .hbm, ⟨0, _⟩ => ⟨S1000000x3, .f32⟩
  | .hbm, ⟨1, _⟩ => ⟨S1000000x2, .f32⟩
  | .hbm, ⟨2, _⟩ => ⟨S1000000x1, .f32⟩
  | .hbm, ⟨3, _⟩ => ⟨S1x3, .f32⟩
  | .hbm, ⟨4, _⟩ => ⟨S3, .f32⟩
  | .hbm, ⟨5, _⟩ => ⟨S3x3, .f32⟩
  | .hbm, ⟨6, _⟩ => ⟨S3, .f32⟩
  | .hbm, ⟨7, _⟩ => ⟨S2x3, .f32⟩
  | .hbm, ⟨8, _⟩ => ⟨S3, .f32⟩
  | .hbm, ⟨9, _⟩ => ⟨S9x3, .f32⟩
  | .hbm, ⟨10, _⟩ => ⟨S3, .f32⟩
  | .hbm, ⟨11, _⟩ => ⟨S16000000, .i32⟩
  | .hbm, ⟨12, _⟩ => ⟨S16000000, .i32⟩
  | .hbm, ⟨13, _⟩ => ⟨S_, .i32⟩
  | .hbm, ⟨14, _⟩ => ⟨S16000000, .i32⟩
  | .hbm, ⟨15, _⟩ => ⟨S16000000, .i1⟩
  | .hbm, ⟨16, _⟩ => ⟨S_, .i32⟩
  | .hbm, ⟨17, _⟩ => ⟨S16000000, .i32⟩
  | .hbm, ⟨18, _⟩ => ⟨S16000000, .i32⟩
  | .hbm, ⟨19, _⟩ => ⟨S16000000, .i32⟩
  | .hbm, ⟨20, _⟩ => ⟨S16000000x1, .i32⟩
  | .hbm, ⟨21, _⟩ => ⟨S1, .i32⟩
  | .hbm, ⟨22, _⟩ => ⟨S_, .i32⟩
  | .hbm, ⟨23, _⟩ => ⟨S16000000x1, .i32⟩
  | .hbm, ⟨24, _⟩ => ⟨S16000000x1, .i1⟩
  | .hbm, ⟨25, _⟩ => ⟨S1x1, .i32⟩
  | .hbm, ⟨26, _⟩ => ⟨S16000000x1, .i32⟩
  | .hbm, ⟨27, _⟩ => ⟨S16000000x1, .i1⟩
  | .hbm, ⟨28, _⟩ => ⟨S16000000x1, .i1⟩
  | .hbm, ⟨29, _⟩ => ⟨S_, .i1⟩
  | .hbm, ⟨30, _⟩ => ⟨S16000000, .i1⟩
  | .hbm, ⟨31, _⟩ => ⟨S16000000x3, .f32⟩
  | .hbm, ⟨32, _⟩ => ⟨S16000000x3, .i1⟩
  | .hbm, ⟨33, _⟩ => ⟨S_, .f32⟩
  | .hbm, ⟨34, _⟩ => ⟨S16000000x3, .f32⟩
  | .hbm, ⟨35, _⟩ => ⟨S16000000x3, .f32⟩
  | .hbm, ⟨36, _⟩ => ⟨S_, .f32⟩
  | .hbm, ⟨37, _⟩ => ⟨S16000000x1, .f32⟩
  | .hbm, ⟨38, _⟩ => ⟨S16000000x4, .f32⟩
  | .hbm, ⟨39, _⟩ => ⟨S_, .f32⟩
  | .hbm, ⟨40, _⟩ => ⟨S1000000x4, .f32⟩
  | .hbm, ⟨41, _⟩ => ⟨S16000000x1, .i32⟩
  | .hbm, ⟨42, _⟩ => ⟨S1000000x4, .f32⟩
  | .hbm, ⟨43, _⟩ => ⟨S1x1000000, .f32⟩
  | .hbm, ⟨44, _⟩ => ⟨S4x1000000, .f32⟩
  | .hbm, ⟨45, _⟩ => ⟨S3x1000000, .f32⟩
  | .hbm, ⟨46, _⟩ => ⟨S2x1000000, .f32⟩
  | .hbm, ⟨47, _⟩ => ⟨S10x1000000, .f32⟩
  | .hbm, ⟨48, _⟩ => ⟨S_, .i32⟩
  | .hbm, ⟨49, _⟩ => ⟨S_, .f32⟩
  | .hbm, ⟨50, _⟩ => ⟨S10x1048576, .f32⟩
  | .hbm, ⟨51, _⟩ => ⟨S3, .f32⟩
  | .hbm, ⟨52, _⟩ => ⟨S3, .f32⟩
  | .hbm, ⟨53, _⟩ => ⟨S3x1, .f32⟩
  | .hbm, ⟨54, _⟩ => ⟨S3x1, .f32⟩
  | .hbm, ⟨55, _⟩ => ⟨S3x1, .f32⟩
  | .hbm, ⟨56, _⟩ => ⟨S3x3, .f32⟩
  | .hbm, ⟨57, _⟩ => ⟨S3x2, .f32⟩
  | .hbm, ⟨58, _⟩ => ⟨S3x9, .f32⟩
  | .hbm, ⟨59, _⟩ => ⟨S3x1048576, .f32⟩
  | .hbm, ⟨60, _⟩ => ⟨S3x1000000, .f32⟩
  | .hbm, ⟨61, _⟩ => ⟨S1000000x3, .f32⟩
  | .local _ .vmem, ⟨0, _⟩ => ⟨S10x65536, .f32⟩
  | .local _ .vmem, ⟨1, _⟩ => ⟨S10x65536, .f32⟩
  | .local _ .vmem, ⟨2, _⟩ => ⟨S3x1, .f32⟩
  | .local _ .vmem, ⟨3, _⟩ => ⟨S3x3, .f32⟩
  | .local _ .vmem, ⟨4, _⟩ => ⟨S3x2, .f32⟩
  | .local _ .vmem, ⟨5, _⟩ => ⟨S3x9, .f32⟩
  | .local _ .vmem, ⟨6, _⟩ => ⟨S3x1, .f32⟩
  | .local _ .vmem, ⟨7, _⟩ => ⟨S3x1, .f32⟩
  | .local _ .vmem, ⟨8, _⟩ => ⟨S3x65536, .f32⟩
  | .local _ .vmem, ⟨9, _⟩ => ⟨S3x65536, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_cst : Ref sig .tc := ⟨.hbm, 36, rfl⟩
abbrev main_v1 : Ref sig .tc := ⟨.hbm, 37, rfl⟩
abbrev main_v2 : Ref sig .tc := ⟨.hbm, 38, rfl⟩
abbrev main_cst_0 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_c : Ref sig .tc := ⟨.hbm, 48, rfl⟩
abbrev main_call1_v0 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x65536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  bcast_S16000000_S16000000x3_0 : S16000000.BroadcastsInDim S16000000x3 (![0] : Fin 1 → Fin S16000000x3.rank)
  bcast_S_S16000000x3 : S_.BroadcastsInDim S16000000x3 (![] : Fin 0 → Fin S16000000x3.rank)
  concatenates_S16000000x3_S16000000x1_S16000000x4_d1 : Shape.Concatenates [S16000000x3, S16000000x1] S16000000x4 1
  bcast_S_S1000000x4 : S_.BroadcastsInDim S1000000x4 (![] : Fin 0 → Fin S1000000x4.rank)
  transposes_S1000000x1_S1x1000000_1_0 : S1000000x1.Transposes [1, 0] S1x1000000
  transposes_S1000000x4_S4x1000000_1_0 : S1000000x4.Transposes [1, 0] S4x1000000
  transposes_S1000000x3_S3x1000000_1_0 : S1000000x3.Transposes [1, 0] S3x1000000
  transposes_S1000000x2_S2x1000000_1_0 : S1000000x2.Transposes [1, 0] S2x1000000
  concatenates_S1x1000000_S4x1000000_S3x1000000_S2x1000000_S10x1000000_d0 : Shape.Concatenates [S1x1000000, S4x1000000, S3x1000000, S2x1000000] S10x1000000 0
  pads_S10x1000000_S10x1048576_000_0485760 : S10x1000000.Pads (![0, 0] : Fin 2 → Nat) ![0, 48576] ![0, 0] S10x1048576
  shapeCasts_S3_S3x1 : S3.ShapeCasts S3x1
  transposes_S1x3_S3x1_1_0 : S1x3.Transposes [1, 0] S3x1
  transposes_S3x3_S3x3_1_0 : S3x3.Transposes [1, 0] S3x3
  transposes_S2x3_S3x2_1_0 : S2x3.Transposes [1, 0] S3x2
  transposes_S9x3_S3x9_1_0 : S9x3.Transposes [1, 0] S3x9
  inb_S10x65536_S10x65536_0_0 : ∀ a, (![0, 0] : Fin 2 → Nat) a + S10x65536.size a ≤ S10x65536.size a
  h_S10x65536 : 0 < S10x65536.numel
  shapeCasts_S10x65536_S10x65536 : S10x65536.ShapeCasts S10x65536
  slices_S10x65536_o0_0_S1x65536 : S10x65536.Slices ![0, 0] S1x65536
  slices_S10x65536_o1_0_S3x65536 : S10x65536.Slices ![1, 0] S3x65536
  slices_S10x65536_o4_0_S1x65536 : S10x65536.Slices ![4, 0] S1x65536
  slices_S10x65536_o5_0_S3x65536 : S10x65536.Slices ![5, 0] S3x65536
  slices_S10x65536_o8_0_S2x65536 : S10x65536.Slices ![8, 0] S2x65536
  broadcasts_S1x65536_S3x65536 : S1x65536.Broadcasts S3x65536
  inb_S3x1_S3x1_0_0 : ∀ a, (![0, 0] : Fin 2 → Nat) a + S3x1.size a ≤ S3x1.size a
  h_S3x1 : 0 < S3x1.numel
  shapeCasts_S3x1_S3x1 : S3x1.ShapeCasts S3x1
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S3x2_S3x2_0_0 : ∀ a, (![0, 0] : Fin 2 → Nat) a + S3x2.size a ≤ S3x2.size a
  h_S3x2 : 0 < S3x2.numel
  shapeCasts_S3x2_S3x2 : S3x2.ShapeCasts S3x2
  broadcasts_S3x1_S3x65536 : S3x1.Broadcasts S3x65536
  concatenates_S3x65536_S3x65536_S3x65536_S9x65536_d0 : Shape.Concatenates [S3x65536, S3x65536, S3x65536] S9x65536 0
  inb_S3x9_S3x9_0_0 : ∀ a, (![0, 0] : Fin 2 → Nat) a + S3x9.size a ≤ S3x9.size a
  h_S3x9 : 0 < S3x9.numel
  shapeCasts_S3x9_S3x9 : S3x9.ShapeCasts S3x9
  inb_S3x65536_S3x65536_0_0 : ∀ a, (![0, 0] : Fin 2 → Nat) a + S3x65536.size a ≤ S3x65536.size a
  h_S3x65536 : 0 < S3x65536.numel
  slices_S3x1048576_S3x1000000_0_0 : S3x1048576.Slices ![0, 0] S3x1000000
  transposes_S3x1000000_S1000000x3_1_0 : S3x1000000.Transposes [1, 0] S1000000x3
  gather_S1000000x3_S16000000x1_S16000000x3_1_0_n_n_0_1_13_wf : GatherDims.WF S1000000x3 S16000000x1 S16000000x3 [1] [0] [] [0] [] 1 ![1, 3]
  scatter_S1000000x4_S16000000x1_S16000000x4_1_0_0_1_wf : ScatterDims.WF S1000000x4 S16000000x1 S16000000x4 [1] [0] [0] 1
  dot_S3x1_S1x65536_S3x65536_1_0_0_1_n_n_wf : DotDims.WF S3x1 S1x65536 S3x65536 [1] [0] [0] [1] [] []
  dot_S3x3_S3x65536_S3x65536_1_0_0_1_n_n_wf : DotDims.WF S3x3 S3x65536 S3x65536 [1] [0] [0] [1] [] []
  dot_S3x2_S2x65536_S3x65536_1_0_0_1_n_n_wf : DotDims.WF S3x2 S2x65536 S3x65536 [1] [0] [0] [1] [] []
  dot_S3x9_S9x65536_S3x65536_1_0_0_1_n_n_wf : DotDims.WF S3x9 S9x65536 S3x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x65536.size a ≤ S10x1048576.size a
  hwx0_0 : ∀ i : grid0.Coords, EltTy.bits .f32 = 32 ∨ (Rect.block (s := S10x1048576) S10x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1.size a ≤ S3x1.size a
  hwx0_1 : ∀ i : grid0.Coords, EltTy.bits .f32 = 32 ∨ (Rect.block (s := S3x1) S3x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3.size a ≤ S3x3.size a
  hwx0_2 : ∀ i : grid0.Coords, EltTy.bits .f32 = 32 ∨ (Rect.block (s := S3x3) S3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2.size a ≤ S3x2.size a
  hwx0_3 : ∀ i : grid0.Coords, EltTy.bits .f32 = 32 ∨ (Rect.block (s := S3x2) S3x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x9.size a ≤ S3x9.size a
  hwx0_4 : ∀ i : grid0.Coords, EltTy.bits .f32 = 32 ∨ (Rect.block (s := S3x9) S3x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1.size a ≤ S3x1.size a
  hwx0_5 : ∀ i : grid0.Coords, EltTy.bits .f32 = 32 ∨ (Rect.block (s := S3x1) S3x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x65536.size a ≤ S3x1048576.size a
  hwx0_7 : ∀ i : grid0.Coords, EltTy.bits .f32 = 32 ∨ (Rect.block (s := S3x1048576) S3x65536.size (cc0_transform_7 i) (hinb0_7 i)).WholeWords (EltTy.packing .f32)

variable [Facts₀]

def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x4_S16000000x1_S16000000x4_1_0_0_1 : ScatterDims S1000000x4 S16000000x1 S16000000x4 where
  updateWindowDims := [1]
  insertedWindowDims := [0]
  scatterDimsToOperandDims := [0]
  indexVectorDim := 1
  wf := scatter_S1000000x4_S16000000x1_S16000000x4_1_0_0_1_wf
def dot_S3x1_S1x65536_S3x65536_1_0_0_1_n_n : DotDims S3x1 S1x65536 S3x65536 where
  lhsContracting := [1]
  rhsContracting := [0]
  lhsNonContracting := [0]
  rhsNonContracting := [1]
  lhsBatch := []
  rhsBatch := []
  wf := dot_S3x1_S1x65536_S3x65536_1_0_0_1_n_n_wf
def dot_S3x3_S3x65536_S3x65536_1_0_0_1_n_n : DotDims S3x3 S3x65536 S3x65536 where
  lhsContracting := [1]
  rhsContracting := [0]
  lhsNonContracting := [0]
  rhsNonContracting := [1]
  lhsBatch := []
  rhsBatch := []
  wf := dot_S3x3_S3x65536_S3x65536_1_0_0_1_n_n_wf
def dot_S3x2_S2x65536_S3x65536_1_0_0_1_n_n : DotDims S3x2 S2x65536 S3x65536 where
  lhsContracting := [1]
  rhsContracting := [0]
  lhsNonContracting := [0]
  rhsNonContracting := [1]
  lhsBatch := []
  rhsBatch := []
  wf := dot_S3x2_S2x65536_S3x65536_1_0_0_1_n_n_wf
def dot_S3x9_S9x65536_S3x65536_1_0_0_1_n_n : DotDims S3x9 S9x65536 S3x65536 where
  lhsContracting := [1]
  rhsContracting := [0]
  lhsNonContracting := [0]
  rhsNonContracting := [1]
  lhsBatch := []
  rhsBatch := []
  wf := dot_S3x9_S9x65536_S3x65536_1_0_0_1_n_n_wf

abbrev win0_0 : Pipeline.Window sig grid0 :=
  Pipeline.Window.ofSpec (Memref.whole main_v11) S10x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S3x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S3x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S3x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S3x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S3x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S3x65536.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S1000000x2 : Shape := ⟨2, ![1000000, 2]⟩
abbrev S1000000x1 : Shape := ⟨2, ![1000000, 1]⟩
abbrev S1x3 : Shape := ⟨2, ![1, 3]⟩
abbrev S3 : Shape := ⟨1, ![3]⟩
abbrev S3x3 : Shape := ⟨2, ![3, 3]⟩
abbrev S2x3 : Shape := ⟨2, ![2, 3]⟩
abbrev S9x3 : Shape := ⟨2, ![9, 3]⟩
abbrev S16000000 : Shape := ⟨1, ![16000000]⟩
abbrev S_ : Shape := ⟨0, ![]⟩
abbrev S16000000x1 : Shape := ⟨2, ![16000000, 1]⟩
abbrev S16000000x3 : Shape := ⟨2, ![16000000, 3]⟩
abbrev S1000000 : Shape := ⟨1, ![1000000]⟩
abbrev S1000000x9 : Shape := ⟨2, ![1000000, 9]⟩

abbrev nBuf : Space → Nat
  | .hbm => 63
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S1000000x2, .f32⟩
  | .hbm, ⟨2, _⟩ => ⟨S1000000x1, .f32⟩
  | .hbm, ⟨3, _⟩ => ⟨S1x3, .f32⟩
  | .hbm, ⟨4, _⟩ => ⟨S3, .f32⟩
  | .hbm, ⟨5, _⟩ => ⟨S3x3, .f32⟩
  | .hbm, ⟨6, _⟩ => ⟨S3, .f32⟩
  | .hbm, ⟨7, _⟩ => ⟨S2x3, .f32⟩
  | .hbm, ⟨8, _⟩ => ⟨S3, .f32⟩
  | .hbm, ⟨9, _⟩ => ⟨S9x3, .f32⟩
  | .hbm, ⟨10, _⟩ => ⟨S3, .f32⟩
  | .hbm, ⟨11, _⟩ => ⟨S16000000, .i32⟩
  | .hbm, ⟨12, _⟩ => ⟨S16000000, .i32⟩
  | .hbm, ⟨13, _⟩ => ⟨S_, .i32⟩
  | .hbm, ⟨14, _⟩ => ⟨S16000000, .i32⟩
  | .hbm, ⟨15, _⟩ => ⟨S16000000, .i1⟩
  | .hbm, ⟨16, _⟩ => ⟨S_, .i32⟩
  | .hbm, ⟨17, _⟩ => ⟨S16000000, .i32⟩
  | .hbm, ⟨18, _⟩ => ⟨S16000000, .i32⟩
  | .hbm, ⟨19, _⟩ => ⟨S16000000, .i32⟩
  | .hbm, ⟨20, _⟩ => ⟨S16000000x1, .i32⟩
  | .hbm, ⟨21, _⟩ => ⟨S16000000x3, .f32⟩
  | .hbm, ⟨22, _⟩ => ⟨S_, .f32⟩
  | .hbm, ⟨23, _⟩ => ⟨S1000000x3, .f32⟩
  | .hbm, ⟨24, _⟩ => ⟨S16000000x1, .i32⟩
  | .hbm, ⟨25, _⟩ => ⟨S1000000x3, .f32⟩
  | .hbm, ⟨26, _⟩ => ⟨S_, .f32⟩
  | .hbm, ⟨27, _⟩ => ⟨S16000000, .f32⟩
  | .hbm, ⟨28, _⟩ => ⟨S_, .f32⟩
  | .hbm, ⟨29, _⟩ => ⟨S1000000, .f32⟩
  | .hbm, ⟨30, _⟩ => ⟨S16000000x1, .i32⟩
  | .hbm, ⟨31, _⟩ => ⟨S1000000, .f32⟩
  | .hbm, ⟨32, _⟩ => ⟨S_, .f32⟩
  | .hbm, ⟨33, _⟩ => ⟨S1000000, .f32⟩
  | .hbm, ⟨34, _⟩ => ⟨S1000000, .f32⟩
  | .hbm, ⟨35, _⟩ => ⟨S1000000x1, .f32⟩
  | .hbm, ⟨36, _⟩ => ⟨S1000000x3, .f32⟩
  | .hbm, ⟨37, _⟩ => ⟨S1000000x3, .f32⟩
  | .hbm, ⟨38, _⟩ => ⟨S1000000x3, .f32⟩
  | .hbm, ⟨39, _⟩ => ⟨S1x3, .f32⟩
  | .hbm, ⟨40, _⟩ => ⟨S1000000x3, .f32⟩
  | .hbm, ⟨41, _⟩ => ⟨S1000000x3, .f32⟩
  | .hbm, ⟨42, _⟩ => ⟨S1000000x3, .f32⟩
  | .hbm, ⟨43, _⟩ => ⟨S1000000x3, .f32⟩
  | .hbm, ⟨44, _⟩ => ⟨S1x3, .f32⟩
  | .hbm, ⟨45, _⟩ => ⟨S1000000x3, .f32⟩
  | .hbm, ⟨46, _⟩ => ⟨S1000000x3, .f32⟩
  | .hbm, ⟨47, _⟩ => ⟨S1000000x3, .f32⟩
  | .hbm, ⟨48, _⟩ => ⟨S1000000x3, .f32⟩
  | .hbm, ⟨49, _⟩ => ⟨S1x3, .f32⟩
  | .hbm, ⟨50, _⟩ => ⟨S1000000x3, .f32⟩
  | .hbm, ⟨51, _⟩ => ⟨S1000000x3, .f32⟩
  | .hbm, ⟨52, _⟩ => ⟨S_, .f32⟩
  | .hbm, ⟨53, _⟩ => ⟨S1000000x3, .f32⟩
  | .hbm, ⟨54, _⟩ => ⟨S1000000x3, .f32⟩
  | .hbm, ⟨55, _⟩ => ⟨S1000000x9, .f32⟩
  | .hbm, ⟨56, _⟩ => ⟨S1000000x3, .f32⟩
  | .hbm, ⟨57, _⟩ => ⟨S1x3, .f32⟩
  | .hbm, ⟨58, _⟩ => ⟨S1000000x3, .f32⟩
  | .hbm, ⟨59, _⟩ => ⟨S1000000x3, .f32⟩
  | .hbm, ⟨60, _⟩ => ⟨S_, .f32⟩
  | .hbm, ⟨61, _⟩ => ⟨S1000000x3, .f32⟩
  | .hbm, ⟨62, _⟩ => ⟨S1000000x3, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_cst : Ref sig .tc := ⟨.hbm, 60, rfl⟩
abbrev main_call1_v0 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000x3 : S_.BroadcastsInDim S1000000x3 (![] : Fin 0 → Fin S1000000x3.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  concatenates_S1000000x3_S1000000x3_S1000000x3_S1000000x9_d1 : Shape.Concatenates [S1000000x3, S1000000x3, S1000000x3] S1000000x9 1
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  scatter_S1000000_S16000000x1_S16000000_n_0_0_1_wf : ScatterDims.WF S1000000 S16000000x1 S16000000 [] [0] [0] 1
  dot_S1000000x1_S1x3_S1000000x3_1_0_0_1_n_n_wf : DotDims.WF S1000000x1 S1x3 S1000000x3 [1] [0] [0] [1] [] []
  dot_S1000000x3_S3x3_S1000000x3_1_0_0_1_n_n_wf : DotDims.WF S1000000x3 S3x3 S1000000x3 [1] [0] [0] [1] [] []
  dot_S1000000x2_S2x3_S1000000x3_1_0_0_1_n_n_wf : DotDims.WF S1000000x2 S2x3 S1000000x3 [1] [0] [0] [1] [] []
  dot_S1000000x9_S9x3_S1000000x3_1_0_0_1_n_n_wf : DotDims.WF S1000000x9 S9x3 S1000000x3 [1] [0] [0] [1] [] []

variable [Facts₀]

def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def dot_S1000000x1_S1x3_S1000000x3_1_0_0_1_n_n : DotDims S1000000x1 S1x3 S1000000x3 where
  lhsContracting := [1]
  rhsContracting := [0]
  lhsNonContracting := [0]
  rhsNonContracting := [1]
  lhsBatch := []
  rhsBatch := []
  wf := dot_S1000000x1_S1x3_S1000000x3_1_0_0_1_n_n_wf
def dot_S1000000x3_S3x3_S1000000x3_1_0_0_1_n_n : DotDims S1000000x3 S3x3 S1000000x3 where
  lhsContracting := [1]
  rhsContracting := [0]
  lhsNonContracting := [0]
  rhsNonContracting := [1]
  lhsBatch := []
  rhsBatch := []
  wf := dot_S1000000x3_S3x3_S1000000x3_1_0_0_1_n_n_wf
def dot_S1000000x2_S2x3_S1000000x3_1_0_0_1_n_n : DotDims S1000000x2 S2x3 S1000000x3 where
  lhsContracting := [1]
  rhsContracting := [0]
  lhsNonContracting := [0]
  rhsNonContracting := [1]
  lhsBatch := []
  rhsBatch := []
  wf := dot_S1000000x2_S2x3_S1000000x3_1_0_0_1_n_n_wf
def dot_S1000000x9_S9x3_S1000000x3_1_0_0_1_n_n : DotDims S1000000x9 S9x3 S1000000x3 where
  lhsContracting := [1]
  rhsContracting := [0]
  lhsNonContracting := [0]
  rhsNonContracting := [1]
  lhsBatch := []
  rhsBatch := []
  wf := dot_S1000000x9_S9x3_S1000000x3_1_0_0_1_n_n_wf

class Facts : Prop extends Facts₀ where

variable [Facts]
-- ==== Proof.KFrame.lean ====
/-
  The frame of the message-passing program: it runs to the end, faults nowhere and leaves its thirteen argument
  arrays as they were, and its result is named.

  The program is forty-six host operations (the gather of the source rows, the summation per destination, the
  re-layout to channels-first and the zero padding of the node axis to a multiple of the lane tile), one pipelined
  region of sixteen grid points, and two host operations after it (the cut back to the true node count and the
  transposition back to nodes-first).  Each grid point loads one tile of 65536 nodes (ten channels) and six small
  weight and bias blocks, and stores one tile of three channels: every load and the one store go through the whole
  staging buffer, so what the output buffer holds after the body is one pure function of the loaded blocks.
  The weight blocks are fetched at the first point only and found again, unchanged, at every later one.

  No host operation writes an argument array, so each is found, and left, as launched.
-/
import proofs.«400974_j5841155522892_2_alg».proof.Proof.Gen.Kernel.Launch
import proofs.«400974_j5841155522892_2_alg».proof.Proof.Gen.Kernel.Skeleton
import proofs.«400974_j5841155522892_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region is entered: the launch memory after the forty-six host operations. -/
abbrev V0 (c : Dev nD) : Valuation τ sig (Elt F) :=
  StableHlo.after (List.flatten [hostOps0, hostOps0_1, hostOps0_2, hostOps0_3]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the four stretches of host operations, the region, and the two operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The two operations after the region touch only arrays of the pipeline and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, Finset.mem_singleton] <;> exact StableHlo.devRef_ne_of_ne (by decide)

/-! ## The argument arrays are never written -/

/-- The thirteen argument arrays. -/
abbrev argRefs : List (Ref sig .tc) :=
  [main_arg0, main_arg1, main_arg2, main_arg3, main_arg4, main_arg5, main_arg6, main_arg7, main_arg8, main_arg9, main_arg10, main_arg11, main_arg12]

/-- No host operation before the region writes an argument array. -/
theorem pre_keeps : ∀ b ∈ argRefs,
    (List.flatten [hostOps0, hostOps0_1, hostOps0_2, hostOps0_3] : List (HloOp τ sig (Elt F))).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl
  all_goals (
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide))

/-- Nor does one after it. -/
theorem tail_keeps : ∀ b ∈ argRefs,
    (List.flatten [hostOps1] : List (HloOp τ sig (Elt F))).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl
  all_goals (
    simp only [hostOps1, List.flatten_cons, List.flatten_nil, List.append_nil, List.cons_append,
      List.nil_append, List.Forall, StableHlo.unary_writes, Finset.mem_singleton]
    repeat' apply And.intro
    all_goals exact StableHlo.devRef_ne_of_ne (by decide))

/-- No argument array is an array a window of the region stages. -/
theorem arg_not_arr : ∀ b ∈ argRefs, ∀ w, Pipeline.arrRef spec0 w ≠ b := by
  intro b hb
  simp only [argRefs, List.mem_cons, List.mem_nil_iff, or_false] at hb
  rcases hb with rfl | rfl | rfl | rfl | rfl | rfl | rfl | rfl | rfl | rfl | rfl | rfl | rfl
  all_goals exact (by decide)

/-- Each is an unscoped buffer that bypasses the region. -/
theorem arg_rest : ∀ b ∈ argRefs, b ∈ Pipeline.restRefs sig spec0 := by
  intro b hb
  simp only [argRefs, List.mem_cons, List.mem_nil_iff, or_false] at hb
  rcases hb with rfl | rfl | rfl | rfl | rfl | rfl | rfl | rfl | rfl | rfl | rfl | rfl | rfl
  all_goals exact Pipeline.mem_restRefs_of _ (by decide) (by decide)

/-- The region finds each argument array as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (pre_keeps b hb))

/-- And the program ends with each as launched. -/
theorem W_arg (dats : (p : Fin _) → (c : Dev nD) → Dat τ (Elt F) Unit ℕ (UR sig nD τ) ℕ (cfgs p) c) (c : Dev nD)
    (b : Ref sig .tc) (hb : b ∈ argRefs) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (tail_keeps b hb)),
    Pipeline.withArrays_of_ne _ c (V0 m c) _ b (arg_not_arr b hb)]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole staging buffer of each kind of window, as a rectangle. -/
abbrev rComb : Rect S10x65536 := Rect.unit (s := S10x65536) ![0, 0] S10x65536.size inb_S10x65536_S10x65536_0_0
abbrev rCol : Rect S3x1 := Rect.unit (s := S3x1) ![0, 0] S3x1.size inb_S3x1_S3x1_0_0
abbrev rW1 : Rect S3x3 := Rect.unit (s := S3x3) ![0, 0] S3x3.size inb_S3x3_S3x3_0_0
abbrev rW2 : Rect S3x2 := Rect.unit (s := S3x2) ![0, 0] S3x2.size inb_S3x2_S3x2_0_0
abbrev rWa : Rect S3x9 := Rect.unit (s := S3x9) ![0, 0] S3x9.size inb_S3x9_S3x9_0_0
abbrev rOut : Rect S3x65536 := Rect.unit (s := S3x65536) ![0, 0] S3x65536.size inb_S3x65536_S3x65536_0_0

/-- The output buffer after the body, from the seven loaded blocks: its one store, of the body's arithmetic
    (the skeleton's payload) of the blocks. -/
def out7 (x0 : Vec F S10x65536 .f32) (x1 : Vec F S3x1 .f32) (x2 : Vec F S3x3 .f32) (x3 : Vec F S3x2 .f32) (x4 : Vec F S3x9 .f32)
    (x5 : Vec F S3x1 .f32) (x6 : Vec F S3x1 .f32) : Vec F S3x65536 .f32 :=
  View.canon [⟨rOut, k0_pay1 (View.ld x0 rComb) (View.ld x1 rCol) (View.ld x2 rW1) (View.ld x3 rW2) (View.ld x5 rCol) (View.ld x4 rWa) (View.ld x6 rCol)⟩]

/-- The one store covers the buffer. -/
theorem cover7 (p0 : Vec F S3x65536 .f32) (y : S3x65536.Idx) :
    ∃ pc ∈ ([⟨rOut, p0⟩] : List (View.Piece (Elt F) S3x65536 .f32)), y ∈ pc.1.set :=
  View.cover_of_tiled [⟨rOut, p0⟩] S3x65536.size (by rfl) y

/-! ## The body's triple -/

set_option maxHeartbeats 4000000 in
/-- The kernel body on whole staging buffers — the seven inputs' at read contents, the output's at anything — runs to
    the continuation holding the inputs' as they were and the output's at `out7` of them. -/
theorem sound_kernel (c : Dev nD) (E : Set ℕ) (i : grid0.Coords)
    (arg1 : Memref sig .tc .vmem S10x65536 .f32) (harg1 : arg1.IsWhole) (arg2 : Memref sig .tc .vmem S3x1 .f32) (harg2 : arg2.IsWhole)
    (arg3 : Memref sig .tc .vmem S3x3 .f32) (harg3 : arg3.IsWhole) (arg4 : Memref sig .tc .vmem S3x2 .f32) (harg4 : arg4.IsWhole)
    (arg5 : Memref sig .tc .vmem S3x9 .f32) (harg5 : arg5.IsWhole) (arg6 : Memref sig .tc .vmem S3x1 .f32) (harg6 : arg6.IsWhole)
    (arg7 : Memref sig .tc .vmem S3x1 .f32) (harg7 : arg7.IsWhole) (arg8 : Memref sig .tc .vmem S3x65536 .f32) (harg8 : arg8.IsWhole)
    (x0 : Vec F S10x65536 .f32) (x1 : Vec F S3x1 .f32) (x2 : Vec F S3x3 .f32) (x3 : Vec F S3x2 .f32) (x4 : Vec F S3x9 .f32)
    (x5 : Vec F S3x1 .f32) (x6 : Vec F S3x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The proof data of the region on core `c`: the arrays as the region finds them; after the body at point `t` each
    input's buffer still at its block and the output's at `out7` of the seven blocks; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
/-- What a grid point leaves in the output window's buffer: the body's arithmetic of the seven blocks at that point. -/
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and in every final
    state the output array holds what the library computes from the proof data (each tile as its grid point left
    it) and every other buffer is as the two operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result buffer is no array a window stages, and bypasses the region. -/
theorem res_rest : main_v22 ∈ Pipeline.restRefs sig spec0 := Pipeline.mem_restRefs_of _ (by decide) (by decide)

/-- The run, with the result named and the thirteen argument arrays as launched. -/
theorem run_named : θ_run defs (onTc (τ := τ) (main (F := F))) ⟨m, fun _ => 0, ρ⟩ (fun r => ∀ c : Dev nD,
      r.2.mem ((c.tc : Thread nD τ).loc main_v22) = Pipeline.afterTail₀ cfgs (dats m) 0 (V0 m) [hostOps1] c main_v22
      ∧ ∀ b ∈ argRefs, r.2.mem ((c.tc : Thread nD τ).loc b) = m ((c.tc : Thread nD τ).loc b)) :=
  (θ_run defs _ _).mono (fun _ h c => ⟨(h c).2 main_v22 res_rest,
    fun b hb => ((h c).2 b (arg_rest b hb)).trans (W_arg m (dats m) c b hb)⟩) (run_main m ρ)

end Cert.Kernel.Fr

end
-- ==== Proof.KIFrame.lean ====
/-
  The frame of the message-passing program: it runs to the end, faults nowhere and leaves its thirteen argument
  arrays as they were, and its result is named.

  The program is forty-six host operations (the gather of the source rows, the summation per destination, the
  re-layout to channels-first and the zero padding of the node axis to a multiple of the lane tile), one pipelined
  region of sixteen grid points, and two host operations after it (the cut back to the true node count and the
  transposition back to nodes-first).  Each grid point loads one tile of 65536 nodes (ten channels) and six small
  weight and bias blocks, and stores one tile of three channels: every load and the one store go through the whole
  staging buffer, so what the output buffer holds after the body is one pure function of the loaded blocks.
  The weight blocks are fetched at the first point only and found again, unchanged, at every later one.

  No host operation writes an argument array, so each is found, and left, as launched.
-/
import proofs.«400974_j5841155522892_2_alg».proof.Proof.Gen.KernelIdeal.Launch
import proofs.«400974_j5841155522892_2_alg».proof.Proof.Gen.KernelIdeal.Skeleton
import proofs.«400974_j5841155522892_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region is entered: the launch memory after the forty-six host operations. -/
abbrev V0 (c : Dev nD) : Valuation τ sig (Elt F) :=
  StableHlo.after (List.flatten [hostOps0, hostOps0_1, hostOps0_2, hostOps0_3]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the four stretches of host operations, the region, and the two operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The two operations after the region touch only arrays of the pipeline and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, Finset.mem_singleton] <;> exact StableHlo.devRef_ne_of_ne (by decide)

/-! ## The argument arrays are never written -/

/-- The thirteen argument arrays. -/
abbrev argRefs : List (Ref sig .tc) :=
  [main_arg0, main_arg1, main_arg2, main_arg3, main_arg4, main_arg5, main_arg6, main_arg7, main_arg8, main_arg9, main_arg10, main_arg11, main_arg12]

/-- No host operation before the region writes an argument array. -/
theorem pre_keeps : ∀ b ∈ argRefs,
    (List.flatten [hostOps0, hostOps0_1, hostOps0_2, hostOps0_3] : List (HloOp τ sig (Elt F))).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl
  all_goals (
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide))

/-- Nor does one after it. -/
theorem tail_keeps : ∀ b ∈ argRefs,
    (List.flatten [hostOps1] : List (HloOp τ sig (Elt F))).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl
  all_goals (
    simp only [hostOps1, List.flatten_cons, List.flatten_nil, List.append_nil, List.cons_append,
      List.nil_append, List.Forall, StableHlo.unary_writes, Finset.mem_singleton]
    repeat' apply And.intro
    all_goals exact StableHlo.devRef_ne_of_ne (by decide))

/-- No argument array is an array a window of the region stages. -/
theorem arg_not_arr : ∀ b ∈ argRefs, ∀ w, Pipeline.arrRef spec0 w ≠ b := by
  intro b hb
  simp only [argRefs, List.mem_cons, List.mem_nil_iff, or_false] at hb
  rcases hb with rfl | rfl | rfl | rfl | rfl | rfl | rfl | rfl | rfl | rfl | rfl | rfl | rfl
  all_goals exact (by decide)

/-- Each is an unscoped buffer that bypasses the region. -/
theorem arg_rest : ∀ b ∈ argRefs, b ∈ Pipeline.restRefs sig spec0 := by
  intro b hb
  simp only [argRefs, List.mem_cons, List.mem_nil_iff, or_false] at hb
  rcases hb with rfl | rfl | rfl | rfl | rfl | rfl | rfl | rfl | rfl | rfl | rfl | rfl | rfl
  all_goals exact Pipeline.mem_restRefs_of _ (by decide) (by decide)

/-- The region finds each argument array as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (pre_keeps b hb))

/-- And the program ends with each as launched. -/
theorem W_arg (dats : (p : Fin _) → (c : Dev nD) → Dat τ (Elt F) Unit ℕ (UR sig nD τ) ℕ (cfgs p) c) (c : Dev nD)
    (b : Ref sig .tc) (hb : b ∈ argRefs) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (tail_keeps b hb)),
    Pipeline.withArrays_of_ne _ c (V0 m c) _ b (arg_not_arr b hb)]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole staging buffer of each kind of window, as a rectangle. -/
abbrev rComb : Rect S10x65536 := Rect.unit (s := S10x65536) ![0, 0] S10x65536.size inb_S10x65536_S10x65536_0_0
abbrev rCol : Rect S3x1 := Rect.unit (s := S3x1) ![0, 0] S3x1.size inb_S3x1_S3x1_0_0
abbrev rW1 : Rect S3x3 := Rect.unit (s := S3x3) ![0, 0] S3x3.size inb_S3x3_S3x3_0_0
abbrev rW2 : Rect S3x2 := Rect.unit (s := S3x2) ![0, 0] S3x2.size inb_S3x2_S3x2_0_0
abbrev rWa : Rect S3x9 := Rect.unit (s := S3x9) ![0, 0] S3x9.size inb_S3x9_S3x9_0_0
abbrev rOut : Rect S3x65536 := Rect.unit (s := S3x65536) ![0, 0] S3x65536.size inb_S3x65536_S3x65536_0_0

/-- The output buffer after the body, from the seven loaded blocks: its one store, of the body's arithmetic
    (the skeleton's payload) of the blocks. -/
def out7 (x0 : Vec F S10x65536 .f32) (x1 : Vec F S3x1 .f32) (x2 : Vec F S3x3 .f32) (x3 : Vec F S3x2 .f32) (x4 : Vec F S3x9 .f32)
    (x5 : Vec F S3x1 .f32) (x6 : Vec F S3x1 .f32) : Vec F S3x65536 .f32 :=
  View.canon [⟨rOut, k0_pay1 (View.ld x0 rComb) (View.ld x1 rCol) (View.ld x2 rW1) (View.ld x3 rW2) (View.ld x5 rCol) (View.ld x4 rWa) (View.ld x6 rCol)⟩]

/-- The one store covers the buffer. -/
theorem cover7 (p0 : Vec F S3x65536 .f32) (y : S3x65536.Idx) :
    ∃ pc ∈ ([⟨rOut, p0⟩] : List (View.Piece (Elt F) S3x65536 .f32)), y ∈ pc.1.set :=
  View.cover_of_tiled [⟨rOut, p0⟩] S3x65536.size (by rfl) y

/-! ## The body's triple -/

set_option maxHeartbeats 4000000 in
/-- The kernel body on whole staging buffers — the seven inputs' at read contents, the output's at anything — runs to
    the continuation holding the inputs' as they were and the output's at `out7` of them. -/
theorem sound_kernel (c : Dev nD) (E : Set ℕ) (i : grid0.Coords)
    (arg1 : Memref sig .tc .vmem S10x65536 .f32) (harg1 : arg1.IsWhole) (arg2 : Memref sig .tc .vmem S3x1 .f32) (harg2 : arg2.IsWhole)
    (arg3 : Memref sig .tc .vmem S3x3 .f32) (harg3 : arg3.IsWhole) (arg4 : Memref sig .tc .vmem S3x2 .f32) (harg4 : arg4.IsWhole)
    (arg5 : Memref sig .tc .vmem S3x9 .f32) (harg5 : arg5.IsWhole) (arg6 : Memref sig .tc .vmem S3x1 .f32) (harg6 : arg6.IsWhole)
    (arg7 : Memref sig .tc .vmem S3x1 .f32) (harg7 : arg7.IsWhole) (arg8 : Memref sig .tc .vmem S3x65536 .f32) (harg8 : arg8.IsWhole)
    (x0 : Vec F S10x65536 .f32) (x1 : Vec F S3x1 .f32) (x2 : Vec F S3x3 .f32) (x3 : Vec F S3x2 .f32) (x4 : Vec F S3x9 .f32)
    (x5 : Vec F S3x1 .f32) (x6 : Vec F S3x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The proof data of the region on core `c`: the arrays as the region finds them; after the body at point `t` each
    input's buffer still at its block and the output's at `out7` of the seven blocks; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
/-- What a grid point leaves in the output window's buffer: the body's arithmetic of the seven blocks at that point. -/
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and in every final
    state the output array holds what the library computes from the proof data (each tile as its grid point left
    it) and every other buffer is as the two operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result buffer is no array a window stages, and bypasses the region. -/
theorem res_rest : main_v22 ∈ Pipeline.restRefs sig spec0 := Pipeline.mem_restRefs_of _ (by decide) (by decide)

/-- The run, with the result named and the thirteen argument arrays as launched. -/
theorem run_named : θ_run defs (onTc (τ := τ) (main (F := F))) ⟨m, fun _ => 0, ρ⟩ (fun r => ∀ c : Dev nD,
      r.2.mem ((c.tc : Thread nD τ).loc main_v22) = Pipeline.afterTail₀ cfgs (dats m) 0 (V0 m) [hostOps1] c main_v22
      ∧ ∀ b ∈ argRefs, r.2.mem ((c.tc : Thread nD τ).loc b) = m ((c.tc : Thread nD τ).loc b)) :=
  (θ_run defs _ _).mono (fun _ h c => ⟨(h c).2 main_v22 res_rest,
    fun b hb => ((h c).2 b (arg_rest b hb)).trans (W_arg m (dats m) c b hb)⟩) (run_main m ρ)

end Cert.KernelIdeal.Fr

end
-- ==== Proof.Spec.lean ====
/-
  One node's update of the message-passing layer, as a pure function on the extended reals.

  A node holds a label (1 channel), a feature (3 channels) and an attribute (2 channels); its incoming
  messages arrive already summed (`s`, 3 channels) together with the number of them (`d`).  The mean
  message is `s / max d 1`.  The activation is `relu` of three small linear maps of the label, the mean
  message and the attribute plus their biases; the node's new feature is `relu` of a linear map of the
  nine numbers (activation, mean message, old feature) plus a bias.

  The two programs differ only in how they arrange the sums: one multiplies weight by datum and adds the
  three biases after the three products, the other multiplies datum by weight and adds each bias right after
  its own product.  Addition and multiplication of extended reals are commutative and associative, so the two
  arrangements are one function (`nodeK_eq_nodeR`); nothing here needs the numbers to be finite.
-/
import Idealize.ShloMosaic.PureOps.Ideal

noncomputable section

namespace Cert.Spec

open Idealize.ShloMosaic

/-- The word of `1.0`, read at the exact instance (never evaluated: both programs carry the same word). -/
abbrev one : EReal := Ideal.ofBits .f32 0x3F800000#32
/-- The word of `0.0`, read at the exact instance. -/
abbrev zero : EReal := Ideal.ofBits .f32 0x00000000#32

/-- The mean incoming message: the summed message over the in-degree floored at one. -/
def hagg (s : Fin 3 → EReal) (d : EReal) (k : Fin 3) : EReal := Ideal.div (s k) (max d one)

/-- Three triples laid end to end. -/
def zcat (a h f : Fin 3 → EReal) (k : Fin 9) : EReal :=
  if h3 : k.val < 3 then a ⟨k.val, h3⟩
  else if h6 : k.val < 6 then h ⟨k.val - 3, by omega⟩
  else f ⟨k.val - 6, by omega⟩

/-- The update with each product written weight first and the three biases added together, last. -/
def nodeK (w0 : Fin 1 → Fin 3 → EReal) (w1 : Fin 3 → Fin 3 → EReal) (w2 : Fin 2 → Fin 3 → EReal) (wa : Fin 9 → Fin 3 → EReal)
    (b012 ba : Fin 3 → EReal) (lab : Fin 1 → EReal) (s : Fin 3 → EReal) (d : EReal) (feat : Fin 3 → EReal) (xa : Fin 2 → EReal)
    (j : Fin 3) : EReal :=
  max ((∑ k, wa k j * zcat (fun j' => max ((((∑ k, w0 k j' * lab k) + ∑ k, w1 k j' * hagg s d k) + ∑ k, w2 k j' * xa k) + b012 j') zero)
    (hagg s d) feat k) + ba j) zero

/-- The update with each product written datum first and each bias added right after its own product. -/
def nodeR (w0 : Fin 1 → Fin 3 → EReal) (w1 : Fin 3 → Fin 3 → EReal) (w2 : Fin 2 → Fin 3 → EReal) (wa : Fin 9 → Fin 3 → EReal)
    (b0 b1 b2 ba : Fin 3 → EReal) (lab : Fin 1 → EReal) (s : Fin 3 → EReal) (d : EReal) (feat : Fin 3 → EReal) (xa : Fin 2 → EReal)
    (j : Fin 3) : EReal :=
  max ((∑ k, zcat (fun j' => max ((((((∑ k, lab k * w0 k j') + b0 j') + ∑ k, hagg s d k * w1 k j') + b1 j') + ∑ k, xa k * w2 k j') + b2 j') zero)
    (hagg s d) feat k * wa k j) + ba j) zero

/-- The two arrangements are one function: only commutativity and associativity of `+` and `*` are used. -/
theorem nodeK_eq_nodeR (w0 : Fin 1 → Fin 3 → EReal) (w1 : Fin 3 → Fin 3 → EReal) (w2 : Fin 2 → Fin 3 → EReal) (wa : Fin 9 → Fin 3 → EReal)
    (b0 b1 b2 ba : Fin 3 → EReal) (lab : Fin 1 → EReal) (s : Fin 3 → EReal) (d : EReal) (feat : Fin 3 → EReal) (xa : Fin 2 → EReal)
    (j : Fin 3) :
    nodeK w0 w1 w2 wa (fun j' => (b0 j' + b1 j') + b2 j') ba lab s d feat xa j = nodeR w0 w1 w2 wa b0 b1 b2 ba lab s d feat xa j := by
  unfold nodeK nodeR
  congr 2
  refine Finset.sum_congr rfl fun k _ => ?_
  rw [mul_comm]
  congr 2
  funext j'
  congr 1
  have h0 : ∑ k, w0 k j' * lab k = ∑ k, lab k * w0 k j' := Finset.sum_congr rfl fun k _ => mul_comm _ _
  have h1 : ∑ k, w1 k j' * hagg s d k = ∑ k, hagg s d k * w1 k j' := Finset.sum_congr rfl fun k _ => mul_comm _ _
  have h2 : ∑ k, w2 k j' * xa k = ∑ k, xa k * w2 k j' := Finset.sum_congr rfl fun k _ => mul_comm _ _
  rw [h0, h1, h2]
  beta_reduce
  ac_rfl

end Cert.Spec

end
-- ==== Proof.Payload.lean ====
/-
  The kernel body's arithmetic, read at one index of its result.

  The body is one pure term of the loaded block and the small operands.  Row by row of the block a lane carries a
  node's label, its summed message, its in-degree, its feature and its attribute.  This module reads the term at
  the index (j, l): the slices read the block's rows, the row broadcast reads the floored in-degree of the lane,
  each product into a zero accumulator is the sum over its one contracted axis, the concatenation lays the
  activation, the mean message and the feature end to end, and the whole is the per-node function of the
  specification at column l.
-/
import proofs.«400974_j5841155522892_2_alg».proof.Proof.Gen.KernelIdeal.Skeleton
import proofs.«400974_j5841155522892_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The block's rows -/

/-- The label row: row 0 of the block. -/
theorem lab_apply {α : Type} (x : S10x65536.Idx → α) (k : Fin 1) (l : Fin 65536) :
    extractStridedSlice S1x65536 ![0, 0] x slices_S10x65536_o0_0_S1x65536 (ix2 k l) = x (ix2 0 l) := by
  refine extractStridedSlice_apply _ x _ _ _ fun a => ?_
  match a with
  | ⟨0, _⟩ => show (0 : Nat) = 0 + k.val; omega
  | ⟨1, _⟩ => show l.val = 0 + l.val; omega

/-- The summed message: rows 1 to 3 of the block. -/
theorem msg_apply {α : Type} (x : S10x65536.Idx → α) (k : Fin 3) (l : Fin 65536) :
    extractStridedSlice S3x65536 ![1, 0] x slices_S10x65536_o1_0_S3x65536 (ix2 k l) = x (ix2 ⟨k.val + 1, by omega⟩ l) := by
  refine extractStridedSlice_apply _ x _ _ _ fun a => ?_
  match a with
  | ⟨0, _⟩ => show k.val + 1 = 1 + k.val; omega
  | ⟨1, _⟩ => show l.val = 0 + l.val; omega

/-- The in-degree row: row 4 of the block. -/
theorem deg_apply {α : Type} (x : S10x65536.Idx → α) (k : Fin 1) (l : Fin 65536) :
    extractStridedSlice S1x65536 ![4, 0] x slices_S10x65536_o4_0_S1x65536 (ix2 k l) = x (ix2 4 l) := by
  refine extractStridedSlice_apply _ x _ _ _ fun a => ?_
  match a with
  | ⟨0, _⟩ => show (4 : Nat) = 4 + k.val; omega
  | ⟨1, _⟩ => show l.val = 0 + l.val; omega

/-- The feature: rows 5 to 7 of the block. -/
theorem feat_apply {α : Type} (x : S10x65536.Idx → α) (k : Fin 3) (l : Fin 65536) :
    extractStridedSlice S3x65536 ![5, 0] x slices_S10x65536_o5_0_S3x65536 (ix2 k l) = x (ix2 ⟨k.val + 5, by omega⟩ l) := by
  refine extractStridedSlice_apply _ x _ _ _ fun a => ?_
  match a with
  | ⟨0, _⟩ => show k.val + 5 = 5 + k.val; omega
  | ⟨1, _⟩ => show l.val = 0 + l.val; omega

/-- The attribute: rows 8 and 9 of the block. -/
theorem attr_apply {α : Type} (x : S10x65536.Idx → α) (k : Fin 2) (l : Fin 65536) :
    extractStridedSlice S2x65536 ![8, 0] x slices_S10x65536_o8_0_S2x65536 (ix2 k l) = x (ix2 ⟨k.val + 8, by omega⟩ l) := by
  refine extractStridedSlice_apply _ x _ _ _ fun a => ?_
  match a with
  | ⟨0, _⟩ => show k.val + 8 = 8 + k.val; omega
  | ⟨1, _⟩ => show l.val = 0 + l.val; omega

/-! ## The four products: each into a zero accumulator, each the sum over its one contracted axis -/

theorem lhs_w0_0 (i : S3x65536.Idx) (q : dot_S3x1_S1x65536_S3x65536_1_0_0_1_n_n.contr.Idx) :
    (dot_S3x1_S1x65536_S3x65536_1_0_0_1_n_n.lhsIdx i q 0).val = (i 0).val := by
  unfold DotDims.lhsIdx
  rw [dif_neg (show ¬(0 : Fin S3x1.rank) ∈ dot_S3x1_S1x65536_S3x65536_1_0_0_1_n_n.lhsBatch by decide), dif_pos (show (0 : Fin S3x1.rank) ∈ dot_S3x1_S1x65536_S3x65536_1_0_0_1_n_n.lhsNonContracting by decide)]
  rfl
theorem lhs_w0_1 (i : S3x65536.Idx) (q : dot_S3x1_S1x65536_S3x65536_1_0_0_1_n_n.contr.Idx) :
    (dot_S3x1_S1x65536_S3x65536_1_0_0_1_n_n.lhsIdx i q 1).val = (q ⟨0, by decide⟩).val :=
  dot_S3x1_S1x65536_S3x65536_1_0_0_1_n_n.lhsIdx_val_of_single rfl i q
theorem rhs_w0_0 (i : S3x65536.Idx) (q : dot_S3x1_S1x65536_S3x65536_1_0_0_1_n_n.contr.Idx) :
    (dot_S3x1_S1x65536_S3x65536_1_0_0_1_n_n.rhsIdx i q 0).val = (q ⟨0, by decide⟩).val :=
  dot_S3x1_S1x65536_S3x65536_1_0_0_1_n_n.rhsIdx_val_of_single rfl i q
theorem rhs_w0_1 (i : S3x65536.Idx) (q : dot_S3x1_S1x65536_S3x65536_1_0_0_1_n_n.contr.Idx) :
    (dot_S3x1_S1x65536_S3x65536_1_0_0_1_n_n.rhsIdx i q 1).val = (i 1).val := by
  unfold DotDims.rhsIdx
  rw [dif_neg (show ¬(1 : Fin S1x65536.rank) ∈ dot_S3x1_S1x65536_S3x65536_1_0_0_1_n_n.rhsBatch by decide), dif_pos (show (1 : Fin S1x65536.rank) ∈ dot_S3x1_S1x65536_S3x65536_1_0_0_1_n_n.rhsNonContracting by decide)]
  rfl

/-- The label's product: [3,1] by [1,L]. -/
theorem mm_w0_apply (a : FVec Ideal S3x1 .f32) (b : FVec Ideal S1x65536 .f32) (p : Fin 3) (l : Fin 65536) :
    matmul dot_S3x1_S1x65536_S3x65536_1_0_0_1_n_n none a b (constant (F := Ideal) S3x65536 .f32 0x00000000#32) (ix2 p l)
      = ∑ k : Fin 1, a (ix2 p k) * b (ix2 k l) := by
  show FloatOps.matmul _ _ _ _ _ _ = _
  rw [Ideal.matmul_constant_zero_apply, ← Equiv.sum_comp (contrEquiv1 dot_S3x1_S1x65536_S3x65536_1_0_0_1_n_n 1 rfl rfl).symm]
  refine Finset.sum_congr rfl fun k _ => ?_
  have hk := contrEquiv1_symm_val dot_S3x1_S1x65536_S3x65536_1_0_0_1_n_n 1 rfl rfl k
  have el : dot_S3x1_S1x65536_S3x65536_1_0_0_1_n_n.lhsIdx (ix2 p l) ((contrEquiv1 dot_S3x1_S1x65536_S3x65536_1_0_0_1_n_n 1 rfl rfl).symm k) = ix2 p k := funext fun c => Fin.ext (by
    match c with
    | ⟨0, _⟩ => exact lhs_w0_0 _ _
    | ⟨1, _⟩ => exact (lhs_w0_1 _ _).trans hk)
  have er : dot_S3x1_S1x65536_S3x65536_1_0_0_1_n_n.rhsIdx (ix2 p l) ((contrEquiv1 dot_S3x1_S1x65536_S3x65536_1_0_0_1_n_n 1 rfl rfl).symm k) = ix2 k l := funext fun c => Fin.ext (by
    match c with
    | ⟨0, _⟩ => exact (rhs_w0_0 _ _).trans hk
    | ⟨1, _⟩ => exact rhs_w0_1 _ _)
  rw [el, er]

theorem lhs_w1_0 (i : S3x65536.Idx) (q : dot_S3x3_S3x65536_S3x65536_1_0_0_1_n_n.contr.Idx) :
    (dot_S3x3_S3x65536_S3x65536_1_0_0_1_n_n.lhsIdx i q 0).val = (i 0).val := by
  unfold DotDims.lhsIdx
  rw [dif_neg (show ¬(0 : Fin S3x3.rank) ∈ dot_S3x3_S3x65536_S3x65536_1_0_0_1_n_n.lhsBatch by decide), dif_pos (show (0 : Fin S3x3.rank) ∈ dot_S3x3_S3x65536_S3x65536_1_0_0_1_n_n.lhsNonContracting by decide)]
  rfl
theorem lhs_w1_1 (i : S3x65536.Idx) (q : dot_S3x3_S3x65536_S3x65536_1_0_0_1_n_n.contr.Idx) :
    (dot_S3x3_S3x65536_S3x65536_1_0_0_1_n_n.lhsIdx i q 1).val = (q ⟨0, by decide⟩).val :=
  dot_S3x3_S3x65536_S3x65536_1_0_0_1_n_n.lhsIdx_val_of_single rfl i q
theorem rhs_w1_0 (i : S3x65536.Idx) (q : dot_S3x3_S3x65536_S3x65536_1_0_0_1_n_n.contr.Idx) :
    (dot_S3x3_S3x65536_S3x65536_1_0_0_1_n_n.rhsIdx i q 0).val = (q ⟨0, by decide⟩).val :=
  dot_S3x3_S3x65536_S3x65536_1_0_0_1_n_n.rhsIdx_val_of_single rfl i q
theorem rhs_w1_1 (i : S3x65536.Idx) (q : dot_S3x3_S3x65536_S3x65536_1_0_0_1_n_n.contr.Idx) :
    (dot_S3x3_S3x65536_S3x65536_1_0_0_1_n_n.rhsIdx i q 1).val = (i 1).val := by
  unfold DotDims.rhsIdx
  rw [dif_neg (show ¬(1 : Fin S3x65536.rank) ∈ dot_S3x3_S3x65536_S3x65536_1_0_0_1_n_n.rhsBatch by decide), dif_pos (show (1 : Fin S3x65536.rank) ∈ dot_S3x3_S3x65536_S3x65536_1_0_0_1_n_n.rhsNonContracting by decide)]
  rfl

/-- The mean message's product: [3,3] by [3,L]. -/
theorem mm_w1_apply (a : FVec Ideal S3x3 .f32) (b : FVec Ideal S3x65536 .f32) (p : Fin 3) (l : Fin 65536) :
    matmul dot_S3x3_S3x65536_S3x65536_1_0_0_1_n_n none a b (constant (F := Ideal) S3x65536 .f32 0x00000000#32) (ix2 p l)
      = ∑ k : Fin 3, a (ix2 p k) * b (ix2 k l) := by
  show FloatOps.matmul _ _ _ _ _ _ = _
  rw [Ideal.matmul_constant_zero_apply, ← Equiv.sum_comp (contrEquiv1 dot_S3x3_S3x65536_S3x65536_1_0_0_1_n_n 3 rfl rfl).symm]
  refine Finset.sum_congr rfl fun k _ => ?_
  have hk := contrEquiv1_symm_val dot_S3x3_S3x65536_S3x65536_1_0_0_1_n_n 3 rfl rfl k
  have el : dot_S3x3_S3x65536_S3x65536_1_0_0_1_n_n.lhsIdx (ix2 p l) ((contrEquiv1 dot_S3x3_S3x65536_S3x65536_1_0_0_1_n_n 3 rfl rfl).symm k) = ix2 p k := funext fun c => Fin.ext (by
    match c with
    | ⟨0, _⟩ => exact lhs_w1_0 _ _
    | ⟨1, _⟩ => exact (lhs_w1_1 _ _).trans hk)
  have er : dot_S3x3_S3x65536_S3x65536_1_0_0_1_n_n.rhsIdx (ix2 p l) ((contrEquiv1 dot_S3x3_S3x65536_S3x65536_1_0_0_1_n_n 3 rfl rfl).symm k) = ix2 k l := funext fun c => Fin.ext (by
    match c with
    | ⟨0, _⟩ => exact (rhs_w1_0 _ _).trans hk
    | ⟨1, _⟩ => exact rhs_w1_1 _ _)
  rw [el, er]

theorem lhs_w2_0 (i : S3x65536.Idx) (q : dot_S3x2_S2x65536_S3x65536_1_0_0_1_n_n.contr.Idx) :
    (dot_S3x2_S2x65536_S3x65536_1_0_0_1_n_n.lhsIdx i q 0).val = (i 0).val := by
  unfold DotDims.lhsIdx
  rw [dif_neg (show ¬(0 : Fin S3x2.rank) ∈ dot_S3x2_S2x65536_S3x65536_1_0_0_1_n_n.lhsBatch by decide), dif_pos (show (0 : Fin S3x2.rank) ∈ dot_S3x2_S2x65536_S3x65536_1_0_0_1_n_n.lhsNonContracting by decide)]
  rfl
theorem lhs_w2_1 (i : S3x65536.Idx) (q : dot_S3x2_S2x65536_S3x65536_1_0_0_1_n_n.contr.Idx) :
    (dot_S3x2_S2x65536_S3x65536_1_0_0_1_n_n.lhsIdx i q 1).val = (q ⟨0, by decide⟩).val :=
  dot_S3x2_S2x65536_S3x65536_1_0_0_1_n_n.lhsIdx_val_of_single rfl i q
theorem rhs_w2_0 (i : S3x65536.Idx) (q : dot_S3x2_S2x65536_S3x65536_1_0_0_1_n_n.contr.Idx) :
    (dot_S3x2_S2x65536_S3x65536_1_0_0_1_n_n.rhsIdx i q 0).val = (q ⟨0, by decide⟩).val :=
  dot_S3x2_S2x65536_S3x65536_1_0_0_1_n_n.rhsIdx_val_of_single rfl i q
theorem rhs_w2_1 (i : S3x65536.Idx) (q : dot_S3x2_S2x65536_S3x65536_1_0_0_1_n_n.contr.Idx) :
    (dot_S3x2_S2x65536_S3x65536_1_0_0_1_n_n.rhsIdx i q 1).val = (i 1).val := by
  unfold DotDims.rhsIdx
  rw [dif_neg (show ¬(1 : Fin S2x65536.rank) ∈ dot_S3x2_S2x65536_S3x65536_1_0_0_1_n_n.rhsBatch by decide), dif_pos (show (1 : Fin S2x65536.rank) ∈ dot_S3x2_S2x65536_S3x65536_1_0_0_1_n_n.rhsNonContracting by decide)]
  rfl

/-- The attribute's product: [3,2] by [2,L]. -/
theorem mm_w2_apply (a : FVec Ideal S3x2 .f32) (b : FVec Ideal S2x65536 .f32) (p : Fin 3) (l : Fin 65536) :
    matmul dot_S3x2_S2x65536_S3x65536_1_0_0_1_n_n none a b (constant (F := Ideal) S3x65536 .f32 0x00000000#32) (ix2 p l)
      = ∑ k : Fin 2, a (ix2 p k) * b (ix2 k l) := by
  show FloatOps.matmul _ _ _ _ _ _ = _
  rw [Ideal.matmul_constant_zero_apply, ← Equiv.sum_comp (contrEquiv1 dot_S3x2_S2x65536_S3x65536_1_0_0_1_n_n 2 rfl rfl).symm]
  refine Finset.sum_congr rfl fun k _ => ?_
  have hk := contrEquiv1_symm_val dot_S3x2_S2x65536_S3x65536_1_0_0_1_n_n 2 rfl rfl k
  have el : dot_S3x2_S2x65536_S3x65536_1_0_0_1_n_n.lhsIdx (ix2 p l) ((contrEquiv1 dot_S3x2_S2x65536_S3x65536_1_0_0_1_n_n 2 rfl rfl).symm k) = ix2 p k := funext fun c => Fin.ext (by
    match c with
    | ⟨0, _⟩ => exact lhs_w2_0 _ _
    | ⟨1, _⟩ => exact (lhs_w2_1 _ _).trans hk)
  have er : dot_S3x2_S2x65536_S3x65536_1_0_0_1_n_n.rhsIdx (ix2 p l) ((contrEquiv1 dot_S3x2_S2x65536_S3x65536_1_0_0_1_n_n 2 rfl rfl).symm k) = ix2 k l := funext fun c => Fin.ext (by
    match c with
    | ⟨0, _⟩ => exact (rhs_w2_0 _ _).trans hk
    | ⟨1, _⟩ => exact rhs_w2_1 _ _)
  rw [el, er]

theorem lhs_wa_0 (i : S3x65536.Idx) (q : dot_S3x9_S9x65536_S3x65536_1_0_0_1_n_n.contr.Idx) :
    (dot_S3x9_S9x65536_S3x65536_1_0_0_1_n_n.lhsIdx i q 0).val = (i 0).val := by
  unfold DotDims.lhsIdx
  rw [dif_neg (show ¬(0 : Fin S3x9.rank) ∈ dot_S3x9_S9x65536_S3x65536_1_0_0_1_n_n.lhsBatch by decide), dif_pos (show (0 : Fin S3x9.rank) ∈ dot_S3x9_S9x65536_S3x65536_1_0_0_1_n_n.lhsNonContracting by decide)]
  rfl
theorem lhs_wa_1 (i : S3x65536.Idx) (q : dot_S3x9_S9x65536_S3x65536_1_0_0_1_n_n.contr.Idx) :
    (dot_S3x9_S9x65536_S3x65536_1_0_0_1_n_n.lhsIdx i q 1).val = (q ⟨0, by decide⟩).val :=
  dot_S3x9_S9x65536_S3x65536_1_0_0_1_n_n.lhsIdx_val_of_single rfl i q
theorem rhs_wa_0 (i : S3x65536.Idx) (q : dot_S3x9_S9x65536_S3x65536_1_0_0_1_n_n.contr.Idx) :
    (dot_S3x9_S9x65536_S3x65536_1_0_0_1_n_n.rhsIdx i q 0).val = (q ⟨0, by decide⟩).val :=
  dot_S3x9_S9x65536_S3x65536_1_0_0_1_n_n.rhsIdx_val_of_single rfl i q
theorem rhs_wa_1 (i : S3x65536.Idx) (q : dot_S3x9_S9x65536_S3x65536_1_0_0_1_n_n.contr.Idx) :
    (dot_S3x9_S9x65536_S3x65536_1_0_0_1_n_n.rhsIdx i q 1).val = (i 1).val := by
  unfold DotDims.rhsIdx
  rw [dif_neg (show ¬(1 : Fin S9x65536.rank) ∈ dot_S3x9_S9x65536_S3x65536_1_0_0_1_n_n.rhsBatch by decide), dif_pos (show (1 : Fin S9x65536.rank) ∈ dot_S3x9_S9x65536_S3x65536_1_0_0_1_n_n.rhsNonContracting by decide)]
  rfl

/-- The last product: [3,9] by [9,L]. -/
theorem mm_wa_apply (a : FVec Ideal S3x9 .f32) (b : FVec Ideal S9x65536 .f32) (p : Fin 3) (l : Fin 65536) :
    matmul dot_S3x9_S9x65536_S3x65536_1_0_0_1_n_n none a b (constant (F := Ideal) S3x65536 .f32 0x00000000#32) (ix2 p l)
      = ∑ k : Fin 9, a (ix2 p k) * b (ix2 k l) := by
  show FloatOps.matmul _ _ _ _ _ _ = _
  rw [Ideal.matmul_constant_zero_apply, ← Equiv.sum_comp (contrEquiv1 dot_S3x9_S9x65536_S3x65536_1_0_0_1_n_n 9 rfl rfl).symm]
  refine Finset.sum_congr rfl fun k _ => ?_
  have hk := contrEquiv1_symm_val dot_S3x9_S9x65536_S3x65536_1_0_0_1_n_n 9 rfl rfl k
  have el : dot_S3x9_S9x65536_S3x65536_1_0_0_1_n_n.lhsIdx (ix2 p l) ((contrEquiv1 dot_S3x9_S9x65536_S3x65536_1_0_0_1_n_n 9 rfl rfl).symm k) = ix2 p k := funext fun c => Fin.ext (by
    match c with
    | ⟨0, _⟩ => exact lhs_wa_0 _ _
    | ⟨1, _⟩ => exact (lhs_wa_1 _ _).trans hk)
  have er : dot_S3x9_S9x65536_S3x65536_1_0_0_1_n_n.rhsIdx (ix2 p l) ((contrEquiv1 dot_S3x9_S9x65536_S3x65536_1_0_0_1_n_n 9 rfl rfl).symm k) = ix2 k l := funext fun c => Fin.ext (by
    match c with
    | ⟨0, _⟩ => exact (rhs_wa_0 _ _).trans hk
    | ⟨1, _⟩ => exact rhs_wa_1 _ _)
  rw [el, er]

/-! ## The two broadcasts -/

/-- A row laid under three rows: every row reads the one row. -/
theorem rowBroadcast_apply (v : FVec Ideal S1x65536 .f32) (p : Fin 3) (l : Fin 65536) :
    broadcastTo S3x65536 v broadcasts_S1x65536_S3x65536 (ix2 p l) = v (ix2 0 l) := by
  refine broadcastTo_apply v _ _ _ fun a => ?_
  match a with
  | ⟨0, _⟩ => rfl
  | ⟨1, _⟩ => rfl

/-- A column laid across the lanes: every lane reads the one column. -/
theorem colBroadcast_apply (v : FVec Ideal S3x1 .f32) (p : Fin 3) (l : Fin 65536) :
    broadcastTo S3x65536 v broadcasts_S3x1_S3x65536 (ix2 p l) = v (ix2 p 0) := by
  refine broadcastTo_apply v _ _ _ fun a => ?_
  match a with
  | ⟨0, _⟩ => rfl
  | ⟨1, _⟩ => rfl

/-! ## The concatenation -/

/-- Three [3,L] pieces stacked on the rows, read at row k of nine: the three triples of the lane laid end to end. -/
theorem cat_apply (a h f : FVec Ideal S3x65536 .f32) (k : Fin 9) (l : Fin 65536) :
    concatenate S9x65536 0 [⟨S3x65536, a⟩, ⟨S3x65536, h⟩, ⟨S3x65536, f⟩] concatenates_S3x65536_S3x65536_S3x65536_S9x65536_d0 (ix2 k l)
      = Cert.Spec.zcat (fun r => a (ix2 r l)) (fun r => h (ix2 r l)) (fun r => f (ix2 r l)) k := by
  unfold Cert.Spec.zcat
  by_cases h3 : k.val < 3
  · rw [dif_pos h3]
    refine concatenate_apply_piece (0 : Fin S9x65536.rank) _ _ _ 0 (by show 0 < 3; omega) S3x65536 a rfl rfl 0 rfl (ix2 ⟨k.val, h3⟩ l) (fun b hb => ?_) ?_
    · match b with
      | ⟨0, _⟩ => exact absurd rfl hb
      | ⟨1, _⟩ => rfl
    · show 0 + k.val = k.val; omega
  · rw [dif_neg h3]
    by_cases h6 : k.val < 6
    · rw [dif_pos h6]
      refine concatenate_apply_piece (0 : Fin S9x65536.rank) _ _ _ 1 (by show 1 < 3; omega) S3x65536 h rfl rfl 3 rfl (ix2 ⟨k.val - 3, by omega⟩ l) (fun b hb => ?_) ?_
      · match b with
        | ⟨0, _⟩ => exact absurd rfl hb
        | ⟨1, _⟩ => rfl
      · show 3 + (k.val - 3) = k.val; omega
    · rw [dif_neg h6]
      refine concatenate_apply_piece (0 : Fin S9x65536.rank) _ _ _ 2 (by show 2 < 3; omega) S3x65536 f rfl rfl 6 rfl (ix2 ⟨k.val - 6, by omega⟩ l) (fun b hb => ?_) ?_
      · match b with
        | ⟨0, _⟩ => exact absurd rfl hb
        | ⟨1, _⟩ => rfl
      · show 6 + (k.val - 6) = k.val; omega

/-! ## The mean message -/

/-- The mean message as the body computes it: the message rows over the in-degree row floored at one and laid under
    three rows. -/
def meanV (x0 : Vec Ideal S10x65536 .f32) : FVec Ideal S3x65536 .f32 :=
  divf (extractStridedSlice S3x65536 ![1, 0] (shapeCast S10x65536 x0 shapeCasts_S10x65536_S10x65536 : FVec Ideal S10x65536 .f32) slices_S10x65536_o1_0_S3x65536)
    (broadcastTo S3x65536
      (maximumf (extractStridedSlice S1x65536 ![4, 0] (shapeCast S10x65536 x0 shapeCasts_S10x65536_S10x65536 : FVec Ideal S10x65536 .f32) slices_S10x65536_o4_0_S1x65536)
        (broadcast S1x65536 (Scalar.ofBits (F := Ideal) .f32 0x3F800000#32)))
      broadcasts_S1x65536_S3x65536)

/-- At (k, l) it is channel k of the summed message of lane l over that lane's in-degree floored at one. -/
theorem meanV_apply (x0 : Vec Ideal S10x65536 .f32) (k : Fin 3) (l : Fin 65536) :
    meanV x0 (ix2 k l) = Cert.Spec.hagg (fun k => x0 (ix2 ⟨k.val + 1, by omega⟩ l)) (x0 (ix2 4 l)) k := by
  unfold meanV
  rw [shapeCast_self, divf_apply, rowBroadcast_apply, maximumf_apply, msg_apply, deg_apply]
  rfl

/-! ## The activation -/

/-- The activation as the body computes it: the three products added, the bias column laid across the lanes added,
    floored at zero. -/
def actV (x0 : Vec Ideal S10x65536 .f32) (w0t : Vec Ideal S3x1 .f32) (w1t : Vec Ideal S3x3 .f32) (w2t : Vec Ideal S3x2 .f32)
    (b012 : Vec Ideal S3x1 .f32) : FVec Ideal S3x65536 .f32 :=
  maximumf
    (addf
      (addf
        (addf
          (matmul dot_S3x1_S1x65536_S3x65536_1_0_0_1_n_n none (shapeCast S3x1 w0t shapeCasts_S3x1_S3x1 : FVec Ideal S3x1 .f32)
            (extractStridedSlice S1x65536 ![0, 0] (shapeCast S10x65536 x0 shapeCasts_S10x65536_S10x65536 : FVec Ideal S10x65536 .f32) slices_S10x65536_o0_0_S1x65536)
            (constant (F := Ideal) S3x65536 .f32 0x00000000#32))
          (matmul dot_S3x3_S3x65536_S3x65536_1_0_0_1_n_n none (shapeCast S3x3 w1t shapeCasts_S3x3_S3x3 : FVec Ideal S3x3 .f32) (meanV x0)
            (constant (F := Ideal) S3x65536 .f32 0x00000000#32)))
        (matmul dot_S3x2_S2x65536_S3x65536_1_0_0_1_n_n none (shapeCast S3x2 w2t shapeCasts_S3x2_S3x2 : FVec Ideal S3x2 .f32)
          (extractStridedSlice S2x65536 ![8, 0] (shapeCast S10x65536 x0 shapeCasts_S10x65536_S10x65536 : FVec Ideal S10x65536 .f32) slices_S10x65536_o8_0_S2x65536)
          (constant (F := Ideal) S3x65536 .f32 0x00000000#32)))
      (broadcastTo S3x65536 (shapeCast S3x1 b012 shapeCasts_S3x1_S3x1 : FVec Ideal S3x1 .f32) broadcasts_S3x1_S3x65536))
    (broadcast S3x65536 (Scalar.ofBits (F := Ideal) .f32 0x00000000#32))

/-- At (r, l) it is channel r of the activation of lane l's node. -/
theorem actV_apply (x0 : Vec Ideal S10x65536 .f32) (w0t : Vec Ideal S3x1 .f32) (w1t : Vec Ideal S3x3 .f32) (w2t : Vec Ideal S3x2 .f32)
    (b012 : Vec Ideal S3x1 .f32) (r : Fin 3) (l : Fin 65536) :
    actV x0 w0t w1t w2t b012 (ix2 r l)
      = max ((((∑ k : Fin 1, w0t (ix2 r k) * x0 (ix2 0 l))
            + ∑ k : Fin 3, w1t (ix2 r k) * Cert.Spec.hagg (fun k => x0 (ix2 ⟨k.val + 1, by omega⟩ l)) (x0 (ix2 4 l)) k)
            + ∑ k : Fin 2, w2t (ix2 r k) * x0 (ix2 ⟨k.val + 8, by omega⟩ l))
            + b012 (ix2 r 0)) Cert.Spec.zero := by
  unfold actV
  rw [shapeCast_self, shapeCast_self, shapeCast_self, shapeCast_self, shapeCast_self,
    maximumf_apply, addf_apply, addf_apply, addf_apply, mm_w0_apply, mm_w1_apply, mm_w2_apply, colBroadcast_apply]
  simp only [lab_apply, meanV_apply, attr_apply]
  rfl

/-! ## The payload -/

/-- The body's term, with the mean message and the activation named. -/
theorem pay_eq (x0 : Vec Ideal S10x65536 .f32) (w0t : Vec Ideal S3x1 .f32) (w1t : Vec Ideal S3x3 .f32) (w2t : Vec Ideal S3x2 .f32)
    (b012 : Vec Ideal S3x1 .f32) (wat : Vec Ideal S3x9 .f32) (bac : Vec Ideal S3x1 .f32) :
    k0_pay1 (F := Ideal) x0 w0t w1t w2t b012 wat bac
      = maximumf
          (addf
            (matmul dot_S3x9_S9x65536_S3x65536_1_0_0_1_n_n none (shapeCast S3x9 wat shapeCasts_S3x9_S3x9 : FVec Ideal S3x9 .f32)
              (concatenate S9x65536 0
                [⟨S3x65536, actV x0 w0t w1t w2t b012⟩, ⟨S3x65536, meanV x0⟩,
                 ⟨S3x65536, extractStridedSlice S3x65536 ![5, 0] (shapeCast S10x65536 x0 shapeCasts_S10x65536_S10x65536 : FVec Ideal S10x65536 .f32) slices_S10x65536_o5_0_S3x65536⟩]
                concatenates_S3x65536_S3x65536_S3x65536_S9x65536_d0)
              (constant (F := Ideal) S3x65536 .f32 0x00000000#32))
            (broadcastTo S3x65536 (shapeCast S3x1 bac shapeCasts_S3x1_S3x1 : FVec Ideal S3x1 .f32) broadcasts_S3x1_S3x65536))
          (broadcast S3x65536 (Scalar.ofBits (F := Ideal) .f32 0x00000000#32)) := rfl

/-- THE PAYLOAD AT AN INDEX: at (j, l) the body's result is channel j of the per-node update of lane l's node, read off
    the block's column l and the transposed weights. -/
theorem pay_apply (x0 : Vec Ideal S10x65536 .f32) (w0t : Vec Ideal S3x1 .f32) (w1t : Vec Ideal S3x3 .f32) (w2t : Vec Ideal S3x2 .f32)
    (b012 : Vec Ideal S3x1 .f32) (wat : Vec Ideal S3x9 .f32) (bac : Vec Ideal S3x1 .f32) (j : Fin 3) (l : Fin 65536) :
    k0_pay1 (F := Ideal) x0 w0t w1t w2t b012 wat bac (ix2 j l)
      = Cert.Spec.nodeK (fun k j' => w0t (ix2 j' k)) (fun k j' => w1t (ix2 j' k)) (fun k j' => w2t (ix2 j' k)) (fun k j' => wat (ix2 j' k))
          (fun j' => b012 (ix2 j' 0)) (fun j' => bac (ix2 j' 0))
          (fun _ => x0 (ix2 0 l)) (fun k => x0 (ix2 ⟨k.val + 1, by omega⟩ l)) (x0 (ix2 4 l)) (fun k => x0 (ix2 ⟨k.val + 5, by omega⟩ l)) (fun k => x0 (ix2 ⟨k.val + 8, by omega⟩ l)) j := by
  rw [pay_eq, shapeCast_self, shapeCast_self, shapeCast_self, maximumf_apply, addf_apply, mm_wa_apply, colBroadcast_apply]
  have ha : (fun r => actV x0 w0t w1t w2t b012 (ix2 r l))
      = fun j' => max ((((∑ k : Fin 1, w0t (ix2 j' k) * x0 (ix2 0 l))
            + ∑ k : Fin 3, w1t (ix2 j' k) * Cert.Spec.hagg (fun k => x0 (ix2 ⟨k.val + 1, by omega⟩ l)) (x0 (ix2 4 l)) k)
            + ∑ k : Fin 2, w2t (ix2 j' k) * x0 (ix2 ⟨k.val + 8, by omega⟩ l))
            + b012 (ix2 j' 0)) Cert.Spec.zero :=
    funext fun r => actV_apply x0 w0t w1t w2t b012 r l
  have hh : (fun r => meanV x0 (ix2 r l)) = Cert.Spec.hagg (fun k => x0 (ix2 ⟨k.val + 1, by omega⟩ l)) (x0 (ix2 4 l)) :=
    funext fun r => meanV_apply x0 r l
  have hf : (fun r => extractStridedSlice S3x65536 ![5, 0] x0 slices_S10x65536_o5_0_S3x65536 (ix2 r l))
      = fun k => x0 (ix2 ⟨k.val + 5, by omega⟩ l) :=
    funext fun r => feat_apply x0 r l
  simp only [cat_apply]
  rw [ha, hh, hf]
  rfl

end Cert.KernelIdeal.Pay

end
-- ==== Proof.KernelValue.lean ====
/-
  What the program's result holds: node `n`'s new feature is the per-node update of column `n` of the channels-first
  arrays the region is handed.

  The region's output array is [3, 1048576]; grid point `t` writes back lanes `65536 t … 65536 t + 65535` of it, and
  what it writes at channel `j`, lane `l` is the body's arithmetic of column `l` of its tile of the ten-channel input
  — column `65536 t + l` of the whole input — and of the six small operands, which every point sees whole.  The
  sixteen tiles cover the array, so the array is that function of the column at every lane.  The two operations after
  the region keep lanes below 1000000 and swap the axes.
-/
import proofs.«400974_j5841155522892_2_alg».proof.Proof.KIFrame
import proofs.«400974_j5841155522892_2_alg».proof.Proof.Payload
import proofs.«400974_j5841155522892_2_alg».proof.Proof.Spec
import Idealize.ShloMosaic.Lib.ValueIdx
import Idealize.ShloMosaic.Lib.Pipeline.Value
import Idealize.ShloMosaic.Lib.StableHlo.Run
import Idealize.ShloMosaic.PureOps.Ideal

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (m : (ℓ : Loc nD τ sig) → Buf (Elt Ideal) ℓ)

theorem hz : (![0, 0] : Fin 2 → Nat) = fun _ => 0 := funext fun a => by fin_cases a <;> rfl

/-- The seven arrays the region stages, as it finds them, at their literal types: the padded channels-first node
    data, the four transposed weights and the two bias columns. -/
abbrev comb (c : Dev nD) : S10x1048576.Idx → EReal := V m c main_v11
abbrev w0t (c : Dev nD) : S3x1.Idx → EReal := V m c main_v16
abbrev w1t (c : Dev nD) : S3x3.Idx → EReal := V m c main_v17
abbrev w2t (c : Dev nD) : S3x2.Idx → EReal := V m c main_v18
abbrev wat (c : Dev nD) : S3x9.Idx → EReal := V m c main_v19
abbrev b012 (c : Dev nD) : S3x1.Idx → EReal := V m c main_v14
abbrev bac (c : Dev nD) : S3x1.Idx → EReal := V m c main_v15

/-- Channel `j` of the update of the node in lane `q`. -/
def GK' (c : Dev nD) (j : Fin 3) (q : Fin 1048576) : EReal :=
  Cert.Spec.nodeK (fun k j' => w0t m c (ix2 j' k)) (fun k j' => w1t m c (ix2 j' k)) (fun k j' => w2t m c (ix2 j' k)) (fun k j' => wat m c (ix2 j' k))
    (fun j' => b012 m c (ix2 j' 0)) (fun j' => bac m c (ix2 j' 0))
    (fun _ => comb m c (ix2 0 q)) (fun k => comb m c (ix2 ⟨k.val + 1, by omega⟩ q)) (comb m c (ix2 4 q))
    (fun k => comb m c (ix2 ⟨k.val + 5, by omega⟩ q)) (fun k => comb m c (ix2 ⟨k.val + 8, by omega⟩ q)) j

/-- `GK'` depends on its channel and lane only through their values. -/
theorem GK'_congr (c : Dev nD) (j j' : Fin 3) (q q' : Fin 1048576) (hj : j.val = j'.val) (hq : q.val = q'.val) :
    GK' m c j q = GK' m c j' q' := by
  obtain rfl := Fin.ext hj
  obtain rfl := Fin.ext hq
  rfl

/-- The same as one function of the output array's index. -/
def GK (c : Dev nD) : S3x1048576.Idx → EReal := fun i => GK' m c ⟨(i 0).val, idx2_lt0 i⟩ ⟨(i 1).val, idx2_lt1 i⟩

/-- The printed index maps over the grid: the node data and the output move one tile per point along the lanes; the
    six small operands stay at their one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

theorem t_lt (t : Fin cfg0.N) : t.val < 16 := lt_of_lt_of_eq t.isLt N_0

/-- The node data's tile at point `t` is lanes `65536 t …` of the array. -/
theorem comb_blk (c : Dev nD) (t : Fin cfg0.N) (r : Fin 10) (l : Fin 65536) :
    (iblk m c 0 t : S10x65536.Idx → EReal) (ix2 r l) = comb m c (ix2 r ⟨t.val * 65536 + l.val, by have := t_lt t; omega⟩) := by
  obtain ⟨e0, e1, -⟩ := idx_facts t
  show V m c main_v11 (((cfg0.win 0).blk t).view.emb (ix2 r l)) = V m c main_v11 _
  refine congrArg _ (funext fun a => Fin.ext ?_)
  match a with
  | ⟨0, _⟩ => show win0_0.index t (0 : Fin 2) * 10 + 1 * r.val = r.val; omega
  | ⟨1, _⟩ => show win0_0.index t (1 : Fin 2) * 65536 + 1 * l.val = t.val * 65536 + l.val; omega

/-- Each small operand's block is the whole operand, at every point. -/
theorem w0t_blk (c : Dev nD) (t : Fin cfg0.N) (y : S3x1.Idx) : (iblk m c 1 t : S3x1.Idx → EReal) y = w0t m c y := by
  obtain ⟨-, -, e0, e1, -⟩ := idx_facts t
  show V m c main_v16 (((cfg0.win 1).blk t).view.emb y) = V m c main_v16 y
  refine congrArg _ (funext fun a => Fin.ext ?_)
  match a with
  | ⟨0, _⟩ => show win0_1.index t (0 : Fin 2) * 3 + 1 * (y 0).val = (y 0).val; omega
  | ⟨1, _⟩ => show win0_1.index t (1 : Fin 2) * 1 + 1 * (y 1).val = (y 1).val; omega
theorem w1t_blk (c : Dev nD) (t : Fin cfg0.N) (y : S3x3.Idx) : (iblk m c 2 t : S3x3.Idx → EReal) y = w1t m c y := by
  obtain ⟨-, -, -, -, e0, e1, -⟩ := idx_facts t
  show V m c main_v17 (((cfg0.win 2).blk t).view.emb y) = V m c main_v17 y
  refine congrArg _ (funext fun a => Fin.ext ?_)
  match a with
  | ⟨0, _⟩ => show win0_2.index t (0 : Fin 2) * 3 + 1 * (y 0).val = (y 0).val; omega
  | ⟨1, _⟩ => show win0_2.index t (1 : Fin 2) * 3 + 1 * (y 1).val = (y 1).val; omega
theorem w2t_blk (c : Dev nD) (t : Fin cfg0.N) (y : S3x2.Idx) : (iblk m c 3 t : S3x2.Idx → EReal) y = w2t m c y := by
  obtain ⟨-, -, -, -, -, -, e0, e1, -⟩ := idx_facts t
  show V m c main_v18 (((cfg0.win 3).blk t).view.emb y) = V m c main_v18 y
  refine congrArg _ (funext fun a => Fin.ext ?_)
  match a with
  | ⟨0, _⟩ => show win0_3.index t (0 : Fin 2) * 3 + 1 * (y 0).val = (y 0).val; omega
  | ⟨1, _⟩ => show win0_3.index t (1 : Fin 2) * 2 + 1 * (y 1).val = (y 1).val; omega
theorem wat_blk (c : Dev nD) (t : Fin cfg0.N) (y : S3x9.Idx) : (iblk m c 4 t : S3x9.Idx → EReal) y = wat m c y := by
  obtain ⟨-, -, -, -, -, -, -, -, e0, e1, -⟩ := idx_facts t
  show V m c main_v19 (((cfg0.win 4).blk t).view.emb y) = V m c main_v19 y
  refine congrArg _ (funext fun a => Fin.ext ?_)
  match a with
  | ⟨0, _⟩ => show win0_4.index t (0 : Fin 2) * 3 + 1 * (y 0).val = (y 0).val; omega
  | ⟨1, _⟩ => show win0_4.index t (1 : Fin 2) * 9 + 1 * (y 1).val = (y 1).val; omega
theorem b012_blk (c : Dev nD) (t : Fin cfg0.N) (y : S3x1.Idx) : (iblk m c 5 t : S3x1.Idx → EReal) y = b012 m c y := by
  obtain ⟨-, -, -, -, -, -, -, -, -, -, e0, e1, -⟩ := idx_facts t
  show V m c main_v14 (((cfg0.win 5).blk t).view.emb y) = V m c main_v14 y
  refine congrArg _ (funext fun a => Fin.ext ?_)
  match a with
  | ⟨0, _⟩ => show win0_5.index t (0 : Fin 2) * 3 + 1 * (y 0).val = (y 0).val; omega
  | ⟨1, _⟩ => show win0_5.index t (1 : Fin 2) * 1 + 1 * (y 1).val = (y 1).val; omega
theorem bac_blk (c : Dev nD) (t : Fin cfg0.N) (y : S3x1.Idx) : (iblk m c 6 t : S3x1.Idx → EReal) y = bac m c y := by
  obtain ⟨-, -, -, -, -, -, -, -, -, -, -, -, e0, e1, -⟩ := idx_facts t
  show V m c main_v15 (((cfg0.win 6).blk t).view.emb y) = V m c main_v15 y
  refine congrArg _ (funext fun a => Fin.ext ?_)
  match a with
  | ⟨0, _⟩ => show win0_6.index t (0 : Fin 2) * 3 + 1 * (y 0).val = (y 0).val; omega
  | ⟨1, _⟩ => show win0_6.index t (1 : Fin 2) * 1 + 1 * (y 1).val = (y 1).val; omega

/-- The body's arithmetic of the blocks at point `t`, at channel `j` and lane `l`, is the update of the node in lane
    `65536 t + l`. -/
theorem pay_GK (c : Dev nD) (t : Fin cfg0.N) (j : Fin 3) (l : Fin 65536) :
    k0_pay1 (F := Ideal) (iblk m c 0 t) (iblk m c 1 t) (iblk m c 2 t) (iblk m c 3 t) (iblk m c 5 t) (iblk m c 4 t) (iblk m c 6 t) (ix2 j l)
      = GK' m c j ⟨t.val * 65536 + l.val, by have := t_lt t; omega⟩ := by
  refine (Cert.KernelIdeal.Pay.pay_apply (iblk m c 0 t) (iblk m c 1 t) (iblk m c 2 t) (iblk m c 3 t) (iblk m c 5 t) (iblk m c 4 t) (iblk m c 6 t) j l).trans ?_
  unfold GK'
  simp only [comb_blk, w0t_blk, w1t_blk, w2t_blk, wat_blk, b012_blk, bac_blk]

/-- What point `t` writes back is its tile of `GK`. -/
theorem flushed7_eq (c : Dev nD) (t : Fin cfg0.N) :
    (dats m 0 c).flushed 7 t = ((cfg0.win 7).blk t).view.read (Elt Ideal) (GK m c) := by
  show (cfg0.win 7).cut (grid0.coords t) ((dats m 0 c).after 7 t) = _
  rw [after7]
  unfold out7
  rw [View.canon_unit_zero hz]
  simp only [View.ld_unit_zero (S := S10x65536) hz, View.ld_unit_zero (S := S3x1) hz, View.ld_unit_zero (S := S3x3) hz,
    View.ld_unit_zero (S := S3x2) hz, View.ld_unit_zero (S := S3x9) hz]
  funext y
  obtain ⟨-, -, -, -, -, -, -, -, -, -, -, -, -, -, e0, e1⟩ := idx_facts t
  show k0_pay1 (F := Ideal) (iblk m c 0 t) (iblk m c 1 t) (iblk m c 2 t) (iblk m c 3 t) (iblk m c 5 t) (iblk m c 4 t) (iblk m c 6 t) y
    = GK m c (((cfg0.win 7).blk t).view.emb y)
  obtain ⟨j, l, rfl⟩ : ∃ (j : Fin 3) (l : Fin 65536), y = ix2 j l := ⟨y 0, y 1, eq_ix2 y⟩
  refine (pay_GK m c t j l).trans ?_
  unfold GK
  refine GK'_congr m c _ _ _ _ ?_ ?_
  · show j.val = win0_7.index t (0 : Fin 2) * 3 + 1 * j.val; omega
  · show t.val * 65536 + l.val = win0_7.index t (1 : Fin 2) * 65536 + 1 * l.val; omega

/-- An index of the output array is in point `t`'s tile iff each coordinate is in the tile's range on its axis. -/
theorem mem_blk7 (t : Fin cfg0.N) (i : S3x1048576.Idx) :
    i ∈ ((cfg0.win 7).blk t).view.set ↔ ∀ a : Fin 2, win0_7.index t a * S3x65536.size a ≤ (i a).val ∧ (i a).val < win0_7.index t a * S3x65536.size a + S3x65536.size a := by
  show i ∈ ((View.whole main_v20).slice (win0_7.rect t)).set ↔ _
  rw [View.set_slice_whole, Rect.mem_set_unit]
  exact Iff.rfl

/-- Every lane is in the tile of the point `lane / 65536`. -/
theorem covered7 (i : S3x1048576.Idx) : ∃ t : Fin cfg0.N, (cfg0.win 7).flush t = true ∧ i ∈ ((cfg0.win 7).blk t).view.set := by
  have hi0 := idx2_lt0 i
  have hi1 := idx2_lt1 i
  have hN : cfg0.N = 16 := N_0
  refine ⟨⟨(i 1).val / 65536, by rw [hN]; omega⟩, flush0_7 _, ?_⟩
  rw [mem_blk7]
  obtain ⟨-, -, -, -, -, -, -, -, -, -, -, -, -, -, e0, e1⟩ := idx_facts ⟨(i 1).val / 65536, by rw [hN]; omega⟩
  intro a
  match a with
  | ⟨0, _⟩ => show win0_7.index _ (0 : Fin 2) * 3 ≤ (i 0).val ∧ (i 0).val < win0_7.index _ (0 : Fin 2) * 3 + 3; omega
  | ⟨1, _⟩ => show win0_7.index _ (1 : Fin 2) * 65536 ≤ (i 1).val ∧ (i 1).val < win0_7.index _ (1 : Fin 2) * 65536 + 65536; simp only [] at e1; omega

/-- The output array after the run. -/
theorem final7 (c : Dev nD) : (dats m 0 c).arrAt 7 cfg0.N = GK m c :=
  (dats m 0 c).arrAt_eq_of_cover 7 (GK m c) (fun t _ => flushed7_eq m c t) (covered7)

/-- THE RESULT: node `n`'s channel `j` is the update of the node in lane `n`. -/
theorem result_apply (c : Dev nD) (n : Fin 1000000) (j : Fin 3) :
    (Pipeline.afterTail₀ cfgs (dats m) 0 (V0 m) [hostOps1] c main_v22 : S1000000x3.Idx → EReal) (ix2 n j)
      = GK' m c j ⟨n.val, by omega⟩ := by
  unfold Pipeline.afterTail₀
  show (StableHlo.after (hostOps1 (F := Ideal)) _ (Proc.devRef .tc main_v22) : S1000000x3.Idx → EReal) (ix2 n j) = _
  after_results
  have hA : Pipeline.withArrays (cfgs 0).spec c (V0 m c) (fun w => (dats m 0 c).arrAt w (cfgs 0).N) (Proc.devRef .tc main_v20) = GK m c :=
    (Pipeline.withArrays_arr spec0 launch0.win.arr_inj c _ _ 7).trans (final7 m c)
  rw [hA]
  refine (transpose_apply [1, 0] _ transposes_S3x1000000_S1000000x3_1_0 (ix2 n j) (ix2 j n) (fun b => ?_)).trans ?_
  · match b with
    | ⟨0, _⟩ => rfl
    | ⟨1, _⟩ => rfl
  refine (extractStridedSlice_apply ![0, 0] _ slices_S3x1048576_S3x1000000_0_0 (ix2 j n) (ix2 j ⟨n.val, by omega⟩) (fun a => ?_)).trans ?_
  · match a with
    | ⟨0, _⟩ => show j.val = 0 + j.val; omega
    | ⟨1, _⟩ => show n.val = 0 + n.val; omega
  unfold GK
  exact GK'_congr m c _ _ _ _ rfl rfl

end Cert.KernelIdeal.KV

end
-- ==== Proof.PreDecode.lean ====
/-
  The index-range precondition, decoded, and what it does to the kernel's take.

  The precondition's last conjunct says every word of the source-index array lies in [0, 999999] (signed).
  The kernel's take first wraps a negative index by adding the table's extent, then masks every row whose
  wrapped index is out of [0, 999999] with a not-a-number word.  Under the precondition no index is negative,
  so the wrap is the identity, the mask holds at every row, and the masked take is the plain gather.
-/
import proofs.«400974_j5841155522892_2_alg».proof.Defs
import proofs.«400974_j5841155522892_2_alg».proof.Proof.Gen.KernelIdeal
import proofs.«400974_j5841155522892_2_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.PreDecode

open Idealize.ShloMosaic Idealize.ShloMosaic.TcCoe Idealize.ShloMosaic.ValueIdx Idealize.SL.Sem Cert.KernelIdeal
open Cert.KernelIdeal.Facts₀

/-- The scalar shape has one index. -/
instance : Subsingleton S_.Idx := ⟨fun a b => funext fun d => d.elim0⟩

/-! ## The precondition's last conjunct, read at one word -/

/-- The last part of the precondition is a conjunction whose second conjunct is the all-reduction of
    "0 ≤ word ≤ 999999" over the index array; if the conjunction is 1, every word is in that range. -/
theorem part3_decode {F : FTy → Type} [FloatOps F] (a11 : IVec Cert.Pre_finite_inputs.S16000000 32)
    (v48 : IVec Cert.Pre_finite_inputs.S_ 1) (v49 v50 : FVec F Cert.Pre_finite_inputs.S3 .f32)
    (h : Cert.Pre_finite_inputs.fn_part3 (F := F) a11 v48 v49 v50 ix0 = 1#1) (e : Fin 16000000) :
    IntOp.cmpi .sge (a11 (ix1 e)) 0#32 = 1#1 ∧ IntOp.cmpi .sle (a11 (ix1 e)) 999999#32 = 1#1 := by
  unfold Cert.Pre_finite_inputs.fn_part3 at h
  have h59 := (IntOp.andi_eq_one.1 h).2
  have hall := Host.reduce_andi_all _ _ _ _ _ h59 (ix1 e)
  exact IntOp.andi_eq_one.1 hall

/-- Under the precondition every word of the source-index array is in [0, 999999]. -/
theorem src_in_range (m : (ℓ : Loc nD τ sig) → Buf (Elt Ideal) ℓ) (hpre : Cert.Pre_KernelIdeal m) (c : Dev nD) (e : Fin 16000000) :
    IntOp.cmpi .sge ((m ((c.tc : Thread nD τ).loc main_arg11) : S16000000.Idx → BitVec 32) (ix1 e)) 0#32 = 1#1
      ∧ IntOp.cmpi .sle ((m ((c.tc : Thread nD τ).loc main_arg11) : S16000000.Idx → BitVec 32) (ix1 e)) 999999#32 = 1#1 := by
  have h := congrFun (hpre c) ix0
  unfold Cert.Pre_finite_inputs.fn Cert.Pre_finite_inputs.fn_part1 Cert.Pre_finite_inputs.fn_part2 at h
  exact part3_decode _ _ _ _ h e

/-! ## The kernel's take under the range hypothesis -/

/-- The wrapped index column: a negative word has the table's extent added, then the array is laid out as a column. -/
def NIdx (src : IVec S16000000 32) : IVec S16000000x1 32 :=
  broadcastInDim S16000000x1 ![0] bcast_S16000000_S16000000x1_0 (select (cmpi .slt src (broadcastInDim S16000000 ![] bcast_S_S16000000 (constantI S_ 32 0#32))) (addi src (broadcastInDim S16000000 ![] bcast_S_S16000000 (constantI S_ 32 1000000#32))) src)

/-- The kernel's take: the gathered rows where the wrapped index is in range, a not-a-number word elsewhere. -/
def TK (feat : FVec Ideal S1000000x3 .f32) (src : IVec S16000000 32) : FVec Ideal S16000000x3 .f32 :=
  select (broadcastInDim S16000000x3 ![0] bcast_S16000000_S16000000x3_0 (Host.reduce IntOp.andi (andi (cmpi .sge (NIdx src) (broadcastInDim S16000000x1 ![] bcast_S_S16000000x1 (constantI S_ 32 0#32))) (cmpi .sle (NIdx src) (broadcastInDim S16000000x1 ![0, 1] bcast_S1x1_S16000000x1_0_1 (broadcastInDim S1x1 ![1] bcast_S1_S1x1_1 (constantI S1 32 999999#32))))) (constantI S_ 1 1#1) reducesTo_S16000000x1_S16000000_d1 h_S_)) (Host.gather gather_S1000000x3_S16000000x1_S16000000x3_1_0_n_n_0_1_13 feat (NIdx src)) (broadcastInDim S16000000x3 ![] bcast_S_S16000000x3 (constant S_ .f32 0x7FC00000#32))

/-- A nonnegative word is not wrapped. -/
theorem wrap_of_nonneg (s : BitVec 32) (h0 : IntOp.cmpi .sge s 0#32 = 1#1) :
    Scalar.select (IntOp.cmpi .slt s 0#32) (IntOp.addi s 1000000#32) s = s := by
  have hn : ¬ IntOp.cmpi .slt s 0#32 = 1#1 := fun hlt => by
    rw [IntOp.cmpi_slt] at hlt
    rw [IntOp.cmpi_sge] at h0
    omega
  exact if_neg hn

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- Under the range hypothesis the wrapped array holds, at every index, a word in range (the source word itself). -/
theorem wrapped_in_range (src : IVec S16000000 32)
    (h : ∀ e : Fin 16000000, IntOp.cmpi .sge (src (ix1 e)) 0#32 = 1#1 ∧ IntOp.cmpi .sle (src (ix1 e)) 999999#32 = 1#1)
    (k : S16000000.Idx) :
    IntOp.cmpi .sge (select (cmpi .slt src (broadcastInDim S16000000 ![] bcast_S_S16000000 (constantI S_ 32 0#32))) (addi src (broadcastInDim S16000000 ![] bcast_S_S16000000 (constantI S_ 32 1000000#32))) src k) 0#32 = 1#1
      ∧ IntOp.cmpi .sle (select (cmpi .slt src (broadcastInDim S16000000 ![] bcast_S_S16000000 (constantI S_ 32 0#32))) (addi src (broadcastInDim S16000000 ![] bcast_S_S16000000 (constantI S_ 32 1000000#32))) src k) 999999#32 = 1#1 := by
  obtain ⟨e, rfl⟩ : ∃ e, k = ix1 e := ⟨k 0, eq_ix1 k⟩
  obtain ⟨h0, h1⟩ := h e
  have hw : select (cmpi .slt src (broadcastInDim S16000000 ![] bcast_S_S16000000 (constantI S_ 32 0#32))) (addi src (broadcastInDim S16000000 ![] bcast_S_S16000000 (constantI S_ 32 1000000#32))) src (ix1 e) = src (ix1 e) :=
    wrap_of_nonneg _ h0
  rw [hw]
  exact ⟨h0, h1⟩

/-- So does the wrapped index column, at every index. -/
theorem nidx_in_range (src : IVec S16000000 32)
    (h : ∀ e : Fin 16000000, IntOp.cmpi .sge (src (ix1 e)) 0#32 = 1#1 ∧ IntOp.cmpi .sle (src (ix1 e)) 999999#32 = 1#1)
    (i : S16000000x1.Idx) :
    IntOp.cmpi .sge (NIdx src i) 0#32 = 1#1 ∧ IntOp.cmpi .sle (NIdx src i) 999999#32 = 1#1 :=
  wrapped_in_range src h _

/-- The mask (the in-range test reduced by `and` over the column's unit axis) is 1 at every row. -/
theorem mask_one (src : IVec S16000000 32)
    (h : ∀ e : Fin 16000000, IntOp.cmpi .sge (src (ix1 e)) 0#32 = 1#1 ∧ IntOp.cmpi .sle (src (ix1 e)) 999999#32 = 1#1)
    (k : S16000000.Idx) :
    Host.reduce IntOp.andi (andi (cmpi .sge (NIdx src) (broadcastInDim S16000000x1 ![] bcast_S_S16000000x1 (constantI S_ 32 0#32))) (cmpi .sle (NIdx src) (broadcastInDim S16000000x1 ![0, 1] bcast_S1x1_S16000000x1_0_1 (broadcastInDim S1x1 ![1] bcast_S1_S1x1_1 (constantI S1 32 999999#32))))) (constantI S_ 1 1#1) reducesTo_S16000000x1_S16000000_d1 h_S_ k = 1#1 := by
  rw [Host.reduce_eq_foldl]
  exact foldl_andi_ones _ _ fun i _ => IntOp.andi_eq_one.2 (nidx_in_range src h i)

/-- A select whose condition is a row mask that is 1 at every row keeps its first operand. -/
theorem select_rows_ones {α : Type} (M : IVec S16000000 1) (hM : ∀ k, M k = 1#1) (a b : S16000000x3.Idx → α) :
    select (broadcastInDim S16000000x3 ![0] bcast_S16000000_S16000000x3_0 M) a b = a := by
  funext j
  rw [select_apply]
  have hj : broadcastInDim S16000000x3 ![0] bcast_S16000000_S16000000x3_0 M j = 1#1 := hM _
  rw [hj, select_one]

/-- Under the range hypothesis the kernel's take is the plain gather at the wrapped index column. -/
theorem take_fill_eq (feat : FVec Ideal S1000000x3 .f32) (src : IVec S16000000 32)
    (h : ∀ e : Fin 16000000, IntOp.cmpi .sge (src (ix1 e)) 0#32 = 1#1 ∧ IntOp.cmpi .sle (src (ix1 e)) 999999#32 = 1#1) :
    TK feat src = Host.gather gather_S1000000x3_S16000000x1_S16000000x3_1_0_n_n_0_1_13 feat (NIdx src) := by
  unfold TK
  exact select_rows_ones _ (mask_one src h) _ _

end Cert.KernelIdeal.PreDecode

end
-- ==== Proof.RefValue.lean ====
/-
  The reference program's result, index by index, as the per-node update.

  The reference gathers each edge's source feature row, adds it into the edge's destination row (the summed
  message) and counts the edges into each destination (the in-degree); both are kept as named functions of the
  launch's arrays.  Every later operation reads one node's row: the mean message is the summed message over the
  in-degree floored at one; the activation is the floor at zero of three products, each followed by its bias; the
  activation, the mean message and the old feature are laid end to end and multiplied into the last weight, the
  last bias is added, and the sum is floored at zero.  Read at node `n`, channel `j`, this is the per-node update
  of node `n`'s label, summed message, in-degree, feature and attribute.
-/
import proofs.«400974_j5841155522892_2_alg».proof.Proof.Gen.ReferenceIdeal.Run
import proofs.«400974_j5841155522892_2_alg».proof.Proof.Gen.ReferenceIdeal.Read
import proofs.«400974_j5841155522892_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem Cert.ReferenceIdeal Cert.ReferenceIdeal.Gen

/-- The gather's row index per edge: the source index, wrapped once by the number of nodes when negative. -/
def NIdx (src : IVec S16000000 32) : IVec S16000000x1 32 :=
  broadcastInDim S16000000x1 ![0] bcast_S16000000_S16000000x1_0 (select (cmpi .slt src (broadcastInDim S16000000 ![] bcast_S_S16000000 (constantI S_ 32 0#32))) (addi src (broadcastInDim S16000000 ![] bcast_S_S16000000 (constantI S_ 32 1000000#32))) src)

/-- The summed incoming message of every node: each edge's source feature row added into its destination's row. -/
def S1 (feat : FVec Ideal S1000000x3 .f32) (src dst : IVec S16000000 32) : FVec Ideal S1000000x3 .f32 :=
  Host.scatterAdd scatter_S1000000x3_S16000000x1_S16000000x3_1_0_0_1 (broadcastInDim S1000000x3 ![] bcast_S_S1000000x3 (constant S_ .f32 0x00000000#32)) (broadcastInDim S16000000x1 ![0] bcast_S16000000_S16000000x1_0 dst) (Host.gather gather_S1000000x3_S16000000x1_S16000000x3_1_0_n_n_0_1_13 feat (NIdx src))

/-- The in-degree of every node: one added per edge into its destination. -/
def DEG (dst : IVec S16000000 32) : FVec Ideal S1000000 .f32 :=
  Host.scatterAdd scatter_S1000000_S16000000x1_S16000000_n_0_0_1 (broadcastInDim S1000000 ![] bcast_S_S1000000 (constant S_ .f32 0x00000000#32)) (broadcastInDim S16000000x1 ![0] bcast_S16000000_S16000000x1_0 dst) (broadcastInDim S16000000 ![] bcast_S_S16000000 (constant S_ .f32 0x3F800000#32))

/-- The first scatter stage is the summed message. -/
theorem v9_eq (x0 : FVec Ideal S1000000x3 .f32) (x11 x12 : IVec S16000000 32) :
    Read.val_main_v9 (F := Ideal) x0 x11 x12 = S1 x0 x11 x12 := rfl

/-- The second scatter stage is the in-degree. -/
theorem v13_eq (x12 : IVec S16000000 32) :
    Read.val_main_v13 (F := Ideal) x12 = DEG x12 := rfl

/-- The degree column, spread over the three channels, is read at the node. -/
theorem idx_deg (n : Fin 1000000) (k : Fin 3) :
    Read.idx_main_v16 (Read.idx_main_v17 (ix2 n k)) = ix1 n :=
  funext fun a => Fin.ext (by match a with | ⟨0, _⟩ => rfl)

/-- The mean message at node `n`, channel `k`. -/
theorem v18_apply (x0 : FVec Ideal S1000000x3 .f32) (x11 x12 : IVec S16000000 32) (n : Fin 1000000) (k : Fin 3) :
    Read.val_main_v18 (F := Ideal) x0 x11 x12 (ix2 n k)
      = Cert.Spec.hagg (fun k' => S1 x0 x11 x12 (ix2 n k')) (DEG x12 (ix1 n)) k := by
  rw [Read.val_main_v18_apply, Read.val_main_v17_apply, Read.val_main_v16_apply, Read.val_main_v15_apply,
    Read.val_main_v14_apply, Read.val_main_cst_3_apply, idx_deg, v9_eq, v13_eq]
  simp only [Ideal.hostDivf_def, Ideal.maximumf_def, Ideal.ofBits_def]
  rfl

/-! The index functions of the four bias rows and the four products, at `(n, j)`. -/

theorem idx_b0 (n : Fin 1000000) (j : Fin 3) : Read.idx_main_v20 (Read.idx_main_v21 (ix2 n j)) = ix1 j :=
  funext fun a => Fin.ext (by match a with | ⟨0, _⟩ => rfl)
theorem idx_b1 (n : Fin 1000000) (j : Fin 3) : Read.idx_main_v25 (Read.idx_main_v26 (ix2 n j)) = ix1 j :=
  funext fun a => Fin.ext (by match a with | ⟨0, _⟩ => rfl)
theorem idx_b2 (n : Fin 1000000) (j : Fin 3) : Read.idx_main_v30 (Read.idx_main_v31 (ix2 n j)) = ix1 j :=
  funext fun a => Fin.ext (by match a with | ⟨0, _⟩ => rfl)
theorem idx_ba (n : Fin 1000000) (j : Fin 3) : Read.idx_main_v36 (Read.idx_main_v37 (ix2 n j)) = ix1 j :=
  funext fun a => Fin.ext (by match a with | ⟨0, _⟩ => rfl)

theorem lidx_w0 (n : Fin 1000000) (j : Fin 3) (k : Fin 1) : Read.lidx_main_v19 (ix2 n j) k = ix2 n k :=
  funext fun a => Fin.ext (by match a with | ⟨0, _⟩ => rfl | ⟨1, _⟩ => rfl)
theorem ridx_w0 (n : Fin 1000000) (j : Fin 3) (k : Fin 1) : Read.ridx_main_v19 (ix2 n j) k = ix2 k j :=
  funext fun a => Fin.ext (by match a with | ⟨0, _⟩ => rfl | ⟨1, _⟩ => rfl)
theorem lidx_w1 (n : Fin 1000000) (j : Fin 3) (k : Fin 3) : Read.lidx_main_v23 (ix2 n j) k = ix2 n k :=
  funext fun a => Fin.ext (by match a with | ⟨0, _⟩ => rfl | ⟨1, _⟩ => rfl)
theorem ridx_w1 (n : Fin 1000000) (j : Fin 3) (k : Fin 3) : Read.ridx_main_v23 (ix2 n j) k = ix2 k j :=
  funext fun a => Fin.ext (by match a with | ⟨0, _⟩ => rfl | ⟨1, _⟩ => rfl)
theorem lidx_w2 (n : Fin 1000000) (j : Fin 3) (k : Fin 2) : Read.lidx_main_v28 (ix2 n j) k = ix2 n k :=
  funext fun a => Fin.ext (by match a with | ⟨0, _⟩ => rfl | ⟨1, _⟩ => rfl)
theorem ridx_w2 (n : Fin 1000000) (j : Fin 3) (k : Fin 2) : Read.ridx_main_v28 (ix2 n j) k = ix2 k j :=
  funext fun a => Fin.ext (by match a with | ⟨0, _⟩ => rfl | ⟨1, _⟩ => rfl)
theorem lidx_wa (n : Fin 1000000) (j : Fin 3) (k : Fin 9) : Read.lidx_main_v35 (ix2 n j) k = ix2 n k :=
  funext fun a => Fin.ext (by match a with | ⟨0, _⟩ => rfl | ⟨1, _⟩ => rfl)
theorem ridx_wa (n : Fin 1000000) (j : Fin 3) (k : Fin 9) : Read.ridx_main_v35 (ix2 n j) k = ix2 k j :=
  funext fun a => Fin.ext (by match a with | ⟨0, _⟩ => rfl | ⟨1, _⟩ => rfl)

/-- The activation at node `n`, channel `j`: the three products, each followed by its bias, floored at zero. -/
theorem v33_apply (x0 : FVec Ideal S1000000x3 .f32) (x1 : FVec Ideal S1000000x2 .f32) (x2 : FVec Ideal S1000000x1 .f32)
    (x3 : FVec Ideal S1x3 .f32) (x4 : FVec Ideal S3 .f32) (x5 : FVec Ideal S3x3 .f32) (x6 : FVec Ideal S3 .f32)
    (x7 : FVec Ideal S2x3 .f32) (x8 : FVec Ideal S3 .f32) (x11 x12 : IVec S16000000 32) (n : Fin 1000000) (j : Fin 3) :
    Read.val_main_v33 (F := Ideal) x0 x1 x2 x3 x4 x5 x6 x7 x8 x11 x12 (ix2 n j)
      = max ((((((∑ k : Fin 1, x2 (ix2 n k) * x3 (ix2 k j)) + x4 (ix1 j))
          + ∑ k : Fin 3, Cert.Spec.hagg (fun k' => S1 x0 x11 x12 (ix2 n k')) (DEG x12 (ix1 n)) k * x5 (ix2 k j)) + x6 (ix1 j))
          + ∑ k : Fin 2, x1 (ix2 n k) * x7 (ix2 k j)) + x8 (ix1 j)) Cert.Spec.zero := by
  rw [Read.val_main_v33_apply, Read.val_main_v32_apply, Read.val_main_v29_apply, Read.val_main_v27_apply,
    Read.val_main_v24_apply, Read.val_main_v22_apply, Read.val_main_v19_apply, Read.val_main_v21_apply,
    Read.val_main_v20_apply, Read.val_main_v23_apply, Read.val_main_v26_apply, Read.val_main_v25_apply,
    Read.val_main_v28_apply, Read.val_main_v31_apply, Read.val_main_v30_apply, Read.val_main_call0_v0_apply,
    Read.val_main_call0_cst_apply, idx_b0, idx_b1, idx_b2]
  simp only [lidx_w0, ridx_w0, lidx_w1, ridx_w1, lidx_w2, ridx_w2, v18_apply, Ideal.addf_def, Ideal.maximumf_def,
    Ideal.ofBits_def]

/-- The nine numbers of node `n`: the activation, the mean message and the old feature laid end to end. -/
theorem v34_apply (x0 : FVec Ideal S1000000x3 .f32) (x1 : FVec Ideal S1000000x2 .f32) (x2 : FVec Ideal S1000000x1 .f32)
    (x3 : FVec Ideal S1x3 .f32) (x4 : FVec Ideal S3 .f32) (x5 : FVec Ideal S3x3 .f32) (x6 : FVec Ideal S3 .f32)
    (x7 : FVec Ideal S2x3 .f32) (x8 : FVec Ideal S3 .f32) (x11 x12 : IVec S16000000 32) (n : Fin 1000000) (k : Fin 9) :
    Read.val_main_v34 (F := Ideal) x0 x1 x2 x3 x4 x5 x6 x7 x8 x11 x12 (ix2 n k)
      = Cert.Spec.zcat (fun j' => Read.val_main_v33 (F := Ideal) x0 x1 x2 x3 x4 x5 x6 x7 x8 x11 x12 (ix2 n j'))
          (fun k' => Read.val_main_v18 (F := Ideal) x0 x11 x12 (ix2 n k')) (fun k' => x0 (ix2 n k')) k := by
  unfold Read.val_main_v34 Cert.Spec.zcat
  by_cases h3 : k.val < 3
  · rw [dif_pos h3]
    exact concatenate_apply_piece (t := S1000000x9) 1 _ _ (ix2 n k)
      0 (by show 0 < 3; omega) S1000000x3 _ rfl rfl 0 rfl (ix2 n ⟨k.val, h3⟩)
      (fun b hb => by match b with | ⟨0, _⟩ => rfl | ⟨1, _⟩ => exact absurd rfl hb)
      (by show 0 + k.val = k.val; omega)
  · rw [dif_neg h3]
    by_cases h6 : k.val < 6
    · rw [dif_pos h6]
      exact concatenate_apply_piece (t := S1000000x9) 1 _ _ (ix2 n k)
        1 (by show 1 < 3; omega) S1000000x3 _ rfl rfl 3 rfl (ix2 n ⟨k.val - 3, by omega⟩)
        (fun b hb => by match b with | ⟨0, _⟩ => rfl | ⟨1, _⟩ => exact absurd rfl hb)
        (by show 3 + (k.val - 3) = k.val; omega)
    · rw [dif_neg h6]
      exact concatenate_apply_piece (t := S1000000x9) 1 _ _ (ix2 n k)
        2 (by show 2 < 3; omega) S1000000x3 _ rfl rfl 6 rfl (ix2 n ⟨k.val - 6, by have := k.isLt; omega⟩)
        (fun b hb => by match b with | ⟨0, _⟩ => rfl | ⟨1, _⟩ => exact absurd rfl hb)
        (by show 6 + (k.val - 6) = k.val; omega)

/-- The result stage at node `n`, channel `j`, is the per-node update of node `n`'s data. -/
theorem v39_apply (x0 : FVec Ideal S1000000x3 .f32) (x1 : FVec Ideal S1000000x2 .f32) (x2 : FVec Ideal S1000000x1 .f32)
    (x3 : FVec Ideal S1x3 .f32) (x4 : FVec Ideal S3 .f32) (x5 : FVec Ideal S3x3 .f32) (x6 : FVec Ideal S3 .f32)
    (x7 : FVec Ideal S2x3 .f32) (x8 : FVec Ideal S3 .f32) (x9 : FVec Ideal S9x3 .f32) (x10 : FVec Ideal S3 .f32)
    (x11 x12 : IVec S16000000 32) (n : Fin 1000000) (j : Fin 3) :
    Read.val_main_v39 (F := Ideal) x0 x1 x2 x3 x4 x5 x6 x7 x8 x9 x10 x11 x12 (ix2 n j)
      = Cert.Spec.nodeR (fun k j' => x3 (ix2 k j')) (fun k j' => x5 (ix2 k j')) (fun k j' => x7 (ix2 k j')) (fun k j' => x9 (ix2 k j'))
          (fun j' => x4 (ix1 j')) (fun j' => x6 (ix1 j')) (fun j' => x8 (ix1 j')) (fun j' => x10 (ix1 j'))
          (fun k => x2 (ix2 n k)) (fun k => S1 x0 x11 x12 (ix2 n k)) (DEG x12 (ix1 n)) (fun k => x0 (ix2 n k)) (fun k => x1 (ix2 n k)) j := by
  rw [Read.val_main_v39_apply, Read.val_main_v38_apply, Read.val_main_v35_apply, Read.val_main_v37_apply,
    Read.val_main_v36_apply, Read.val_main_call1_v0_apply, Read.val_main_call1_cst_apply, idx_ba]
  simp only [lidx_wa, ridx_wa, v34_apply, v33_apply, v18_apply, Ideal.addf_def, Ideal.maximumf_def, Ideal.ofBits_def]
  rfl

/-- The reference's result at node `n`, channel `j`: the per-node update of the node's label, summed incoming
    message, in-degree, feature and attribute under the launch's weights and biases. -/
theorem ref_apply (m : (ℓ : Loc nD τ sig) → Buf (Elt Ideal) ℓ) (c : Dev nD) (n : Fin 1000000) (j : Fin 3) :
    (Cert.ReferenceIdeal.Value.res_out0 (F := Ideal) m c : S1000000x3.Idx → EReal) (ix2 n j)
      = Cert.Spec.nodeR (fun k j' => m ((c.tc : Thread nD τ).loc main_arg3) (ix2 k j'))
          (fun k j' => m ((c.tc : Thread nD τ).loc main_arg5) (ix2 k j'))
          (fun k j' => m ((c.tc : Thread nD τ).loc main_arg7) (ix2 k j'))
          (fun k j' => m ((c.tc : Thread nD τ).loc main_arg9) (ix2 k j'))
          (fun j' => m ((c.tc : Thread nD τ).loc main_arg4) (ix1 j'))
          (fun j' => m ((c.tc : Thread nD τ).loc main_arg6) (ix1 j'))
          (fun j' => m ((c.tc : Thread nD τ).loc main_arg8) (ix1 j'))
          (fun j' => m ((c.tc : Thread nD τ).loc main_arg10) (ix1 j'))
          (fun k => m ((c.tc : Thread nD τ).loc main_arg2) (ix2 n k))
          (fun k => S1 (m ((c.tc : Thread nD τ).loc main_arg0)) (m ((c.tc : Thread nD τ).loc main_arg11))
            (m ((c.tc : Thread nD τ).loc main_arg12)) (ix2 n k))
          (DEG (m ((c.tc : Thread nD τ).loc main_arg12)) (ix1 n))
          (fun k => m ((c.tc : Thread nD τ).loc main_arg0) (ix2 n k))
          (fun k => m ((c.tc : Thread nD τ).loc main_arg1) (ix2 n k)) j := by
  show Cert.ReferenceIdeal.Value.res_main_v39 (F := Ideal) m c (ix2 n j) = _
  rw [Read.val_main_v39_eq]
  exact v39_apply _ _ _ _ _ _ _ _ _ _ _ _ _ n j

end Cert.ReferenceIdeal.RefValue

end
-- ==== Proof.ScatterRead.lean ====
/-
  What a host scatter-add holds at an index, for the three scatters of the two programs.

  At the exact instance a scatter-add is, at operand index `i`, the operand's element plus the sum of the
  updates whose result index is `i`.  For the dimension numbers met here (one scatter index per update row,
  read signed off column 0 of the index array and not clamped; the update's trailing axis, when it has one,
  carried over unchanged) update `(e, c)` lands at `(I e, c)` when `0 ≤ I e < N` and nowhere otherwise.  So the
  value at `(n, j)` is `X (n, j) + ∑ e, [I e = n] · U (e, j)`.  The lemmas are stated for every extent
  (`N` nodes, `E` edges, `C` channels) and then read at the programs' shapes.

  The last theorem splits the four-channel scatter of rows `(m₀, m₁, m₂, 1)` into the three-channel scatter of
  the messages and the rank-one scatter of the ones.
-/
import proofs.«400974_j5841155522892_2_alg».proof.KernelIdeal
import proofs.«400974_j5841155522892_2_alg».proof.ReferenceIdeal
import proofs.«400974_j5841155522892_2_alg».proof.Proof.Gen.KernelIdeal
import proofs.«400974_j5841155522892_2_alg».proof.Proof.Gen.ReferenceIdeal
import Idealize.ShloMosaic.Lib.ValueIdx
import Idealize.ShloMosaic.Lib.ValueIdxRank1
import Idealize.ShloMosaic.Lib.Pipeline.Value
import Idealize.ShloMosaic.PureOps.Ideal

noncomputable section

open scoped BigOperators

namespace Cert.ScatterRead

open Idealize.ShloMosaic Idealize.ShloMosaic.ValueIdx

/-! ## Rank-two operand and updates: `[E, C]` rows added into `[N, C]` at the rows `[E, 1]` indices name -/

section Rank2
variable {N E C : Nat} (wf : ScatterDims.WF ⟨2, ![N, C]⟩ ⟨2, ![E, 1]⟩ ⟨2, ![E, C]⟩ [1] [0] [0] 1)

/-- The dimension numbers: window axis `1` of the updates, operand axis `0` inserted and indexed, index vectors along axis `1`. -/
abbrev d2 : ScatterDims ⟨2, ![N, C]⟩ ⟨2, ![E, 1]⟩ ⟨2, ![E, C]⟩ := ⟨[1], [0], [0], 1, wf⟩

/-- The window coordinate on the indexed axis is `0`. -/
theorem window_zero (u : (⟨2, ![E, C]⟩ : Shape).Idx) : (d2 wf).window u 0 = 0 := by
  unfold ScatterDims.window
  rw [dif_neg (by show (0 : Fin 2) ∉ [(1 : Fin 2)]; decide)]

/-- The window coordinate on the channel axis is the update's channel. -/
theorem window_one (u : (⟨2, ![E, C]⟩ : Shape).Idx) : (d2 wf).window u 1 = (u 1).val := by
  unfold ScatterDims.window
  rw [dif_pos (by show (1 : Fin 2) ∈ [(1 : Fin 2)]; decide)]
  rfl

/-- The channel axis has no start index. -/
theorem start_one {w : Nat} (u : (⟨2, ![E, C]⟩ : Shape).Idx) (idx : IVec ⟨2, ![E, 1]⟩ w) : (d2 wf).start u idx 1 = 0 := by
  unfold ScatterDims.start
  rw [dif_neg (by show (1 : Fin 2) ∉ [(0 : Fin 2)]; decide)]

/-- Update `(e, c)` reads its one start component at `(e, 0)` of the indices. -/
theorem siIdx_zero (u : (⟨2, ![E, C]⟩ : Shape).Idx) (c : Fin (d2 wf).scatterDimsToOperandDims.length) :
    (d2 wf).siIdx u c = ix2 (u 0) 0 := by
  funext b
  match b with
  | ⟨0, _⟩ =>
    unfold ScatterDims.siIdx
    rw [dif_neg (by show ¬ (0 : Nat) = 1; decide)]
    apply Fin.ext
    unfold ScatterDims.siCoord
    rfl
  | ⟨1, _⟩ =>
    unfold ScatterDims.siIdx
    rw [dif_pos rfl]
    apply Fin.ext
    have := c.isLt
    change c.val < 1 at this
    show c.val = 0
    omega

/-- The start on the indexed axis is the signed value of the index at `(e, 0)`. -/
theorem start_zero {w : Nat} (u : (⟨2, ![E, C]⟩ : Shape).Idx) (idx : IVec ⟨2, ![E, 1]⟩ w) : (d2 wf).start u idx 0 = (idx (ix2 (u 0) 0)).toInt := by
  unfold ScatterDims.start
  rw [dif_pos (by show (0 : Fin 2) ∈ [(0 : Fin 2)]; decide)]
  rw [siIdx_zero]
  rfl

/-- Update `(e, c)` lands at `(n, j)` exactly when its index is `n` and its channel is `j`. -/
theorem resultIdx_iff {w : Nat} (idx : IVec ⟨2, ![E, 1]⟩ w) (e : Fin E) (c : Fin C) (n : Fin N) (j : Fin C) :
    (d2 wf).resultIdx? (ix2 e c) idx = some (ix2 n j) ↔ (idx (ix2 e 0)).toInt = (n.val : Int) ∧ c = j := by
  have hs0 : (d2 wf).start (ix2 e c) idx 0 = (idx (ix2 e 0)).toInt := start_zero wf (ix2 e c) idx
  have hs1 := start_one wf (ix2 e c) idx
  have hw0 := window_zero wf (ix2 e c)
  have hw1 : (d2 wf).window (ix2 e c) 1 = c.val := window_one wf (ix2 e c)
  have hn : n.val < N := n.isLt
  have hj : j.val < C := j.isLt
  unfold ScatterDims.resultIdx?
  split
  · rename_i h
    rw [Option.some.injEq]
    have g0 := h 0
    constructor
    · intro heq
      have h0 := congrArg Fin.val (congrFun heq 0)
      have h1 := congrArg Fin.val (congrFun heq 1)
      simp only [hs0, hw0, hs1, hw1] at h0 h1 g0
      change ((idx (ix2 e 0)).toInt + ((0 : Nat) : Int)).toNat = n.val at h0
      change ((0 : Int) + ((c.val : Nat) : Int)).toNat = j.val at h1
      refine ⟨by omega, Fin.ext (by omega)⟩
    · rintro ⟨h0, rfl⟩
      rw [eq_ix2 (fun a => _)]
      congr 1
      · apply Fin.ext
        show ((d2 wf).start (ix2 e c) idx 0 + ((d2 wf).window (ix2 e c) 0 : Nat)).toNat = n.val
        rw [hs0, hw0, h0]; simp
      · apply Fin.ext
        show ((d2 wf).start (ix2 e c) idx 1 + ((d2 wf).window (ix2 e c) 1 : Nat)).toNat = c.val
        rw [hs1, hw1]; simp
  · rename_i h
    constructor
    · intro hne; cases hne
    · rintro ⟨h0, rfl⟩
      exfalso; apply h
      refine Fin.forall_fin_two.2 ⟨?_, ?_⟩
      · rw [hs0, hw0, h0]
        show 0 ≤ (n.val : Int) + ((0 : Nat) : Int) ∧ (n.val : Int) + ((0 : Nat) : Int) < (N : Int)
        omega
      · rw [hs1, hw1]
        show 0 ≤ (0 : Int) + ((c.val : Nat) : Int) ∧ (0 : Int) + ((c.val : Nat) : Int) < (C : Int)
        omega

/-- The scatter-add at `(n, j)`: the operand there plus channel `j` of every row whose index is `n`. -/
theorem scatterAdd2_apply (X : FVec Ideal ⟨2, ![N, C]⟩ .f32) (I : IVec ⟨2, ![E, 1]⟩ 32) (U : FVec Ideal ⟨2, ![E, C]⟩ .f32)
    (n : Fin N) (j : Fin C) :
    Host.scatterAdd (F := Ideal) (d2 wf) X I U (ix2 n j)
      = X (ix2 n j) + ∑ e : Fin E, if (I (ix2 e 0)).toInt = (n.val : Int) then U (ix2 e j) else 0 := by
  unfold Host.scatterAdd
  rw [Ideal.hostScatterAdd_def]
  unfold Ideal.hostScatterAdd
  congr 1
  rw [Finset.sum_filter, sum_idx2]
  refine Finset.sum_congr rfl fun e _ => ?_
  simp only [resultIdx_iff wf]
  by_cases h : (I (ix2 e 0)).toInt = (n.val : Int)
  · simp only [h, true_and, if_true]
    rw [Finset.sum_ite_eq' Finset.univ j (fun c => U (ix2 e c))]
    simp
  · simp only [h, false_and, if_false]
    exact Finset.sum_const_zero

end Rank2

/-! ## Rank-one operand and updates: `[E]` values added into `[N]` -/

section Rank1
variable {N E : Nat} (wf : ScatterDims.WF ⟨1, ![N]⟩ ⟨2, ![E, 1]⟩ ⟨1, ![E]⟩ [] [0] [0] 1)

/-- The dimension numbers: no window axis, operand axis `0` inserted and indexed, index vectors along axis `1`. -/
abbrev d1 : ScatterDims ⟨1, ![N]⟩ ⟨2, ![E, 1]⟩ ⟨1, ![E]⟩ := ⟨[], [0], [0], 1, wf⟩

/-- There is no window: the window coordinate is `0`. -/
theorem window1_zero (u : (⟨1, ![E]⟩ : Shape).Idx) : (d1 wf).window u 0 = 0 := by
  unfold ScatterDims.window
  rw [dif_neg (by show (0 : Fin 1) ∉ ([] : List (Fin 1)); decide)]

/-- Update `e` reads its one start component at `(e, 0)` of the indices. -/
theorem siIdx1_zero (u : (⟨1, ![E]⟩ : Shape).Idx) (c : Fin (d1 wf).scatterDimsToOperandDims.length) :
    (d1 wf).siIdx u c = ix2 (u 0) 0 := by
  funext b
  match b with
  | ⟨0, _⟩ =>
    unfold ScatterDims.siIdx
    rw [dif_neg (by show ¬ (0 : Nat) = 1; decide)]
    apply Fin.ext
    unfold ScatterDims.siCoord
    rfl
  | ⟨1, _⟩ =>
    unfold ScatterDims.siIdx
    rw [dif_pos rfl]
    apply Fin.ext
    have := c.isLt
    change c.val < 1 at this
    show c.val = 0
    omega

/-- The start is the signed value of the index at `(e, 0)`. -/
theorem start1_zero {w : Nat} (u : (⟨1, ![E]⟩ : Shape).Idx) (idx : IVec ⟨2, ![E, 1]⟩ w) :
    (d1 wf).start u idx 0 = (idx (ix2 (u 0) 0)).toInt := by
  unfold ScatterDims.start
  rw [dif_pos (by show (0 : Fin 1) ∈ [(0 : Fin 1)]; decide)]
  rw [siIdx1_zero]
  rfl

/-- Update `e` lands at `n` exactly when its index is `n`. -/
theorem resultIdx1_iff {w : Nat} (idx : IVec ⟨2, ![E, 1]⟩ w) (e : Fin E) (n : Fin N) :
    (d1 wf).resultIdx? (ix1 e) idx = some (ix1 n) ↔ (idx (ix2 e 0)).toInt = (n.val : Int) := by
  have hs0 : (d1 wf).start (ix1 e) idx 0 = (idx (ix2 e 0)).toInt := start1_zero wf (ix1 e) idx
  have hw0 := window1_zero wf (ix1 e)
  have hn : n.val < N := n.isLt
  unfold ScatterDims.resultIdx?
  split
  · rename_i h
    rw [Option.some.injEq]
    have g0 := h 0
    constructor
    · intro heq
      have h0 := congrArg Fin.val (congrFun heq 0)
      simp only [hs0, hw0] at h0 g0
      change ((idx (ix2 e 0)).toInt + ((0 : Nat) : Int)).toNat = n.val at h0
      omega
    · intro h0
      rw [eq_ix1 (fun a => _)]
      congr 1
      apply Fin.ext
      show ((d1 wf).start (ix1 e) idx 0 + ((d1 wf).window (ix1 e) 0 : Nat)).toNat = n.val
      rw [hs0, hw0, h0]; simp
  · rename_i h
    constructor
    · intro hne; cases hne
    · intro h0
      exfalso; apply h
      intro a
      match a with
      | ⟨0, _⟩ =>
        show 0 ≤ (d1 wf).start (ix1 e) idx 0 + ((d1 wf).window (ix1 e) 0 : Nat) ∧
          (d1 wf).start (ix1 e) idx 0 + ((d1 wf).window (ix1 e) 0 : Nat) < (N : Int)
        rw [hs0, hw0, h0]
        omega

/-- The scatter-add at `n`: the operand there plus every value whose index is `n`. -/
theorem scatterAdd1_apply (X : FVec Ideal ⟨1, ![N]⟩ .f32) (I : IVec ⟨2, ![E, 1]⟩ 32) (U : FVec Ideal ⟨1, ![E]⟩ .f32)
    (n : Fin N) :
    Host.scatterAdd (F := Ideal) (d1 wf) X I U (ix1 n)
      = X (ix1 n) + ∑ e : Fin E, if (I (ix2 e 0)).toInt = (n.val : Int) then U (ix1 e) else 0 := by
  unfold Host.scatterAdd
  rw [Ideal.hostScatterAdd_def]
  unfold Ideal.hostScatterAdd
  congr 1
  rw [Finset.sum_filter, ← Equiv.sum_comp (idxEquiv1 (n := E)).symm]
  refine Finset.sum_congr rfl fun e _ => ?_
  show (if (d1 wf).resultIdx? (ix1 e) I = some (ix1 n) then U (ix1 e) else 0) = _
  simp only [resultIdx1_iff wf]

end Rank1

/-! ## The three scatters of the two programs -/

/-- The kernel program's scatter of `[E, 4]` rows into `[N, 4]`, read at `(n, j)`. -/
theorem scatter4_apply (X : FVec Ideal Cert.KernelIdeal.S1000000x4 .f32) (I : IVec Cert.KernelIdeal.S16000000x1 32)
    (U : FVec Ideal Cert.KernelIdeal.S16000000x4 .f32) (n : Fin 1000000) (j : Fin 4) :
    Host.scatterAdd (F := Ideal) Cert.KernelIdeal.scatter_S1000000x4_S16000000x1_S16000000x4_1_0_0_1 X I U (ix2 n j)
      = X (ix2 n j) + ∑ e : Fin 16000000, if (I (ix2 e 0)).toInt = (n.val : Int) then U (ix2 e j) else 0 :=
  scatterAdd2_apply (N := 1000000) (E := 16000000) (C := 4)
    Cert.KernelIdeal.Facts₀.scatter_S1000000x4_S16000000x1_S16000000x4_1_0_0_1_wf X I U n j

/-- The reference's scatter of `[E, 3]` rows into `[N, 3]`, read at `(n, j)`. -/
theorem scatter3_apply (X : FVec Ideal Cert.ReferenceIdeal.S1000000x3 .f32) (I : IVec Cert.ReferenceIdeal.S16000000x1 32)
    (U : FVec Ideal Cert.ReferenceIdeal.S16000000x3 .f32) (n : Fin 1000000) (j : Fin 3) :
    Host.scatterAdd (F := Ideal) Cert.ReferenceIdeal.scatter_S1000000x3_S16000000x1_S16000000x3_1_0_0_1 X I U (ix2 n j)
      = X (ix2 n j) + ∑ e : Fin 16000000, if (I (ix2 e 0)).toInt = (n.val : Int) then U (ix2 e j) else 0 :=
  scatterAdd2_apply (N := 1000000) (E := 16000000) (C := 3)
    Cert.ReferenceIdeal.Facts₀.scatter_S1000000x3_S16000000x1_S16000000x3_1_0_0_1_wf X I U n j

/-- The reference's scatter of `[E]` values into `[N]`, read at `n`. -/
theorem scatter1_apply (X : FVec Ideal Cert.ReferenceIdeal.S1000000 .f32) (I : IVec Cert.ReferenceIdeal.S16000000x1 32)
    (U : FVec Ideal Cert.ReferenceIdeal.S16000000 .f32) (n : Fin 1000000) :
    Host.scatterAdd (F := Ideal) Cert.ReferenceIdeal.scatter_S1000000_S16000000x1_S16000000_n_0_0_1 X I U (ix1 n)
      = X (ix1 n) + ∑ e : Fin 16000000, if (I (ix2 e 0)).toInt = (n.val : Int) then U (ix1 e) else 0 :=
  scatterAdd1_apply (N := 1000000) (E := 16000000)
    Cert.ReferenceIdeal.Facts₀.scatter_S1000000_S16000000x1_S16000000_n_0_0_1_wf X I U n

/-! ## The fused scatter splits -/

/-- A row of the concatenation `[messages | ones]` read at a message channel. -/
theorem concat_msg (M1 : FVec Ideal Cert.KernelIdeal.S16000000x3 .f32) (O1 : FVec Ideal Cert.KernelIdeal.S16000000x1 .f32)
    (e : Fin 16000000) (j : Fin 3) :
    concatenate Cert.KernelIdeal.S16000000x4 1 [⟨Cert.KernelIdeal.S16000000x3, M1⟩, ⟨Cert.KernelIdeal.S16000000x1, O1⟩]
      Cert.KernelIdeal.Facts₀.concatenates_S16000000x3_S16000000x1_S16000000x4_d1 (ix2 e j.castSucc) = M1 (ix2 e j) :=
  concatenate_pair_apply_left (t := Cert.KernelIdeal.S16000000x4) (1 : Fin 2) M1 O1 _ (ix2 e j.castSucc) rfl (ix2 e j) (by
    intro b
    match b with
    | ⟨0, _⟩ => rfl
    | ⟨1, _⟩ => rfl)

/-- A row of the concatenation `[messages | ones]` read at the last channel. -/
theorem concat_one (M1 : FVec Ideal Cert.KernelIdeal.S16000000x3 .f32) (O1 : FVec Ideal Cert.KernelIdeal.S16000000x1 .f32)
    (e : Fin 16000000) :
    concatenate Cert.KernelIdeal.S16000000x4 1 [⟨Cert.KernelIdeal.S16000000x3, M1⟩, ⟨Cert.KernelIdeal.S16000000x1, O1⟩]
      Cert.KernelIdeal.Facts₀.concatenates_S16000000x3_S16000000x1_S16000000x4_d1 (ix2 e 3) = O1 (ix2 e 0) :=
  concatenate_pair_apply_right (t := Cert.KernelIdeal.S16000000x4) (1 : Fin 2) M1 O1 _ (ix2 e 3) rfl rfl (ix2 e 0) (by
    intro b hb
    match b, hb with
    | ⟨0, _⟩, _ => rfl
    | ⟨1, _⟩, hb => exact absurd rfl hb) rfl

/-- The scatter of the rows `[messages | ones]` into `[N, 4]` is, on channels `0, 1, 2`, the scatter of the messages
    into `[N, 3]` and, on channel `3`, the scatter of the ones into `[N]`, the operands agreeing likewise. -/
theorem scatter_split (X4 : FVec Ideal Cert.KernelIdeal.S1000000x4 .f32) (X3 : FVec Ideal Cert.ReferenceIdeal.S1000000x3 .f32)
    (X1 : FVec Ideal Cert.ReferenceIdeal.S1000000 .f32) (I : IVec Cert.KernelIdeal.S16000000x1 32)
    (M1 : FVec Ideal Cert.KernelIdeal.S16000000x3 .f32) (O1 : FVec Ideal Cert.KernelIdeal.S16000000x1 .f32)
    (O : FVec Ideal Cert.ReferenceIdeal.S16000000 .f32)
    (hX3 : ∀ (n : Fin 1000000) (j : Fin 3), X4 (ix2 n j.castSucc) = X3 (ix2 n j))
    (hX1 : ∀ n : Fin 1000000, X4 (ix2 n 3) = X1 (ix1 n))
    (hO : ∀ e : Fin 16000000, O1 (ix2 e 0) = O (ix1 e)) (n : Fin 1000000) :
    (∀ j : Fin 3,
      Host.scatterAdd (F := Ideal) Cert.KernelIdeal.scatter_S1000000x4_S16000000x1_S16000000x4_1_0_0_1 X4 I
        (concatenate Cert.KernelIdeal.S16000000x4 1 [⟨Cert.KernelIdeal.S16000000x3, M1⟩, ⟨Cert.KernelIdeal.S16000000x1, O1⟩]
          Cert.KernelIdeal.Facts₀.concatenates_S16000000x3_S16000000x1_S16000000x4_d1) (ix2 n j.castSucc)
        = Host.scatterAdd (F := Ideal) Cert.ReferenceIdeal.scatter_S1000000x3_S16000000x1_S16000000x3_1_0_0_1 X3 I M1 (ix2 n j))
    ∧ Host.scatterAdd (F := Ideal) Cert.KernelIdeal.scatter_S1000000x4_S16000000x1_S16000000x4_1_0_0_1 X4 I
        (concatenate Cert.KernelIdeal.S16000000x4 1 [⟨Cert.KernelIdeal.S16000000x3, M1⟩, ⟨Cert.KernelIdeal.S16000000x1, O1⟩]
          Cert.KernelIdeal.Facts₀.concatenates_S16000000x3_S16000000x1_S16000000x4_d1) (ix2 n 3)
        = Host.scatterAdd (F := Ideal) Cert.ReferenceIdeal.scatter_S1000000_S16000000x1_S16000000_n_0_0_1 X1 I O (ix1 n) := by
  constructor
  · intro j
    refine (scatter4_apply X4 I _ n j.castSucc).trans (Eq.trans ?_ (scatter3_apply X3 I M1 n j).symm)
    rw [hX3 n j]
    refine congrArg (fun s => X3 (ix2 n j) + s) ?_
    refine Finset.sum_congr rfl fun e _ => ?_
    rw [concat_msg M1 O1 e j]
  · refine (scatter4_apply X4 I _ n 3).trans (Eq.trans ?_ (scatter1_apply X1 I O n).symm)
    rw [hX1 n]
    refine congrArg (fun s => X1 (ix1 n) + s) ?_
    refine Finset.sum_congr rfl fun e _ => ?_
    rw [concat_one M1 O1 e, hO e]

end Cert.ScatterRead
-- ==== Proof.SdSplit.lean ====
/-
  The kernel's fused scatter, split into the reference's two.

  The kernel adds, for every edge, the row [message | 1] into its destination's row of a zero [N, 4] array, the
  message being the masked take of the source's feature row.  Under the index-range hypothesis the masked take is
  the plain gather, and a scatter-add of rows laid side by side is, channel by channel, the scatter-add of each
  part: channels 0, 1, 2 are the reference's summed messages and channel 3 is the reference's in-degree.
-/
import proofs.«400974_j5841155522892_2_alg».proof.Proof.PreDecode
import proofs.«400974_j5841155522892_2_alg».proof.Proof.RefValue
import proofs.«400974_j5841155522892_2_alg».proof.Proof.ScatterRead

noncomputable section

namespace Cert.SdSplit

open Idealize.ShloMosaic Idealize.ShloMosaic.TcCoe Idealize.ShloMosaic.ValueIdx Idealize.SL.Sem Cert.KernelIdeal
open Cert.KernelIdeal.Facts₀

/-- The kernel's fused scatter: every edge adds its row [message | 1] into its destination's row of a zero [N, 4] array. -/
def SD (feat : FVec Ideal S1000000x3 .f32) (src dst : IVec S16000000 32) : FVec Ideal S1000000x4 .f32 :=
  Host.scatterAdd scatter_S1000000x4_S16000000x1_S16000000x4_1_0_0_1 (broadcastInDim S1000000x4 ![] bcast_S_S1000000x4 (constant S_ .f32 0x00000000#32)) (broadcastInDim S16000000x1 ![0] bcast_S16000000_S16000000x1_0 dst) (concatenate S16000000x4 1 [⟨S16000000x3, Cert.KernelIdeal.PreDecode.TK feat src⟩, ⟨S16000000x1, broadcastInDim S16000000x1 ![] bcast_S_S16000000x1 (constant S_ .f32 0x3F800000#32)⟩] concatenates_S16000000x3_S16000000x1_S16000000x4_d1)

/-- Under the index-range hypothesis the fused scatter splits: its first three channels are the reference's summed
    messages and its last channel is the reference's in-degree. -/
theorem sd_split (feat : FVec Ideal S1000000x3 .f32) (src dst : IVec S16000000 32)
    (h : ∀ e : Fin 16000000, IntOp.cmpi .sge (src (ix1 e)) 0#32 = 1#1 ∧ IntOp.cmpi .sle (src (ix1 e)) 999999#32 = 1#1) (n : Fin 1000000) :
    (∀ j : Fin 3, SD feat src dst (ix2 n j.castSucc) = Cert.ReferenceIdeal.RefValue.S1 feat src dst (ix2 n j))
      ∧ SD feat src dst (ix2 n 3) = Cert.ReferenceIdeal.RefValue.DEG dst (ix1 n) := by
  have hs := Cert.ScatterRead.scatter_split
    (broadcastInDim S1000000x4 ![] bcast_S_S1000000x4 (constant (F := Ideal) S_ .f32 0x00000000#32))
    (broadcastInDim Cert.ReferenceIdeal.S1000000x3 ![] Cert.ReferenceIdeal.Facts₀.bcast_S_S1000000x3 (constant (F := Ideal) Cert.ReferenceIdeal.S_ .f32 0x00000000#32))
    (broadcastInDim Cert.ReferenceIdeal.S1000000 ![] Cert.ReferenceIdeal.Facts₀.bcast_S_S1000000 (constant (F := Ideal) Cert.ReferenceIdeal.S_ .f32 0x00000000#32))
    (broadcastInDim S16000000x1 ![0] bcast_S16000000_S16000000x1_0 dst)
    (Host.gather gather_S1000000x3_S16000000x1_S16000000x3_1_0_n_n_0_1_13 feat (Cert.KernelIdeal.PreDecode.NIdx src))
    (broadcastInDim S16000000x1 ![] bcast_S_S16000000x1 (constant (F := Ideal) S_ .f32 0x3F800000#32))
    (broadcastInDim Cert.ReferenceIdeal.S16000000 ![] Cert.ReferenceIdeal.Facts₀.bcast_S_S16000000 (constant (F := Ideal) Cert.ReferenceIdeal.S_ .f32 0x3F800000#32))
    (fun _ _ => rfl) (fun _ => rfl) (fun _ => rfl) n
  unfold SD
  rw [Cert.KernelIdeal.PreDecode.take_fill_eq feat src h]
  exact hs

end Cert.SdSplit

end
-- ==== Proof.Entry.lean ====
/-
  What the staged arrays hold when the region is entered.

  Before its one region the program runs 46 host operations on the launch memory, in four stretches: the masked gather
  of the neighbours' feature rows; the fused scatter of the rows [message | 1] into a zero [N, 4] array and the stack
  of label, scattered sums, features and attributes, each transposed, into a [10, N] array; the zero pad of that array
  to 1048576 lanes; the bias sums and the weight transposes.  Here the padded array is read at a real node's lane, row
  by row, as a function of the launch memory: row 0 is the node's label, rows 1 to 4 its row of the scattered sums,
  rows 5 to 7 its features, rows 8 and 9 its attributes.  The fold over the operations is opened one stretch at a time,
  each stretch over an arbitrary valuation, and the result is read at an index through the pad, the stack and one
  transpose.
-/
import proofs.«400974_j5841155522892_2_alg».proof.Proof.Gen.KernelIdeal.Launch
import proofs.«400974_j5841155522892_2_alg».proof.Proof.SdSplit
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal

noncomputable section

namespace Cert.KernelIdeal.Entry

open Idealize.ShloMosaic Idealize.ShloMosaic.TcCoe Idealize.ShloMosaic.ValueIdx Idealize.SL.Sem Cert.KernelIdeal Cert.KernelIdeal.Gen

/-- What every buffer of a device holds when the region is entered: the launch contents run through the 46 host
    operations that precede it. -/
abbrev E0 (m : (ℓ : Loc nD τ sig) → Buf (Elt Ideal) ℓ) (c : Dev nD) : Valuation τ sig (Elt Ideal) :=
  StableHlo.after (List.flatten [hostOps0, hostOps0_1, hostOps0_2, hostOps0_3]) (fun b => m (c, b))

/-- The entry contents, one stretch of host operations at a time. -/
theorem E0_eq (m : (ℓ : Loc nD τ sig) → Buf (Elt Ideal) ℓ) (c : Dev nD) :
    E0 m c = StableHlo.after hostOps0_3 (StableHlo.after hostOps0_2 (StableHlo.after hostOps0_1
      (StableHlo.after hostOps0 (fun b => m (c, b))))) := by
  show StableHlo.after (hostOps0 ++ (hostOps0_1 ++ (hostOps0_2 ++ (hostOps0_3 ++ [])))) _ = _
  rw [List.append_nil, StableHlo.after_append, StableHlo.after_append, StableHlo.after_append]

open Idealize.ShloMosaic.StableHlo in
/-- Computes a buffer's contents after a literal list of operations over literal references: each operation's result
    is rewritten, at its own result buffer, to its function applied to its operands' contents, and at any other buffer to
    what was there before (the two references distinct by computation), outermost operation first, until no operation is
    left. A four-operand operation is rewritten with each operand's contents at its own reference. -/
macro "results_loop" : tactic =>
  `(tactic| repeat (first
      | rw [nullary_result] | rw [unary_result] | rw [binary_result] | rw [ternary_result] | rw [reshape_result]
      | rw [nary4_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

section Stretches
variable (W : Valuation τ sig (Elt Ideal))

/-- The last stretch (the bias sums, the two reshapes, the four weight transposes) leaves the padded array alone. -/
theorem s3_v11 : StableHlo.after (hostOps0_3 (F := Ideal)) W (Proc.devRef .tc main_v11) = W (Proc.devRef .tc main_v11) := by
  simp only [hostOps0_3, StableHlo.after_cons, StableHlo.after_nil]
  results_loop

/-- The padding stretch: the [10, N] array padded with the converted integer zero to 1048576 lanes. -/
theorem s2_v11 :
    (StableHlo.after (hostOps0_2 (F := Ideal)) W (Proc.devRef .tc main_v11) : S10x1048576.Idx → EReal)
      = pad S10x1048576 ![0, 0] ![0, 48576] ![0, 0] (W (Proc.devRef .tc main_v10) : S10x1000000.Idx → EReal)
          (sitofp (F := Ideal) .f32 (W (Proc.devRef .tc main_c) : S_.Idx → BitVec 32))
          pads_S10x1000000_S10x1048576_000_0485760 h_S_ := by
  simp only [hostOps0_2, StableHlo.after_cons, StableHlo.after_nil]
  results_loop
  all_goals rfl
end Stretches

section Stretch1
variable (W : Valuation τ sig (Elt Ideal))

/-- The label column transposed to a row. -/
theorem s1_v6 :
    (StableHlo.after ((hostOps0_1 (F := Ideal)).take 11) W (Proc.devRef .tc main_v6) : S1x1000000.Idx → EReal)
      = transpose S1x1000000 [1, 0] (W (Proc.devRef .tc main_arg2) : S1000000x1.Idx → EReal)
          transposes_S1000000x1_S1x1000000_1_0 := by
  simp only [hostOps0_1, List.take_succ_cons, List.take_zero, StableHlo.after_cons, StableHlo.after_nil]
  results_loop
  all_goals rfl

/-- The feature matrix transposed. -/
theorem s1_v8 :
    (StableHlo.after ((hostOps0_1 (F := Ideal)).take 11) W (Proc.devRef .tc main_v8) : S3x1000000.Idx → EReal)
      = transpose S3x1000000 [1, 0] (W (Proc.devRef .tc main_arg0) : S1000000x3.Idx → EReal)
          transposes_S1000000x3_S3x1000000_1_0 := by
  simp only [hostOps0_1, List.take_succ_cons, List.take_zero, StableHlo.after_cons, StableHlo.after_nil]
  results_loop
  all_goals rfl

/-- The attribute matrix transposed. -/
theorem s1_v9 :
    (StableHlo.after ((hostOps0_1 (F := Ideal)).take 11) W (Proc.devRef .tc main_v9) : S2x1000000.Idx → EReal)
      = transpose S2x1000000 [1, 0] (W (Proc.devRef .tc main_arg1) : S1000000x2.Idx → EReal)
          transposes_S1000000x2_S2x1000000_1_0 := by
  simp only [hostOps0_1, List.take_succ_cons, List.take_zero, StableHlo.after_cons, StableHlo.after_nil]
  results_loop
  all_goals rfl
end Stretch1

section Stretch1b
variable (W : Valuation τ sig (Elt Ideal))

/-- The scattered sums transposed: the rows [message | 1] of the edges added into their destinations' rows of a zero
    [N, 4] array, then the array transposed. -/
theorem s1_v7 :
    (StableHlo.after ((hostOps0_1 (F := Ideal)).take 11) W (Proc.devRef .tc main_v7) : S4x1000000.Idx → EReal)
      = transpose S4x1000000 [1, 0]
          (Host.scatterAdd (F := Ideal) scatter_S1000000x4_S16000000x1_S16000000x4_1_0_0_1
            (broadcastInDim S1000000x4 ![] bcast_S_S1000000x4 (constant S_ .f32 0x00000000#32))
            (broadcastInDim S16000000x1 ![0] bcast_S16000000_S16000000x1_0
              (W (Proc.devRef .tc main_arg12) : S16000000.Idx → BitVec 32))
            (concatenate S16000000x4 1
              [⟨S16000000x3, (W (Proc.devRef .tc main_v0) : S16000000x3.Idx → EReal)⟩,
                ⟨S16000000x1, broadcastInDim S16000000x1 ![] bcast_S_S16000000x1 (constant (F := Ideal) S_ .f32 0x3F800000#32)⟩]
              concatenates_S16000000x3_S16000000x1_S16000000x4_d1))
          transposes_S1000000x4_S4x1000000_1_0 := by
  simp only [hostOps0_1, List.take_succ_cons, List.take_zero, StableHlo.after_cons, StableHlo.after_nil]
  results_loop
  all_goals rfl

/-- The last two operations of the second stretch: the four transposed arrays stacked into [10, N]. -/
theorem s1_tail_v10 :
    (StableHlo.after ((hostOps0_1 (F := Ideal)).drop 11) W (Proc.devRef .tc main_v10) : S10x1000000.Idx → EReal)
      = concatenate S10x1000000 0
          [⟨S1x1000000, (W (Proc.devRef .tc main_v6) : S1x1000000.Idx → EReal)⟩,
            ⟨S4x1000000, (W (Proc.devRef .tc main_v7) : S4x1000000.Idx → EReal)⟩,
            ⟨S3x1000000, (W (Proc.devRef .tc main_v8) : S3x1000000.Idx → EReal)⟩,
            ⟨S2x1000000, (W (Proc.devRef .tc main_v9) : S2x1000000.Idx → EReal)⟩]
          concatenates_S1x1000000_S4x1000000_S3x1000000_S2x1000000_S10x1000000_d0 := by
  simp only [hostOps0_1, List.drop_succ_cons, List.drop_zero, StableHlo.after_cons, StableHlo.after_nil]
  results_loop
  all_goals rfl
end Stretch1b

section Stretch0
variable (W : Valuation τ sig (Elt Ideal))

/-- Contents carried to a buffer's type and back are the contents. -/
theorem ofBuf_toBuf {T : BufTy} (x : StableHlo.TRef sig T) (v : T.Contents (Elt Ideal)) : x.ofBuf (x.toBuf v) = v := by
  obtain ⟨r, rfl, _, _⟩ := x; rfl

open Idealize.ShloMosaic.StableHlo in
set_option maxRecDepth 16384 in
/-- The first stretch: the gathered, range-masked neighbour rows. -/
theorem s0_v0 :
    (StableHlo.after (hostOps0 (F := Ideal)) W (Proc.devRef .tc main_v0) : S16000000x3.Idx → EReal)
      = Cert.KernelIdeal.PreDecode.TK (W (Proc.devRef .tc main_arg0)) (W (Proc.devRef .tc main_arg11)) := by
  unfold Cert.KernelIdeal.PreDecode.TK Cert.KernelIdeal.PreDecode.NIdx
  simp only [hostOps0]
  after_results_simp
  simp only [ofBuf_toBuf]
  have h11 : (StableHlo.TRef.of (sig := sig) (T := ⟨S16000000, .i32⟩) main_arg11).ofBuf (W (Proc.devRef .tc main_arg11))
      = W (Proc.devRef .tc main_arg11) := rfl
  have h0 : (StableHlo.TRef.of (sig := sig) (T := ⟨S1000000x3, .f32⟩) main_arg0).ofBuf (W (Proc.devRef .tc main_arg0))
      = W (Proc.devRef .tc main_arg0) := rfl
  rw [h11, h0]
  have hv : ∀ v : S16000000x3.Idx → EReal,
      ((StableHlo.TRef.of (sig := sig) (T := ⟨S16000000x3, .f32⟩) main_v0).toBuf (Val := Elt Ideal) v
        : S16000000x3.Idx → EReal) = v := fun _ => rfl
  rw [hv]
end Stretch0

section Assembly
variable (W : Valuation τ sig (Elt Ideal))

/-- The first stretch leaves the arguments it reads alone. -/
theorem s0_arg0 : StableHlo.after (hostOps0 (F := Ideal)) W (Proc.devRef .tc main_arg0) = W (Proc.devRef .tc main_arg0) := by
  simp only [hostOps0, StableHlo.after_cons, StableHlo.after_nil]
  results_loop
@[inherit_doc s0_arg0]
theorem s0_arg1 : StableHlo.after (hostOps0 (F := Ideal)) W (Proc.devRef .tc main_arg1) = W (Proc.devRef .tc main_arg1) := by
  simp only [hostOps0, StableHlo.after_cons, StableHlo.after_nil]
  results_loop
@[inherit_doc s0_arg0]
theorem s0_arg2 : StableHlo.after (hostOps0 (F := Ideal)) W (Proc.devRef .tc main_arg2) = W (Proc.devRef .tc main_arg2) := by
  simp only [hostOps0, StableHlo.after_cons, StableHlo.after_nil]
  results_loop
@[inherit_doc s0_arg0]
theorem s0_arg12 : StableHlo.after (hostOps0 (F := Ideal)) W (Proc.devRef .tc main_arg12) = W (Proc.devRef .tc main_arg12) := by
  simp only [hostOps0, StableHlo.after_cons, StableHlo.after_nil]
  results_loop

/-- The second stretch: the label row, the four rows of scattered sums, the three feature rows and the two attribute rows
    stacked into [10, N]. -/
theorem s1_v10 :
    (StableHlo.after (hostOps0_1 (F := Ideal)) W (Proc.devRef .tc main_v10) : S10x1000000.Idx → EReal)
      = concatenate S10x1000000 0
          [⟨S1x1000000, transpose S1x1000000 [1, 0] (W (Proc.devRef .tc main_arg2) : S1000000x1.Idx → EReal)
              transposes_S1000000x1_S1x1000000_1_0⟩,
            ⟨S4x1000000, transpose S4x1000000 [1, 0]
              (Host.scatterAdd (F := Ideal) scatter_S1000000x4_S16000000x1_S16000000x4_1_0_0_1
                (broadcastInDim S1000000x4 ![] bcast_S_S1000000x4 (constant S_ .f32 0x00000000#32))
                (broadcastInDim S16000000x1 ![0] bcast_S16000000_S16000000x1_0
                  (W (Proc.devRef .tc main_arg12) : S16000000.Idx → BitVec 32))
                (concatenate S16000000x4 1
                  [⟨S16000000x3, (W (Proc.devRef .tc main_v0) : S16000000x3.Idx → EReal)⟩,
                    ⟨S16000000x1, broadcastInDim S16000000x1 ![] bcast_S_S16000000x1
                      (constant (F := Ideal) S_ .f32 0x3F800000#32)⟩]
                  concatenates_S16000000x3_S16000000x1_S16000000x4_d1))
              transposes_S1000000x4_S4x1000000_1_0⟩,
            ⟨S3x1000000, transpose S3x1000000 [1, 0] (W (Proc.devRef .tc main_arg0) : S1000000x3.Idx → EReal)
              transposes_S1000000x3_S3x1000000_1_0⟩,
            ⟨S2x1000000, transpose S2x1000000 [1, 0] (W (Proc.devRef .tc main_arg1) : S1000000x2.Idx → EReal)
              transposes_S1000000x2_S2x1000000_1_0⟩]
          concatenates_S1x1000000_S4x1000000_S3x1000000_S2x1000000_S10x1000000_d0 := by
  have h : hostOps0_1 (F := Ideal) = (hostOps0_1 (F := Ideal)).take 11 ++ (hostOps0_1 (F := Ideal)).drop 11 :=
    (List.take_append_drop 11 _).symm
  rw [h, StableHlo.after_append, s1_tail_v10, s1_v6, s1_v7, s1_v8, s1_v9]
end Assembly

section Reads

/-- A real node's lane of the padded array is its lane of the unpadded one. -/
theorem pad_read (x : S10x1000000.Idx → EReal) (v : S_.Idx → EReal) (r : Fin 10) (p : Fin 1000000) :
    pad S10x1048576 ![0, 0] ![0, 48576] ![0, 0] x v pads_S10x1000000_S10x1048576_000_0485760 h_S_
        (ix2 r (⟨p.val, by have := p.isLt; omega⟩ : Fin 1048576))
      = x (ix2 r p) :=
  pad_apply_of_inside _ _ _ x v pads_S10x1000000_S10x1048576_000_0485760 h_S_ _ (ix2 r p) (fun a =>
    match a with
    | ⟨0, _⟩ => by show r.val = 0 + r.val * (0 + 1); omega
    | ⟨1, _⟩ => by show p.val = 0 + p.val * (0 + 1); omega)

variable (x6 : S1x1000000.Idx → EReal) (x7 : S4x1000000.Idx → EReal) (x8 : S3x1000000.Idx → EReal)
  (x9 : S2x1000000.Idx → EReal)

/-- Row 0 of the stack is the first piece's only row. -/
theorem stack_read0 (p : Fin 1000000) :
    concatenate S10x1000000 0 [⟨S1x1000000, x6⟩, ⟨S4x1000000, x7⟩, ⟨S3x1000000, x8⟩, ⟨S2x1000000, x9⟩]
        concatenates_S1x1000000_S4x1000000_S3x1000000_S2x1000000_S10x1000000_d0 (ix2 (0 : Fin 10) p)
      = x6 (ix2 (0 : Fin 1) p) :=
  concatenate_apply_piece (t := S10x1000000) 0 [⟨S1x1000000, x6⟩, ⟨S4x1000000, x7⟩, ⟨S3x1000000, x8⟩, ⟨S2x1000000, x9⟩]
    concatenates_S1x1000000_S4x1000000_S3x1000000_S2x1000000_S10x1000000_d0 (ix2 (0 : Fin 10) p) 0 (by show (0 : Nat) < 4; decide)
    S1x1000000 x6 rfl rfl 0 rfl (ix2 (0 : Fin 1) p)
    (fun b hb => match b, hb with
      | ⟨0, _⟩, hb => absurd rfl hb
      | ⟨1, _⟩, _ => rfl)
    rfl

/-- Rows 1 to 4 of the stack are the second piece's four rows. -/
theorem stack_read1 (k : Fin 4) (p : Fin 1000000) :
    concatenate S10x1000000 0 [⟨S1x1000000, x6⟩, ⟨S4x1000000, x7⟩, ⟨S3x1000000, x8⟩, ⟨S2x1000000, x9⟩]
        concatenates_S1x1000000_S4x1000000_S3x1000000_S2x1000000_S10x1000000_d0
        (ix2 (⟨k.val + 1, by have := k.isLt; omega⟩ : Fin 10) p)
      = x7 (ix2 k p) :=
  concatenate_apply_piece (t := S10x1000000) 0 [⟨S1x1000000, x6⟩, ⟨S4x1000000, x7⟩, ⟨S3x1000000, x8⟩, ⟨S2x1000000, x9⟩]
    concatenates_S1x1000000_S4x1000000_S3x1000000_S2x1000000_S10x1000000_d0
    (ix2 (⟨k.val + 1, by have := k.isLt; omega⟩ : Fin 10) p) 1 (by show (1 : Nat) < 4; decide)
    S4x1000000 x7 rfl rfl 1 rfl (ix2 k p)
    (fun b hb => match b, hb with
      | ⟨0, _⟩, hb => absurd rfl hb
      | ⟨1, _⟩, _ => rfl)
    (by show 1 + k.val = k.val + 1; omega)

/-- Rows 5 to 7 of the stack are the third piece's three rows. -/
theorem stack_read2 (k : Fin 3) (p : Fin 1000000) :
    concatenate S10x1000000 0 [⟨S1x1000000, x6⟩, ⟨S4x1000000, x7⟩, ⟨S3x1000000, x8⟩, ⟨S2x1000000, x9⟩]
        concatenates_S1x1000000_S4x1000000_S3x1000000_S2x1000000_S10x1000000_d0
        (ix2 (⟨k.val + 5, by have := k.isLt; omega⟩ : Fin 10) p)
      = x8 (ix2 k p) :=
  concatenate_apply_piece (t := S10x1000000) 0 [⟨S1x1000000, x6⟩, ⟨S4x1000000, x7⟩, ⟨S3x1000000, x8⟩, ⟨S2x1000000, x9⟩]
    concatenates_S1x1000000_S4x1000000_S3x1000000_S2x1000000_S10x1000000_d0
    (ix2 (⟨k.val + 5, by have := k.isLt; omega⟩ : Fin 10) p) 2 (by show (2 : Nat) < 4; decide)
    S3x1000000 x8 rfl rfl 5 rfl (ix2 k p)
    (fun b hb => match b, hb with
      | ⟨0, _⟩, hb => absurd rfl hb
      | ⟨1, _⟩, _ => rfl)
    (by show 5 + k.val = k.val + 5; omega)

/-- Rows 8 and 9 of the stack are the fourth piece's two rows. -/
theorem stack_read3 (k : Fin 2) (p : Fin 1000000) :
    concatenate S10x1000000 0 [⟨S1x1000000, x6⟩, ⟨S4x1000000, x7⟩, ⟨S3x1000000, x8⟩, ⟨S2x1000000, x9⟩]
        concatenates_S1x1000000_S4x1000000_S3x1000000_S2x1000000_S10x1000000_d0
        (ix2 (⟨k.val + 8, by have := k.isLt; omega⟩ : Fin 10) p)
      = x9 (ix2 k p) :=
  concatenate_apply_piece (t := S10x1000000) 0 [⟨S1x1000000, x6⟩, ⟨S4x1000000, x7⟩, ⟨S3x1000000, x8⟩, ⟨S2x1000000, x9⟩]
    concatenates_S1x1000000_S4x1000000_S3x1000000_S2x1000000_S10x1000000_d0
    (ix2 (⟨k.val + 8, by have := k.isLt; omega⟩ : Fin 10) p) 3 (by show (3 : Nat) < 4; decide)
    S2x1000000 x9 rfl rfl 8 rfl (ix2 k p)
    (fun b hb => match b, hb with
      | ⟨0, _⟩, hb => absurd rfl hb
      | ⟨1, _⟩, _ => rfl)
    (by show 8 + k.val = k.val + 8; omega)

end Reads

section Entry
variable (m : (ℓ : Loc nD τ sig) → Buf (Elt Ideal) ℓ) (c : Dev nD)

/-- The padded array at a real node's lane is the stacked [10, N] array there. -/
theorem v11_read (r : Fin 10) (p : Fin 1000000) :
    (E0 m c (Proc.devRef .tc main_v11) : S10x1048576.Idx → EReal)
        (ix2 r (⟨p.val, by have := p.isLt; omega⟩ : Fin 1048576))
      = (StableHlo.after (hostOps0_1 (F := Ideal)) (StableHlo.after (hostOps0 (F := Ideal)) (fun b => m (c, b)))
          (Proc.devRef .tc main_v10) : S10x1000000.Idx → EReal) (ix2 r p) := by
  rw [E0_eq, s3_v11, s2_v11]
  exact pad_read _ _ r p

/-- Row 0 of the padded array, at a real node: the node's label. -/
theorem comb_label (p : Fin 1000000) :
    (E0 m c (Proc.devRef .tc main_v11) : S10x1048576.Idx → EReal)
        (ix2 (0 : Fin 10) (⟨p.val, by have := p.isLt; omega⟩ : Fin 1048576))
      = (m ((c.tc : Thread nD τ).loc main_arg2) : S1000000x1.Idx → EReal) (ix2 p (0 : Fin 1)) := by
  rw [v11_read, s1_v10]
  refine (stack_read0 _ _ _ _ p).trans ?_
  refine (transpose_apply _ _ _ (ix2 (0 : Fin 1) p) (ix2 p (0 : Fin 1))
    (fun b => match b with | ⟨0, _⟩ => rfl | ⟨1, _⟩ => rfl)).trans ?_
  rw [s0_arg2]

/-- Rows 5 to 7 of the padded array, at a real node: the node's three features. -/
theorem comb_feat (p : Fin 1000000) (k : Fin 3) :
    (E0 m c (Proc.devRef .tc main_v11) : S10x1048576.Idx → EReal)
        (ix2 (⟨k.val + 5, by have := k.isLt; omega⟩ : Fin 10) (⟨p.val, by have := p.isLt; omega⟩ : Fin 1048576))
      = (m ((c.tc : Thread nD τ).loc main_arg0) : S1000000x3.Idx → EReal) (ix2 p k) := by
  rw [v11_read, s1_v10]
  refine (stack_read2 _ _ _ _ k p).trans ?_
  refine (transpose_apply _ _ _ (ix2 k p) (ix2 p k)
    (fun b => match b with | ⟨0, _⟩ => rfl | ⟨1, _⟩ => rfl)).trans ?_
  rw [s0_arg0]

/-- Rows 8 and 9 of the padded array, at a real node: the node's two attributes. -/
theorem comb_x (p : Fin 1000000) (k : Fin 2) :
    (E0 m c (Proc.devRef .tc main_v11) : S10x1048576.Idx → EReal)
        (ix2 (⟨k.val + 8, by have := k.isLt; omega⟩ : Fin 10) (⟨p.val, by have := p.isLt; omega⟩ : Fin 1048576))
      = (m ((c.tc : Thread nD τ).loc main_arg1) : S1000000x2.Idx → EReal) (ix2 p k) := by
  rw [v11_read, s1_v10]
  refine (stack_read3 _ _ _ _ k p).trans ?_
  refine (transpose_apply _ _ _ (ix2 k p) (ix2 p k)
    (fun b => match b with | ⟨0, _⟩ => rfl | ⟨1, _⟩ => rfl)).trans ?_
  rw [s0_arg1]

/-- Rows 1 to 4 of the padded array, at a real node: the node's row of the scattered sums. -/
theorem comb_sd (p : Fin 1000000) (k : Fin 4) :
    (E0 m c (Proc.devRef .tc main_v11) : S10x1048576.Idx → EReal)
        (ix2 (⟨k.val + 1, by have := k.isLt; omega⟩ : Fin 10) (⟨p.val, by have := p.isLt; omega⟩ : Fin 1048576))
      = Cert.SdSplit.SD (m ((c.tc : Thread nD τ).loc main_arg0)) (m ((c.tc : Thread nD τ).loc main_arg11))
          (m ((c.tc : Thread nD τ).loc main_arg12)) (ix2 p k) := by
  rw [v11_read, s1_v10]
  refine (stack_read1 _ _ _ _ k p).trans ?_
  refine (transpose_apply _ _ _ (ix2 k p) (ix2 p k)
    (fun b => match b with | ⟨0, _⟩ => rfl | ⟨1, _⟩ => rfl)).trans ?_
  rw [s0_arg12, s0_v0]
  unfold Cert.SdSplit.SD
  rfl
end Entry

end Cert.KernelIdeal.Entry

end
-- ==== Proof.EntrySmall.lean ====
/-
  The six small arrays the region reads, as the kernel program's host operations leave them.

  Before its one region the program runs forty-six host operations.  The last eight add the three biases of the
  activation into one vector of three and cast it to a column, cast the last bias to a column, and transpose the
  four weights; the thirty-eight before them write neither a weight, a bias nor one of these results.  So, when
  the region is entered, each transposed weight holds at `(j, k)` the launch's weight at `(k, j)`, the summed-bias
  column holds at `(j, 0)` the sum of the three biases at `j`, and the last-bias column holds the last bias at `j`.
-/
import proofs.«400974_j5841155522892_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

noncomputable section

namespace Cert.KernelIdeal.EntrySmall

open Idealize.ShloMosaic Idealize.ShloMosaic.TcCoe Idealize.ShloMosaic.ValueIdx Idealize.SL.Sem Cert.KernelIdeal Cert.KernelIdeal.Gen

/-- What core `c`'s buffers hold when the region is entered: the launch memory after the forty-six host operations. -/
abbrev E0 (m : (ℓ : Loc nD τ sig) → Buf (Elt Ideal) ℓ) (c : Dev nD) : Valuation τ sig (Elt Ideal) :=
  StableHlo.after (List.flatten [hostOps0, hostOps0_1, hostOps0_2, hostOps0_3]) (fun b => m (c, b))

/-! The launch's small arrays, each by an abbreviation of its literal type. -/

/-- The label weight, `[1, 3]`. -/
abbrev w0v (m : (ℓ : Loc nD τ sig) → Buf (Elt Ideal) ℓ) (c : Dev nD) : S1x3.Idx → EReal := m ((c.tc : Thread nD τ).loc main_arg3)
/-- The first bias, `[3]`. -/
abbrev b0v (m : (ℓ : Loc nD τ sig) → Buf (Elt Ideal) ℓ) (c : Dev nD) : S3.Idx → EReal := m ((c.tc : Thread nD τ).loc main_arg4)
/-- The message weight, `[3, 3]`. -/
abbrev w1v (m : (ℓ : Loc nD τ sig) → Buf (Elt Ideal) ℓ) (c : Dev nD) : S3x3.Idx → EReal := m ((c.tc : Thread nD τ).loc main_arg5)
/-- The second bias, `[3]`. -/
abbrev b1v (m : (ℓ : Loc nD τ sig) → Buf (Elt Ideal) ℓ) (c : Dev nD) : S3.Idx → EReal := m ((c.tc : Thread nD τ).loc main_arg6)
/-- The attribute weight, `[2, 3]`. -/
abbrev w2v (m : (ℓ : Loc nD τ sig) → Buf (Elt Ideal) ℓ) (c : Dev nD) : S2x3.Idx → EReal := m ((c.tc : Thread nD τ).loc main_arg7)
/-- The third bias, `[3]`. -/
abbrev b2v (m : (ℓ : Loc nD τ sig) → Buf (Elt Ideal) ℓ) (c : Dev nD) : S3.Idx → EReal := m ((c.tc : Thread nD τ).loc main_arg8)
/-- The last weight, `[9, 3]`. -/
abbrev wav (m : (ℓ : Loc nD τ sig) → Buf (Elt Ideal) ℓ) (c : Dev nD) : S9x3.Idx → EReal := m ((c.tc : Thread nD τ).loc main_arg9)
/-- The last bias, `[3]`. -/
abbrev bav (m : (ℓ : Loc nD τ sig) → Buf (Elt Ideal) ℓ) (c : Dev nD) : S3.Idx → EReal := m ((c.tc : Thread nD τ).loc main_arg10)

/-! ## Each small array as the host operations' term of the launch memory -/

theorem w0t_eq (m : (ℓ : Loc nD τ sig) → Buf (Elt Ideal) ℓ) (c : Dev nD) :
    (E0 m c (Proc.devRef .tc main_v16) : S3x1.Idx → EReal)
      = transpose S3x1 [1, 0] (w0v m c) transposes_S1x3_S3x1_1_0 := by
  dsimp only [E0]
  simp only [hostOps0, hostOps0_1, hostOps0_2, hostOps0_3, List.flatten_cons, List.flatten_nil, List.append_nil, List.cons_append, List.nil_append]
  after_results

theorem w1t_eq (m : (ℓ : Loc nD τ sig) → Buf (Elt Ideal) ℓ) (c : Dev nD) :
    (E0 m c (Proc.devRef .tc main_v17) : S3x3.Idx → EReal)
      = transpose S3x3 [1, 0] (w1v m c) transposes_S3x3_S3x3_1_0 := by
  dsimp only [E0]
  simp only [hostOps0, hostOps0_1, hostOps0_2, hostOps0_3, List.flatten_cons, List.flatten_nil, List.append_nil, List.cons_append, List.nil_append]
  after_results

theorem w2t_eq (m : (ℓ : Loc nD τ sig) → Buf (Elt Ideal) ℓ) (c : Dev nD) :
    (E0 m c (Proc.devRef .tc main_v18) : S3x2.Idx → EReal)
      = transpose S3x2 [1, 0] (w2v m c) transposes_S2x3_S3x2_1_0 := by
  dsimp only [E0]
  simp only [hostOps0, hostOps0_1, hostOps0_2, hostOps0_3, List.flatten_cons, List.flatten_nil, List.append_nil, List.cons_append, List.nil_append]
  after_results

theorem wat_eq (m : (ℓ : Loc nD τ sig) → Buf (Elt Ideal) ℓ) (c : Dev nD) :
    (E0 m c (Proc.devRef .tc main_v19) : S3x9.Idx → EReal)
      = transpose S3x9 [1, 0] (wav m c) transposes_S9x3_S3x9_1_0 := by
  dsimp only [E0]
  simp only [hostOps0, hostOps0_1, hostOps0_2, hostOps0_3, List.flatten_cons, List.flatten_nil, List.append_nil, List.cons_append, List.nil_append]
  after_results

theorem bac_eq (m : (ℓ : Loc nD τ sig) → Buf (Elt Ideal) ℓ) (c : Dev nD) :
    (E0 m c (Proc.devRef .tc main_v15) : S3x1.Idx → EReal)
      = shapeCast S3x1 (bav m c) shapeCasts_S3_S3x1 := by
  dsimp only [E0]
  simp only [hostOps0, hostOps0_1, hostOps0_2, hostOps0_3, List.flatten_cons, List.flatten_nil, List.append_nil, List.cons_append, List.nil_append]
  after_results
  rfl

theorem b012_eq (m : (ℓ : Loc nD τ sig) → Buf (Elt Ideal) ℓ) (c : Dev nD) :
    (E0 m c (Proc.devRef .tc main_v14) : S3x1.Idx → EReal)
      = shapeCast S3x1 (addf (F := Ideal) (addf (F := Ideal) (b0v m c) (b1v m c)) (b2v m c) : FVec Ideal S3 .f32) shapeCasts_S3_S3x1 := by
  dsimp only [E0]
  simp only [hostOps0, hostOps0_1, hostOps0_2, hostOps0_3, List.flatten_cons, List.flatten_nil, List.append_nil, List.cons_append, List.nil_append]
  after_results_simp
  rfl

/-! ## Each small array at an index -/

/-- The label weight, transposed: at `(j, k)` the launch's weight at `(k, j)`. -/
theorem w0t_apply (m : (ℓ : Loc nD τ sig) → Buf (Elt Ideal) ℓ) (c : Dev nD) (j : Fin 3) (k : Fin 1) :
    (E0 m c (Proc.devRef .tc main_v16) : S3x1.Idx → EReal) (ix2 j k) = m ((c.tc : Thread nD τ).loc main_arg3) (ix2 k j) := by
  rw [w0t_eq]
  exact transpose_ix2_apply (w0v m c) transposes_S1x3_S3x1_1_0 j k

/-- The message weight, transposed. -/
theorem w1t_apply (m : (ℓ : Loc nD τ sig) → Buf (Elt Ideal) ℓ) (c : Dev nD) (j : Fin 3) (k : Fin 3) :
    (E0 m c (Proc.devRef .tc main_v17) : S3x3.Idx → EReal) (ix2 j k) = m ((c.tc : Thread nD τ).loc main_arg5) (ix2 k j) := by
  rw [w1t_eq]
  exact transpose_ix2_apply (w1v m c) transposes_S3x3_S3x3_1_0 j k

/-- The attribute weight, transposed. -/
theorem w2t_apply (m : (ℓ : Loc nD τ sig) → Buf (Elt Ideal) ℓ) (c : Dev nD) (j : Fin 3) (k : Fin 2) :
    (E0 m c (Proc.devRef .tc main_v18) : S3x2.Idx → EReal) (ix2 j k) = m ((c.tc : Thread nD τ).loc main_arg7) (ix2 k j) := by
  rw [w2t_eq]
  exact transpose_ix2_apply (w2v m c) transposes_S2x3_S3x2_1_0 j k

/-- The last weight, transposed. -/
theorem wat_apply (m : (ℓ : Loc nD τ sig) → Buf (Elt Ideal) ℓ) (c : Dev nD) (j : Fin 3) (k : Fin 9) :
    (E0 m c (Proc.devRef .tc main_v19) : S3x9.Idx → EReal) (ix2 j k) = m ((c.tc : Thread nD τ).loc main_arg9) (ix2 k j) := by
  rw [wat_eq]
  exact transpose_ix2_apply (wav m c) transposes_S9x3_S3x9_1_0 j k

/-- A vector of three cast to a column reads, at `(j, 0)`, the vector at `j`. -/
theorem col_apply (x : S3.Idx → EReal) (h : S3.ShapeCasts S3x1) (j : Fin 3) :
    shapeCast S3x1 x h (ix2 j (0 : Fin 1)) = x (ix1 j) :=
  shapeCast_apply x h _ _ (by
    rw [Shape.rowMajor_val_two, Shape.rowMajor_val_one]
    show j.val = j.val * 1 + 0
    omega)

/-- The three biases of the activation, summed, as a column. -/
theorem b012_apply (m : (ℓ : Loc nD τ sig) → Buf (Elt Ideal) ℓ) (c : Dev nD) (j : Fin 3) :
    (E0 m c (Proc.devRef .tc main_v14) : S3x1.Idx → EReal) (ix2 j (0 : Fin 1))
      = (b0v m c (ix1 j) + b1v m c (ix1 j)) + b2v m c (ix1 j) := by
  rw [b012_eq, col_apply]
  rfl

/-- The last bias as a column. -/
theorem bac_apply (m : (ℓ : Loc nD τ sig) → Buf (Elt Ideal) ℓ) (c : Dev nD) (j : Fin 3) :
    (E0 m c (Proc.devRef .tc main_v15) : S3x1.Idx → EReal) (ix2 j (0 : Fin 1)) = m ((c.tc : Thread nD τ).loc main_arg10) (ix1 j) := by
  rw [bac_eq, col_apply]

end Cert.KernelIdeal.EntrySmall

end
-- ==== Proof.Bridge.lean ====
/-
  The two programs compute one result.

  Node `n`'s column of the channels-first arrays the kernel program's region is handed holds the node's label, its
  summed incoming messages and in-degree, its feature and its attribute; the small operands are the transposed
  weights, the sum of the first layer's three biases, and the last bias.  With every source index inside the node
  range the fill of the gather never fires, and the one four-channel summation is the reference's summed messages in
  its first three channels and its in-degree in the fourth.  The per-node update in the kernel's arrangement is then
  the reference's, by commutativity and associativity of exact addition and multiplication.
-/
import proofs.«400974_j5841155522892_2_alg».proof.Proof.KernelValue
import proofs.«400974_j5841155522892_2_alg».proof.Proof.PreDecode
import proofs.«400974_j5841155522892_2_alg».proof.Proof.RefValue
import proofs.«400974_j5841155522892_2_alg».proof.Proof.Spec
import proofs.«400974_j5841155522892_2_alg».proof.Proof.Entry
import proofs.«400974_j5841155522892_2_alg».proof.Proof.EntrySmall
import proofs.«400974_j5841155522892_2_alg».proof.Proof.SdSplit
import proofs.«400974_j5841155522892_2_alg».proof.Defs

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- Node `n`'s update as the kernel program computes it is the reference's arrangement of the same update, of the
    launch arrays, the reference's summed messages and its in-degree. -/
theorem kernel_node (hpre : Cert.Pre_KernelIdeal m) (c : Dev nD) (n : Fin 1000000) (j : Fin 3) :
    Cert.KernelIdeal.KV.GK' m c j ⟨n.val, by omega⟩
      = Cert.Spec.nodeR (fun k j' => m ((c.tc : Thread nD τ).loc main_arg3) (ix2 k j')) (fun k j' => m ((c.tc : Thread nD τ).loc main_arg5) (ix2 k j'))
          (fun k j' => m ((c.tc : Thread nD τ).loc main_arg7) (ix2 k j')) (fun k j' => m ((c.tc : Thread nD τ).loc main_arg9) (ix2 k j'))
          (fun j' => m ((c.tc : Thread nD τ).loc main_arg4) (ix1 j')) (fun j' => m ((c.tc : Thread nD τ).loc main_arg6) (ix1 j'))
          (fun j' => m ((c.tc : Thread nD τ).loc main_arg8) (ix1 j')) (fun j' => m ((c.tc : Thread nD τ).loc main_arg10) (ix1 j'))
          (fun k => m ((c.tc : Thread nD τ).loc main_arg2) (ix2 n k))
          (fun k => Cert.ReferenceIdeal.RefValue.S1 (m ((c.tc : Thread nD τ).loc main_arg0)) (m ((c.tc : Thread nD τ).loc main_arg11)) (m ((c.tc : Thread nD τ).loc main_arg12)) (ix2 n k))
          (Cert.ReferenceIdeal.RefValue.DEG (m ((c.tc : Thread nD τ).loc main_arg12)) (ix1 n))
          (fun k => m ((c.tc : Thread nD τ).loc main_arg0) (ix2 n k)) (fun k => m ((c.tc : Thread nD τ).loc main_arg1) (ix2 n k)) j := by
  obtain ⟨hs, hd⟩ := Cert.SdSplit.sd_split (m ((c.tc : Thread nD τ).loc main_arg0)) (m ((c.tc : Thread nD τ).loc main_arg11))
    (m ((c.tc : Thread nD τ).loc main_arg12)) (Cert.KernelIdeal.PreDecode.src_in_range m hpre c) n
  rw [← Cert.Spec.nodeK_eq_nodeR]
  unfold Cert.KernelIdeal.KV.GK'
  have e0 : (fun (k : Fin 1) (j' : Fin 3) => Cert.KernelIdeal.KV.w0t m c (ix2 j' k)) = fun k j' => m ((c.tc : Thread nD τ).loc main_arg3) (ix2 k j') := by
    funext k j'; exact Cert.KernelIdeal.EntrySmall.w0t_apply m c j' k
  have e1 : (fun (k : Fin 3) (j' : Fin 3) => Cert.KernelIdeal.KV.w1t m c (ix2 j' k)) = fun k j' => m ((c.tc : Thread nD τ).loc main_arg5) (ix2 k j') := by
    funext k j'; exact Cert.KernelIdeal.EntrySmall.w1t_apply m c j' k
  have e2 : (fun (k : Fin 2) (j' : Fin 3) => Cert.KernelIdeal.KV.w2t m c (ix2 j' k)) = fun k j' => m ((c.tc : Thread nD τ).loc main_arg7) (ix2 k j') := by
    funext k j'; exact Cert.KernelIdeal.EntrySmall.w2t_apply m c j' k
  have e3 : (fun (k : Fin 9) (j' : Fin 3) => Cert.KernelIdeal.KV.wat m c (ix2 j' k)) = fun k j' => m ((c.tc : Thread nD τ).loc main_arg9) (ix2 k j') := by
    funext k j'; exact Cert.KernelIdeal.EntrySmall.wat_apply m c j' k
  have eb : (fun j' : Fin 3 => Cert.KernelIdeal.KV.b012 m c (ix2 j' 0)) = _ := funext fun j' => Cert.KernelIdeal.EntrySmall.b012_apply m c j'
  have eba : (fun j' : Fin 3 => Cert.KernelIdeal.KV.bac m c (ix2 j' 0)) = fun j' => m ((c.tc : Thread nD τ).loc main_arg10) (ix1 j') := by
    funext j'; exact Cert.KernelIdeal.EntrySmall.bac_apply m c j'
  have el : (fun _ : Fin 1 => Cert.KernelIdeal.KV.comb m c (ix2 0 ⟨n.val, by omega⟩)) = fun k => m ((c.tc : Thread nD τ).loc main_arg2) (ix2 n k) := by
    funext k; rw [Subsingleton.elim k 0]; exact Cert.KernelIdeal.Entry.comb_label m c n
  have es : (fun k : Fin 3 => Cert.KernelIdeal.KV.comb m c (ix2 ⟨k.val + 1, by omega⟩ ⟨n.val, by omega⟩))
      = fun k => Cert.ReferenceIdeal.RefValue.S1 (m ((c.tc : Thread nD τ).loc main_arg0)) (m ((c.tc : Thread nD τ).loc main_arg11)) (m ((c.tc : Thread nD τ).loc main_arg12)) (ix2 n k) := by
    funext k; exact (Cert.KernelIdeal.Entry.comb_sd m c n k.castSucc).trans (hs k)
  have ed : Cert.KernelIdeal.KV.comb m c (ix2 4 ⟨n.val, by omega⟩) = Cert.ReferenceIdeal.RefValue.DEG (m ((c.tc : Thread nD τ).loc main_arg12)) (ix1 n) :=
    (Cert.KernelIdeal.Entry.comb_sd m c n 3).trans hd
  have ef : (fun k : Fin 3 => Cert.KernelIdeal.KV.comb m c (ix2 ⟨k.val + 5, by omega⟩ ⟨n.val, by omega⟩)) = fun k => m ((c.tc : Thread nD τ).loc main_arg0) (ix2 n k) := by
    funext k; exact Cert.KernelIdeal.Entry.comb_feat m c n k
  have ex : (fun k : Fin 2 => Cert.KernelIdeal.KV.comb m c (ix2 ⟨k.val + 8, by omega⟩ ⟨n.val, by omega⟩)) = fun k => m ((c.tc : Thread nD τ).loc main_arg1) (ix2 n k) := by
    funext k; exact Cert.KernelIdeal.Entry.comb_x m c n k
  rw [e0, e1, e2, e3, eb, eba, el, es, ed, ef, ex]
  try rfl

/-- THE TWO RESULTS ARE ONE: from memories that agree on the arguments, the reference's result is the kernel
    program's, at every node and channel. -/
theorem result_eq (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    Cert.ReferenceIdeal.Value.res_main_v39 (F := Ideal) m' c
      = Pipeline.afterTail₀ Cert.KernelIdeal.cfgs (Cert.KernelIdeal.Fr.dats m) 0 (Cert.KernelIdeal.Fr.V0 m) [Cert.KernelIdeal.Gen.hostOps1] c Cert.KernelIdeal.main_v22 := by
  funext i
  obtain ⟨n, j, rfl⟩ : ∃ (n : Fin 1000000) (j : Fin 3), i = ix2 n j := ⟨i 0, i 1, eq_ix2 i⟩
  refine (Cert.ReferenceIdeal.RefValue.ref_apply m' c n j).trans ?_
  refine Eq.trans ?_ ((Cert.KernelIdeal.KV.result_apply m c n j).trans (kernel_node m hpre c n j)).symm
  obtain ⟨h0, h1, h2, h3, h4, h5, h6, h7, h8, h9, h10, h11, h12⟩ := hagree c
  rw [h0, h1, h2, h3, h4, h5, h6, h7, h8, h9, h10, h11, h12]

end Cert.Bridge

end
-- ==== Proof.lean ====
/-
  The certificate of the message-passing layer: a Pallas kernel that updates every node of a graph of a million
  nodes and sixteen million edges from the mean of its incoming messages, against its plain reference.

  Both programs gather the source node's feature along every edge and add it up per destination node together with
  the in-degree; the mean message is the sum over the degree floored at one; the update is two small dense layers
  with `relu`.  The kernel program fuses the two summations into one of four channels, lays the node data out
  channels-first, pads the node axis to sixteen tiles of 65536 lanes, runs one pipelined region over the tiles and
  cuts and transposes the result back; it multiplies weight by datum and adds the three biases of the first layer at
  once, where the reference multiplies datum by weight and adds each bias after its own product.

  The statement assumes every float input finite and every source index inside the node range `0 … 999999`:
  outside that range the reference's own indexing is out of range (it clamps), and the kernel program fills with a
  not-a-number word instead.  Inside it the two gathers are one.  Exact addition and multiplication on the extended
  reals are commutative and associative, which is all the comparison of the two arrangements needs; no finiteness of
  the float inputs is used.

  The three frames: both kernel programs by the hand-written frame of their one region between the host operations
  (the same text at the word instance and at the exact instance), the reference by its generated run.  The
  idealization rewrote nothing, so `preserves` is trivial.
-/
import proofs.«400974_j5841155522892_2_alg».proof.Defs
import proofs.«400974_j5841155522892_2_alg».proof.Proof.Gen.Kernel
import proofs.«400974_j5841155522892_2_alg».proof.Proof.Gen.KernelIdeal
import proofs.«400974_j5841155522892_2_alg».proof.Proof.Gen.ReferenceIdeal
import proofs.«400974_j5841155522892_2_alg».proof.Proof.Gen.Pre_finite_inputs
import proofs.«400974_j5841155522892_2_alg».proof.Proof.Gen.ReferenceIdeal.Run
import proofs.«400974_j5841155522892_2_alg».proof.Proof.KFrame
import proofs.«400974_j5841155522892_2_alg».proof.Proof.KIFrame
import proofs.«400974_j5841155522892_2_alg».proof.Proof.Bridge

noncomputable section

namespace Cert.Proof

open Idealize.ShloMosaic Idealize.ShloMosaic.TcCoe Idealize.SL.Sem

/-- The word-level kernel program runs, faults nowhere and leaves its thirteen argument arrays as launched. -/
theorem frame_k : Cert.frame_Kernel := fun m ρ _ =>
  (θ_run Cert.Kernel.defs _ _).mono (fun _ h c =>
    ⟨(h c).2 Cert.Kernel.main_arg0 (by simp [Cert.Kernel.Fr.argRefs]),
      (h c).2 Cert.Kernel.main_arg1 (by simp [Cert.Kernel.Fr.argRefs]),
      (h c).2 Cert.Kernel.main_arg2 (by simp [Cert.Kernel.Fr.argRefs]),
      (h c).2 Cert.Kernel.main_arg3 (by simp [Cert.Kernel.Fr.argRefs]),
      (h c).2 Cert.Kernel.main_arg4 (by simp [Cert.Kernel.Fr.argRefs]),
      (h c).2 Cert.Kernel.main_arg5 (by simp [Cert.Kernel.Fr.argRefs]),
      (h c).2 Cert.Kernel.main_arg6 (by simp [Cert.Kernel.Fr.argRefs]),
      (h c).2 Cert.Kernel.main_arg7 (by simp [Cert.Kernel.Fr.argRefs]),
      (h c).2 Cert.Kernel.main_arg8 (by simp [Cert.Kernel.Fr.argRefs]),
      (h c).2 Cert.Kernel.main_arg9 (by simp [Cert.Kernel.Fr.argRefs]),
      (h c).2 Cert.Kernel.main_arg10 (by simp [Cert.Kernel.Fr.argRefs]),
      (h c).2 Cert.Kernel.main_arg11 (by simp [Cert.Kernel.Fr.argRefs]),
      (h c).2 Cert.Kernel.main_arg12 (by simp [Cert.Kernel.Fr.argRefs])⟩)
    (Cert.Kernel.Fr.run_named (F := Bits) m ρ)

/-- So does its idealization. -/
theorem frame_ki : Cert.frame_KernelIdeal := fun m ρ _ =>
  (θ_run Cert.KernelIdeal.defs _ _).mono (fun _ h c =>
    ⟨(h c).2 Cert.KernelIdeal.main_arg0 (by simp [Cert.KernelIdeal.Fr.argRefs]),
      (h c).2 Cert.KernelIdeal.main_arg1 (by simp [Cert.KernelIdeal.Fr.argRefs]),
      (h c).2 Cert.KernelIdeal.main_arg2 (by simp [Cert.KernelIdeal.Fr.argRefs]),
      (h c).2 Cert.KernelIdeal.main_arg3 (by simp [Cert.KernelIdeal.Fr.argRefs]),
      (h c).2 Cert.KernelIdeal.main_arg4 (by simp [Cert.KernelIdeal.Fr.argRefs]),
      (h c).2 Cert.KernelIdeal.main_arg5 (by simp [Cert.KernelIdeal.Fr.argRefs]),
      (h c).2 Cert.KernelIdeal.main_arg6 (by simp [Cert.KernelIdeal.Fr.argRefs]),
      (h c).2 Cert.KernelIdeal.main_arg7 (by simp [Cert.KernelIdeal.Fr.argRefs]),
      (h c).2 Cert.KernelIdeal.main_arg8 (by simp [Cert.KernelIdeal.Fr.argRefs]),
      (h c).2 Cert.KernelIdeal.main_arg9 (by simp [Cert.KernelIdeal.Fr.argRefs]),
      (h c).2 Cert.KernelIdeal.main_arg10 (by simp [Cert.KernelIdeal.Fr.argRefs]),
      (h c).2 Cert.KernelIdeal.main_arg11 (by simp [Cert.KernelIdeal.Fr.argRefs]),
      (h c).2 Cert.KernelIdeal.main_arg12 (by simp [Cert.KernelIdeal.Fr.argRefs])⟩)
    (Cert.KernelIdeal.Fr.run_named (F := Ideal) m ρ)

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs run, and end with one result: the kernel
    program's, node by node the update of that node's column; the reference's the same function in another
    arrangement. -/
theorem algebraic : Cert.algebraic_KernelIdeal_ReferenceIdeal := by
  intro m ρ m' ρ' hpre hagree
  refine ⟨fun c => Pipeline.afterTail₀ Cert.KernelIdeal.cfgs (Cert.KernelIdeal.Fr.dats m) 0 (Cert.KernelIdeal.Fr.V0 m)
    [Cert.KernelIdeal.Gen.hostOps1] c Cert.KernelIdeal.main_v22, ?_, ?_⟩
  · exact (θ_run Cert.KernelIdeal.defs _ _).mono (fun _ h c =>
      ⟨(h c).1,
      (h c).2 Cert.KernelIdeal.main_arg0 (by simp [Cert.KernelIdeal.Fr.argRefs]),
      (h c).2 Cert.KernelIdeal.main_arg1 (by simp [Cert.KernelIdeal.Fr.argRefs]),
      (h c).2 Cert.KernelIdeal.main_arg2 (by simp [Cert.KernelIdeal.Fr.argRefs]),
      (h c).2 Cert.KernelIdeal.main_arg3 (by simp [Cert.KernelIdeal.Fr.argRefs]),
      (h c).2 Cert.KernelIdeal.main_arg4 (by simp [Cert.KernelIdeal.Fr.argRefs]),
      (h c).2 Cert.KernelIdeal.main_arg5 (by simp [Cert.KernelIdeal.Fr.argRefs]),
      (h c).2 Cert.KernelIdeal.main_arg6 (by simp [Cert.KernelIdeal.Fr.argRefs]),
      (h c).2 Cert.KernelIdeal.main_arg7 (by simp [Cert.KernelIdeal.Fr.argRefs]),
      (h c).2 Cert.KernelIdeal.main_arg8 (by simp [Cert.KernelIdeal.Fr.argRefs]),
      (h c).2 Cert.KernelIdeal.main_arg9 (by simp [Cert.KernelIdeal.Fr.argRefs]),
      (h c).2 Cert.KernelIdeal.main_arg10 (by simp [Cert.KernelIdeal.Fr.argRefs]),
      (h c).2 Cert.KernelIdeal.main_arg11 (by simp [Cert.KernelIdeal.Fr.argRefs]),
      (h c).2 Cert.KernelIdeal.main_arg12 (by simp [Cert.KernelIdeal.Fr.argRefs])⟩)
      (Cert.KernelIdeal.Fr.run_named (F := Ideal) m ρ)
  · exact (θ_run Cert.ReferenceIdeal.defs _ _).mono (fun _ h c =>
      ⟨(h c).1.trans (Cert.Bridge.result_eq m m' hpre hagree c), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
